-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S131072 : Shape := ⟨1, ![131072]⟩
abbrev S1024x1026 : Shape := ⟨2, ![1024, 1026]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S1024x1026 : S_.BroadcastsInDim S1024x1026 (![] : Fin 0 → Fin S1024x1026.rank)
  reducesTo_S1024x1026_S_d0_1 : S1024x1026.ReducesTo [0, 1] S_
  bcast_S_S131072 : S_.BroadcastsInDim S131072 (![] : Fin 0 → Fin S131072.rank)
  reducesTo_S131072_S_d0 : S131072.ReducesTo [0] S_

variable [Facts]

def fn_part1 {F : FTy → Type} [FloatOps F] (main_arg1 : IVec S131072 32) (main_v13 : IVec S_ 1) (main_v15 : IVec S131072 1) (main_c_5 : IVec S_ 1) : IVec S_ 1 :=
  let main_v16 : IVec S_ 1 := (fun x v => Host.reduce IntOp.andi x v reducesTo_S131072_S_d0 h_S_) main_v15 main_c_5
  let main_v17 : IVec S_ 1 := andi main_v13 main_v16
  let main_c_6 : IVec S_ 32 := constantI S_ 32 1024#32
  let main_v18 : IVec S131072 32 := broadcastInDim S131072 ![] bcast_S_S131072 main_c_6
  let main_v19 : IVec S131072 1 := cmpi .slt main_arg1 main_v18
  let main_c_7 : IVec S_ 1 := constantI S_ 1 1#1
  let main_v20 : IVec S_ 1 := (fun x v => Host.reduce IntOp.andi x v reducesTo_S131072_S_d0 h_S_) main_v19 main_c_7
  let main_v21 : IVec S_ 1 := andi main_v17 main_v20
  main_v21

def fn {F : FTy → Type} [FloatOps F] (main_arg0 : FVec F S131072x512 .f32) (main_arg1 : IVec S131072 32) (main_arg2 : FVec F S131072x512 .f32) (main_arg3 : FVec F S1024x1026 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S131072x512 .f32 := Host.absf main_arg2
  let main_cst_0 : FVec F S_ .f32 := constant S_ .f32 0x7F800000#32
  let main_v5 : FVec F S131072x512 .f32 := broadcastInDim S131072x512 ![] bcast_S_S131072x512 main_cst_0
  let main_v6 : IVec S131072x512 1 := cmpf .olt main_v4 main_v5
  let main_c_1 : IVec S_ 1 := constantI S_ 1 1#1
  let main_v7 : IVec S_ 1 := (fun x v => Host.reduce IntOp.andi x v reducesTo_S131072x512_S_d0_1 h_S_) main_v6 main_c_1
  let main_v8 : IVec S_ 1 := andi main_v3 main_v7
  let main_v9 : FVec F S1024x1026 .f32 := Host.absf main_arg3
  let main_cst_2 : FVec F S_ .f32 := constant S_ .f32 0x7F800000#32
  let main_v10 : FVec F S1024x1026 .f32 := broadcastInDim S1024x1026 ![] bcast_S_S1024x1026 main_cst_2
  let main_v11 : IVec S1024x1026 1 := cmpf .olt main_v9 main_v10
  let main_c_3 : IVec S_ 1 := constantI S_ 1 1#1
  let main_v12 : IVec S_ 1 := (fun x v => Host.reduce IntOp.andi x v reducesTo_S1024x1026_S_d0_1 h_S_) main_v11 main_c_3
  let main_v13 : IVec S_ 1 := andi main_v8 main_v12
  let main_c_4 : IVec S_ 32 := constantI S_ 32 0#32
  let main_v14 : IVec S131072 32 := broadcastInDim S131072 ![] bcast_S_S131072 main_c_4
  let main_v15 : IVec S131072 1 := cmpi .sge main_arg1 main_v14
  let main_c_5 : IVec S_ 1 := constantI S_ 1 1#1
  fn_part1 (F := F) main_arg1 main_v13 main_v15 main_c_5
-- ==== Kernel.lean ====
abbrev S131072x512 : Shape := ⟨2, ![131072, 512]⟩
abbrev S131072 : Shape := ⟨1, ![131072]⟩
abbrev S1024x1026 : Shape := ⟨2, ![1024, 1026]⟩
abbrev S1024x512 : Shape := ⟨2, ![1024, 512]⟩
abbrev S1024x2x256 : Shape := ⟨3, ![1024, 2, 256]⟩
abbrev S1024x2 : Shape := ⟨2, ![1024, 2]⟩
abbrev S_ : Shape := ⟨0, ![]⟩
abbrev S1024x2x1 : Shape := ⟨3, ![1024, 2, 1]⟩
abbrev S1024x1x256 : Shape := ⟨3, ![1024, 1, 256]⟩
abbrev S1024x256 : Shape := ⟨2, ![1024, 256]⟩
abbrev S1024x1024 : Shape := ⟨2, ![1024, 1024]⟩
abbrev S131072x1 : Shape := ⟨2, ![131072, 1]⟩
abbrev S1024x1 : Shape := ⟨2, ![1024, 1]⟩
abbrev S1024 : Shape := ⟨1, ![1024]⟩

abbrev nBuf : Space → Nat
  | .hbm => 75
  | .vmem => 10
  | .smem => 0
  | _ => 0

abbrev bufTy : (tb : Table) → Fin (tcTables nBuf tb) → BufTy
  | .hbm, ⟨0, _⟩ => ⟨S131072x512, .f32⟩
  | .hbm, ⟨1, _⟩ => ⟨S131072, .i32⟩
  | .hbm, ⟨2, _⟩ => ⟨S131072x512, .f32⟩
  | .hbm, ⟨3, _⟩ => ⟨S1024x1026, .f32⟩
  | .hbm, ⟨4, _⟩ => ⟨S1024x512, .f32⟩
  | .hbm, ⟨5, _⟩ => ⟨S1024x2x256, .f32⟩
  | .hbm, ⟨6, _⟩ => ⟨S1024x512, .f32⟩
  | .hbm, ⟨7, _⟩ => ⟨S1024x2x256, .f32⟩
  | .hbm, ⟨8, _⟩ => ⟨S1024x2, .f32⟩
  | .hbm, ⟨9, _⟩ => ⟨S1024x2x256, .f32⟩
  | .hbm, ⟨10, _⟩ => ⟨S_, .f32⟩
  | .hbm, ⟨11, _⟩ => ⟨S_, .f32⟩
  | .hbm, ⟨12, _⟩ => ⟨S1024x2x256, .f32⟩
  | .hbm, ⟨13, _⟩ => ⟨S1024x2x256, .f32⟩
  | .hbm, ⟨14, _⟩ => ⟨S1024x2x256, .f32⟩
  | .hbm, ⟨15, _⟩ => ⟨S_, .f32⟩
  | .hbm, ⟨16, _⟩ => ⟨S1024x2, .f32⟩
  | .hbm, ⟨17, _⟩ => ⟨S1024x2x1, .f32⟩
  | .hbm, ⟨18, _⟩ => ⟨S_, .f32⟩
  | .hbm, ⟨19, _⟩ => ⟨S1024x2x1, .f32⟩
  | .hbm, ⟨20, _⟩ => ⟨S1024x2x1, .f32⟩
  | .hbm, ⟨21, _⟩ => ⟨S1024x2x1, .f32⟩
  | .hbm, ⟨22, _⟩ => ⟨S_, .f32⟩
  | .hbm, ⟨23, _⟩ => ⟨S_, .f32⟩
  | .hbm, ⟨24, _⟩ => ⟨S1024x2x1, .f32⟩
  | .hbm, ⟨25, _⟩ => ⟨S1024x2x1, .f32⟩
  | .hbm, ⟨26, _⟩ => ⟨S1024x2x256, .f32⟩
  | .hbm, ⟨27, _⟩ => ⟨S1024x2x256, .f32⟩
  | .hbm, ⟨28, _⟩ => ⟨S_, .f32⟩
  | .hbm, ⟨29, _⟩ => ⟨S1024x2, .f32⟩
  | .hbm, ⟨30, _⟩ => ⟨S1024x2, .i1⟩
  | .hbm, ⟨31, _⟩ => ⟨S_, .f32⟩
  | .hbm, ⟨32, _⟩ => ⟨S1024x2, .f32⟩
  | .hbm, ⟨33, _⟩ => ⟨S1024x2, .i1⟩
  | .hbm, ⟨34, _⟩ => ⟨S_, .f32⟩
  | .hbm, ⟨35, _⟩ => ⟨S_, .f32⟩
  | .hbm, ⟨36, _⟩ => ⟨S1024x2, .f32⟩
  | .hbm, ⟨37, _⟩ => ⟨S1024x2, .f32⟩
  | .hbm, ⟨38, _⟩ => ⟨S1024x2, .f32⟩
  | .hbm, ⟨39, _⟩ => ⟨S_, .f32⟩
  | .hbm, ⟨40, _⟩ => ⟨S1024x2, .f32⟩
  | .hbm, ⟨41, _⟩ => ⟨S1024x2, .f32⟩
  | .hbm, ⟨42, _⟩ => ⟨S1024x2, .f32⟩
  | .hbm, ⟨43, _⟩ => ⟨S1024x2x1, .f32⟩
  | .hbm, ⟨44, _⟩ => ⟨S_, .f32⟩
  | .hbm, ⟨45, _⟩ => ⟨S1024x2x1, .f32⟩
  | .hbm, ⟨46, _⟩ => ⟨S1024x2x1, .f32⟩
  | .hbm, ⟨47, _⟩ => ⟨S1024x2x256, .f32⟩
  | .hbm, ⟨48, _⟩ => ⟨S1024x2x256, .f32⟩
  | .hbm, ⟨49, _⟩ => ⟨S1024x2x256, .f32⟩
  | .hbm, ⟨50, _⟩ => ⟨S1024x2x256, .f32⟩
  | .hbm, ⟨51, _⟩ => ⟨S1024x1x256, .f32⟩
  | .hbm, ⟨52, _⟩ => ⟨S1024x256, .f32⟩
  | .hbm, ⟨53, _⟩ => ⟨S1024x1x256, .f32⟩
  | .hbm, ⟨54, _⟩ => ⟨S1024x256, .f32⟩
  | .hbm, ⟨55, _⟩ => ⟨S1024x1x256, .f32⟩
  | .hbm, ⟨56, _⟩ => ⟨S1024x256, .f32⟩
  | .hbm, ⟨57, _⟩ => ⟨S1024x1x256, .f32⟩
  | .hbm, ⟨58, _⟩ => ⟨S1024x256, .f32⟩
  | .hbm, ⟨59, _⟩ => ⟨S1024x1024, .f32⟩
  | .hbm, ⟨60, _⟩ => ⟨S1024x1024, .bf16⟩
  | .hbm, ⟨61, _⟩ => ⟨S1024x1024, .f32⟩
  | .hbm, ⟨62, _⟩ => ⟨S1024x1024, .f32⟩
  | .hbm, ⟨63, _⟩ => ⟨S1024x1024, .bf16⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S131072, .i32⟩
  | .hbm, ⟨68, _⟩ => ⟨S131072, .i32⟩
  | .hbm, ⟨69, _⟩ => ⟨S_, .i32⟩
  | .hbm, ⟨70, _⟩ => ⟨S131072, .i32⟩
  | .hbm, ⟨71, _⟩ => ⟨S131072, .i32⟩
  | .hbm, ⟨72, _⟩ => ⟨S131072x1, .i32⟩
  | .hbm, ⟨73, _⟩ => ⟨S131072x1, .f32⟩
  | .hbm, ⟨74, _⟩ => ⟨S131072, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1, .i32⟩
  | .local _ .vmem, ⟨5, _⟩ => ⟨S1024x1, .i32⟩
  | .local _ .vmem, ⟨6, _⟩ => ⟨S1024x1024, .bf16⟩
  | .local _ .vmem, ⟨7, _⟩ => ⟨S1024x1024, .bf16⟩
  | .local _ .vmem, ⟨8, _⟩ => ⟨S1024x1, .f32⟩
  | .local _ .vmem, ⟨9, _⟩ => ⟨S1024x1, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_call1_v0 : Ref sig .tc := ⟨.hbm, 23, rfl⟩
abbrev main_call1_v1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call2_cst : Ref sig .tc := ⟨.hbm, 28, rfl⟩
abbrev main_call2_v0 : Ref sig .tc := ⟨.hbm, 29, rfl⟩
abbrev main_call2_v1 : Ref sig .tc := ⟨.hbm, 30, rfl⟩
abbrev main_call2_cst_0 : Ref sig .tc := ⟨.hbm, 31, rfl⟩
abbrev main_call2_v2 : Ref sig .tc := ⟨.hbm, 32, rfl⟩
abbrev main_call2_v3 : Ref sig .tc := ⟨.hbm, 33, rfl⟩
abbrev main_call2_cst_1 : Ref sig .tc := ⟨.hbm, 34, rfl⟩
abbrev main_call2_call0_v0 : Ref sig .tc := ⟨.hbm, 35, rfl⟩
abbrev main_call2_call0_v1 : Ref sig .tc := ⟨.hbm, 36, rfl⟩
abbrev main_call2_v4 : Ref sig .tc := ⟨.hbm, 37, rfl⟩
abbrev main_call2_v5 : Ref sig .tc := ⟨.hbm, 38, rfl⟩
abbrev main_call2_cst_2 : Ref sig .tc := ⟨.hbm, 39, rfl⟩
abbrev main_call2_v6 : Ref sig .tc := ⟨.hbm, 40, rfl⟩
abbrev main_call2_v7 : Ref sig .tc := ⟨.hbm, 41, rfl⟩
abbrev main_v16 : Ref sig .tc := ⟨.hbm, 42, rfl⟩
abbrev main_v17 : Ref sig .tc := ⟨.hbm, 43, rfl⟩
abbrev main_cst_3 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c : Ref sig .tc := ⟨.hbm, 64, rfl⟩
abbrev main_c_4 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S1024x1026_S1024x512_0_0 : S1024x1026.Slices ![0, 0] S1024x512
  shapeCasts_S1024x512_S1024x2x256 : S1024x512.ShapeCasts S1024x2x256
  slices_S1024x1026_S1024x512_0_512 : S1024x1026.Slices ![0, 512] S1024x512
  slices_S1024x1026_S1024x2_0_1024 : S1024x1026.Slices ![0, 1024] S1024x2
  bcast_S_S1024x2x256 : S_.BroadcastsInDim S1024x2x256 (![] : Fin 0 → Fin S1024x2x256.rank)
  reducesTo_S1024x2x256_S1024x2_d2 : S1024x2x256.ReducesTo [2] S1024x2
  h_S_ : 0 < S_.numel
  bcast_S1024x2_S1024x2x1_0_1 : S1024x2.BroadcastsInDim S1024x2x1 (![0, 1] : Fin 2 → Fin S1024x2x1.rank)
  bcast_S_S1024x2x1 : S_.BroadcastsInDim S1024x2x1 (![] : Fin 0 → Fin S1024x2x1.rank)
  bcast_S1024x2x1_S1024x2x256_0_1_2 : S1024x2x1.BroadcastsInDim S1024x2x256 (![0, 1, 2] : Fin 3 → Fin S1024x2x256.rank)
  bcast_S_S1024x2 : S_.BroadcastsInDim S1024x2 (![] : Fin 0 → Fin S1024x2.rank)
  slices_S1024x2x256_S1024x1x256_0_0_0 : S1024x2x256.Slices ![0, 0, 0] S1024x1x256
  shapeCasts_S1024x1x256_S1024x256 : S1024x1x256.ShapeCasts S1024x256
  slices_S1024x2x256_S1024x1x256_0_1_0 : S1024x2x256.Slices ![0, 1, 0] S1024x1x256
  concatenates_S1024x256_S1024x256_S1024x256_S1024x256_S1024x1024_d1 : Shape.Concatenates [S1024x256, S1024x256, S1024x256, S1024x256] S1024x1024 1
  bitsLt_bf16_f32 : FTy.bits .bf16 < FTy.bits .f32
  bcast_S_S131072 : S_.BroadcastsInDim S131072 (![] : Fin 0 → Fin S131072.rank)
  shapeCasts_S131072_S131072x1 : S131072.ShapeCasts S131072x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1024_d1_w32 : S1024x1024.Iotas .tc 32 [1]
  broadcasts_S1024x1_S1024x1024 : S1024x1.Broadcasts S1024x1024
  natLt_1_32 : 1 < 32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S1024x1024_o0_0_S1024x256 : S1024x1024.Slices ![0, 0] S1024x256
  slices_S1024x1024_o0_256_S1024x256 : S1024x1024.Slices ![0, 256] S1024x256
  slices_S1024x1024_o0_512_S1024x256 : S1024x1024.Slices ![0, 512] S1024x256
  slices_S1024x1024_o0_768_S1024x256 : S1024x1024.Slices ![0, 768] S1024x256
  inb_S1024x512_S1024x512_0_0 : ∀ a, (![0, 0] : Fin 2 → Nat) a + S1024x512.size a ≤ S1024x512.size a
  h_S1024x512 : 0 < S1024x512.numel
  slices_S1024x512_o0_0_S1024x256 : S1024x512.Slices ![0, 0] S1024x256
  slices_S1024x512_o0_256_S1024x256 : S1024x512.Slices ![0, 256] S1024x256
  reduces_S1024x256_S1024 : S1024x256.Reduces [1] S1024
  shapeCasts_S1024_S1024x1 : S1024.ShapeCasts S1024x1
  shapeCasts_S131072x1_S131072 : S131072x1.ShapeCasts S131072
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S131072x512.size a
  hwx0_0 : ∀ i : grid0.Coords, EltTy.bits .f32 = 32 ∨ (Rect.block (s := S131072x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S131072x512.size a
  hwx0_1 : ∀ i : grid0.Coords, EltTy.bits .f32 = 32 ∨ (Rect.block (s := S131072x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S131072x1.size a
  hwx0_2 : ∀ i : grid0.Coords, EltTy.bits .i32 = 32 ∨ (Rect.block (s := S131072x1) S1024x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S131072x1.size a
  hwx0_5 : ∀ i : grid0.Coords, EltTy.bits .f32 = 32 ∨ (Rect.block (s := S131072x1) S1024x1.size (cc0_transform_5 i) (hinb0_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v36) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x512 : Shape := ⟨2, ![131072, 512]⟩
abbrev S131072 : Shape := ⟨1, ![131072]⟩
abbrev S1024x1026 : Shape := ⟨2, ![1024, 1026]⟩
abbrev S_ : Shape := ⟨0, ![]⟩
abbrev S131072x1 : Shape := ⟨2, ![131072, 1]⟩
abbrev S131072x1026 : Shape := ⟨2, ![131072, 1026]⟩
abbrev S131072x2x256 : Shape := ⟨3, ![131072, 2, 256]⟩
abbrev S131072x2 : Shape := ⟨2, ![131072, 2]⟩
abbrev S131072x256 : Shape := ⟨2, ![131072, 256]⟩
abbrev S131072x1x256 : Shape := ⟨3, ![131072, 1, 256]⟩
abbrev S131072x2x1 : Shape := ⟨3, ![131072, 2, 1]⟩

abbrev nBuf : Space → Nat
  | .hbm => 101
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S131072, .i32⟩
  | .hbm, ⟨2, _⟩ => ⟨S131072x512, .f32⟩
  | .hbm, ⟨3, _⟩ => ⟨S1024x1026, .f32⟩
  | .hbm, ⟨4, _⟩ => ⟨S_, .i32⟩
  | .hbm, ⟨5, _⟩ => ⟨S131072, .i32⟩
  | .hbm, ⟨6, _⟩ => ⟨S131072, .i1⟩
  | .hbm, ⟨7, _⟩ => ⟨S_, .i32⟩
  | .hbm, ⟨8, _⟩ => ⟨S131072, .i32⟩
  | .hbm, ⟨9, _⟩ => ⟨S131072, .i32⟩
  | .hbm, ⟨10, _⟩ => ⟨S131072, .i32⟩
  | .hbm, ⟨11, _⟩ => ⟨S131072x1, .i32⟩
  | .hbm, ⟨12, _⟩ => ⟨S131072x1026, .f32⟩
  | .hbm, ⟨13, _⟩ => ⟨S131072x512, .f32⟩
  | .hbm, ⟨14, _⟩ => ⟨S131072x2x256, .f32⟩
  | .hbm, ⟨15, _⟩ => ⟨S131072x512, .f32⟩
  | .hbm, ⟨16, _⟩ => ⟨S131072x2x256, .f32⟩
  | .hbm, ⟨17, _⟩ => ⟨S131072x2, .f32⟩
  | .hbm, ⟨18, _⟩ => ⟨S131072x256, .f32⟩
  | .hbm, ⟨19, _⟩ => ⟨S131072x256, .f32⟩
  | .hbm, ⟨20, _⟩ => ⟨S131072x256, .f32⟩
  | .hbm, ⟨21, _⟩ => ⟨S131072x256, .f32⟩
  | .hbm, ⟨22, _⟩ => ⟨S131072x256, .f32⟩
  | .hbm, ⟨23, _⟩ => ⟨S131072x256, .f32⟩
  | .hbm, ⟨24, _⟩ => ⟨S131072x1x256, .f32⟩
  | .hbm, ⟨25, _⟩ => ⟨S131072x1x256, .f32⟩
  | .hbm, ⟨26, _⟩ => ⟨S131072x2x256, .f32⟩
  | .hbm, ⟨27, _⟩ => ⟨S131072x2x256, .f32⟩
  | .hbm, ⟨28, _⟩ => ⟨S_, .f32⟩
  | .hbm, ⟨29, _⟩ => ⟨S_, .f32⟩
  | .hbm, ⟨30, _⟩ => ⟨S131072x2x256, .f32⟩
  | .hbm, ⟨31, _⟩ => ⟨S131072x2x256, .f32⟩
  | .hbm, ⟨32, _⟩ => ⟨S131072x2x256, .f32⟩
  | .hbm, ⟨33, _⟩ => ⟨S_, .f32⟩
  | .hbm, ⟨34, _⟩ => ⟨S131072x2, .f32⟩
  | .hbm, ⟨35, _⟩ => ⟨S131072x2x1, .f32⟩
  | .hbm, ⟨36, _⟩ => ⟨S_, .f32⟩
  | .hbm, ⟨37, _⟩ => ⟨S131072x2x1, .f32⟩
  | .hbm, ⟨38, _⟩ => ⟨S131072x2x1, .f32⟩
  | .hbm, ⟨39, _⟩ => ⟨S131072x2x1, .f32⟩
  | .hbm, ⟨40, _⟩ => ⟨S_, .f32⟩
  | .hbm, ⟨41, _⟩ => ⟨S_, .f32⟩
  | .hbm, ⟨42, _⟩ => ⟨S131072x2x1, .f32⟩
  | .hbm, ⟨43, _⟩ => ⟨S131072x2x1, .f32⟩
  | .hbm, ⟨44, _⟩ => ⟨S131072x2x256, .f32⟩
  | .hbm, ⟨45, _⟩ => ⟨S131072x2x256, .f32⟩
  | .hbm, ⟨46, _⟩ => ⟨S131072x2x1, .f32⟩
  | .hbm, ⟨47, _⟩ => ⟨S_, .f32⟩
  | .hbm, ⟨48, _⟩ => ⟨S131072x2x1, .f32⟩
  | .hbm, ⟨49, _⟩ => ⟨S131072x2x1, .i1⟩
  | .hbm, ⟨50, _⟩ => ⟨S_, .f32⟩
  | .hbm, ⟨51, _⟩ => ⟨S131072x2x1, .f32⟩
  | .hbm, ⟨52, _⟩ => ⟨S131072x2x1, .i1⟩
  | .hbm, ⟨53, _⟩ => ⟨S_, .f32⟩
  | .hbm, ⟨54, _⟩ => ⟨S_, .f32⟩
  | .hbm, ⟨55, _⟩ => ⟨S131072x2x1, .f32⟩
  | .hbm, ⟨56, _⟩ => ⟨S131072x2x1, .f32⟩
  | .hbm, ⟨57, _⟩ => ⟨S131072x2x1, .f32⟩
  | .hbm, ⟨58, _⟩ => ⟨S_, .f32⟩
  | .hbm, ⟨59, _⟩ => ⟨S131072x2x1, .f32⟩
  | .hbm, ⟨60, _⟩ => ⟨S131072x2x1, .f32⟩
  | .hbm, ⟨61, _⟩ => ⟨S131072x2x1, .f32⟩
  | .hbm, ⟨62, _⟩ => ⟨S_, .f32⟩
  | .hbm, ⟨63, _⟩ => ⟨S131072x2x1, .f32⟩
  | .hbm, ⟨64, _⟩ => ⟨S131072x2x1, .f32⟩
  | .hbm, ⟨65, _⟩ => ⟨S131072x2x256, .f32⟩
  | .hbm, ⟨66, _⟩ => ⟨S131072x2x256, .f32⟩
  | .hbm, ⟨67, _⟩ => ⟨S131072x2x256, .f32⟩
  | .hbm, ⟨68, _⟩ => ⟨S131072x2x256, .f32⟩
  | .hbm, ⟨69, _⟩ => ⟨S131072x2x256, .f32⟩
  | .hbm, ⟨70, _⟩ => ⟨S_, .f32⟩
  | .hbm, ⟨71, _⟩ => ⟨S131072x2x256, .f32⟩
  | .hbm, ⟨72, _⟩ => ⟨S131072x2x256, .f32⟩
  | .hbm, ⟨73, _⟩ => ⟨S131072x2x256, .f32⟩
  | .hbm, ⟨74, _⟩ => ⟨S131072x2x256, .f32⟩
  | .hbm, ⟨75, _⟩ => ⟨S_, .f32⟩
  | .hbm, ⟨76, _⟩ => ⟨S131072x2x256, .f32⟩
  | .hbm, ⟨77, _⟩ => ⟨S131072x2x256, .f32⟩
  | .hbm, ⟨78, _⟩ => ⟨S_, .f32⟩
  | .hbm, ⟨79, _⟩ => ⟨S131072x2x256, .f32⟩
  | .hbm, ⟨80, _⟩ => ⟨S131072x2x256, .f32⟩
  | .hbm, ⟨81, _⟩ => ⟨S131072x2x256, .f32⟩
  | .hbm, ⟨82, _⟩ => ⟨S131072x2x256, .f32⟩
  | .hbm, ⟨83, _⟩ => ⟨S_, .f32⟩
  | .hbm, ⟨84, _⟩ => ⟨S131072x2x256, .f32⟩
  | .hbm, ⟨85, _⟩ => ⟨S131072x2x256, .f32⟩
  | .hbm, ⟨86, _⟩ => ⟨S131072x2x256, .i1⟩
  | .hbm, ⟨87, _⟩ => ⟨S131072x2x256, .f32⟩
  | .hbm, ⟨88, _⟩ => ⟨S131072x2x256, .f32⟩
  | .hbm, ⟨89, _⟩ => ⟨S131072x2x256, .f32⟩
  | .hbm, ⟨90, _⟩ => ⟨S131072x2x256, .f32⟩
  | .hbm, ⟨91, _⟩ => ⟨S131072x2x256, .f32⟩
  | .hbm, ⟨92, _⟩ => ⟨S131072x2x256, .f32⟩
  | .hbm, ⟨93, _⟩ => ⟨S_, .f32⟩
  | .hbm, ⟨94, _⟩ => ⟨S131072x2, .f32⟩
  | .hbm, ⟨95, _⟩ => ⟨S_, .f32⟩
  | .hbm, ⟨96, _⟩ => ⟨S131072x2, .f32⟩
  | .hbm, ⟨97, _⟩ => ⟨S131072x2, .f32⟩
  | .hbm, ⟨98, _⟩ => ⟨S_, .f32⟩
  | .hbm, ⟨99, _⟩ => ⟨S131072, .f32⟩
  | .hbm, ⟨100, _⟩ => ⟨S131072, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_call0_v0 : Ref sig .tc := ⟨.hbm, 29, rfl⟩
abbrev main_call0_v1 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_call1_v0 : Ref sig .tc := ⟨.hbm, 41, rfl⟩
abbrev main_call1_v1 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call2_cst : Ref sig .tc := ⟨.hbm, 47, rfl⟩
abbrev main_call2_v0 : Ref sig .tc := ⟨.hbm, 48, rfl⟩
abbrev main_call2_v1 : Ref sig .tc := ⟨.hbm, 49, rfl⟩
abbrev main_call2_cst_0 : Ref sig .tc := ⟨.hbm, 50, rfl⟩
abbrev main_call2_v2 : Ref sig .tc := ⟨.hbm, 51, rfl⟩
abbrev main_call2_v3 : Ref sig .tc := ⟨.hbm, 52, rfl⟩
abbrev main_call2_cst_1 : Ref sig .tc := ⟨.hbm, 53, rfl⟩
abbrev main_call2_call0_v0 : Ref sig .tc := ⟨.hbm, 54, rfl⟩
abbrev main_call2_call0_v1 : Ref sig .tc := ⟨.hbm, 55, rfl⟩
abbrev main_call2_v4 : Ref sig .tc := ⟨.hbm, 56, rfl⟩
abbrev main_call2_v5 : Ref sig .tc := ⟨.hbm, 57, rfl⟩
abbrev main_call2_cst_2 : Ref sig .tc := ⟨.hbm, 58, rfl⟩
abbrev main_call2_v6 : Ref sig .tc := ⟨.hbm, 59, rfl⟩
abbrev main_call2_v7 : Ref sig .tc := ⟨.hbm, 60, rfl⟩
abbrev main_v33 : Ref sig .tc := ⟨.hbm, 61, rfl⟩
abbrev main_cst_4 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_5 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_6 : Ref sig .tc := ⟨.hbm, 75, rfl⟩
abbrev main_v45 : Ref sig .tc := ⟨.hbm, 76, rfl⟩
abbrev main_v46 : Ref sig .tc := ⟨.hbm, 77, rfl⟩
abbrev main_cst_7 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_8 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_9 : Ref sig .tc := ⟨.hbm, 93, rfl⟩
abbrev main_v60 : Ref sig .tc := ⟨.hbm, 94, rfl⟩
abbrev main_cst_10 : Ref sig .tc := ⟨.hbm, 95, rfl⟩
abbrev main_v61 : Ref sig .tc := ⟨.hbm, 96, rfl⟩
abbrev main_v62 : Ref sig .tc := ⟨.hbm, 97, rfl⟩
abbrev main_cst_11 : Ref sig .tc := ⟨.hbm, 98, rfl⟩
abbrev main_v63 : Ref sig .tc := ⟨.hbm, 99, rfl⟩
abbrev main_v64 : Ref sig .tc := ⟨.hbm, 100, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  slices_S131072x1026_S131072x512_0_0 : S131072x1026.Slices ![0, 0] S131072x512
  shapeCasts_S131072x512_S131072x2x256 : S131072x512.ShapeCasts S131072x2x256
  slices_S131072x1026_S131072x512_0_512 : S131072x1026.Slices ![0, 512] S131072x512
  slices_S131072x1026_S131072x2_0_1024 : S131072x1026.Slices ![0, 1024] S131072x2
  slices_S131072x512_S131072x256_0_0 : S131072x512.Slices ![0, 0] S131072x256
  slices_S131072x512_S131072x256_0_256 : S131072x512.Slices ![0, 256] S131072x256
  bcast_S131072x256_S131072x1x256_0_2 : S131072x256.BroadcastsInDim S131072x1x256 (![0, 2] : Fin 2 → Fin S131072x1x256.rank)
  concatenates_S131072x1x256_S131072x1x256_S131072x2x256_d1 : Shape.Concatenates [S131072x1x256, S131072x1x256] S131072x2x256 1
  bcast_S_S131072x2x256 : S_.BroadcastsInDim S131072x2x256 (![] : Fin 0 → Fin S131072x2x256.rank)
  reducesTo_S131072x2x256_S131072x2_d2 : S131072x2x256.ReducesTo [2] S131072x2
  h_S_ : 0 < S_.numel
  bcast_S131072x2_S131072x2x1_0_1 : S131072x2.BroadcastsInDim S131072x2x1 (![0, 1] : Fin 2 → Fin S131072x2x1.rank)
  bcast_S_S131072x2x1 : S_.BroadcastsInDim S131072x2x1 (![] : Fin 0 → Fin S131072x2x1.rank)
  bcast_S131072x2x1_S131072x2x256_0_1_2 : S131072x2x1.BroadcastsInDim S131072x2x256 (![0, 1, 2] : Fin 3 → Fin S131072x2x256.rank)
  bcast_S_S131072x2 : S_.BroadcastsInDim S131072x2 (![] : Fin 0 → Fin S131072x2.rank)
  reducesTo_S131072x2_S131072_d1 : S131072x2.ReducesTo [1] S131072
  gather_S1024x1026_S131072x1_S131072x1026_1_0_n_n_0_1_11026_wf : GatherDims.WF S1024x1026 S131072x1 S131072x1026 [1] [0] [] [0] [] 1 ![1, 1026]

variable [Facts₀]

def gather_S1024x1026_S131072x1_S131072x1026_1_0_n_n_0_1_11026 : GatherDims S1024x1026 S131072x1 S131072x1026 where
  offsetDims := [1]
  collapsedSliceDims := [0]
  operandBatchingDims := []
  startIndicesBatchingDims := []
  startIndexMap := [0]
  indexVectorDim := 1
  sliceSizes := ![1, 1026]
  wf := gather_S1024x1026_S131072x1_S131072x1026_1_0_n_n_0_1_11026_wf

class Facts : Prop extends Facts₀ where

variable [Facts]
-- ==== Proof.KernelBase.lean ====
/-
  What the one pallas_call of this program finds and leaves, named once for the frame proof and the value proof to share:
  the buffer contents when the region is entered (after the host operations before it), each window's block at a grid
  point, and what the body stores into the output block as a function of the five input blocks (its one whole-block store).
-/
import proofs.«426055_j19370302505588_3_alg».proof.Proof.Gen.Kernel.Launch
import proofs.«426055_j19370302505588_3_alg».proof.Proof.Gen.Kernel.Skeleton
import proofs.«426055_j19370302505588_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The nine stretches of host operations before the region, in order. -/
abbrev preOps : List (List (HloOp τ sig (Elt F))) :=
  [hostOps0, hostOps0_1, hostOps0_2, hostOps0_3, hostOps0_4, hostOps0_5, hostOps0_6, hostOps0_7, hostOps0_8]

/-- Core `c`'s TensorCore buffer contents when the region is entered: after the host operations before it. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's accesses: each is its buffer's whole rectangle. -/
abbrev rEmb : Rect S1024x512 := Rect.unit (s := S1024x512) ![0, 0] S1024x512.size inb_S1024x512_S1024x512_0_0
abbrev rCol : Rect S1024x1 := Rect.unit (s := S1024x1) ![0, 0] S1024x1.size inb_S1024x1_S1024x1_0_0
abbrev rTab : Rect S1024x1024 := Rect.unit (s := S1024x1024) ![0, 0] S1024x1024.size inb_S1024x1024_S1024x1024_0_0

/-- The value the body stores, from the five input blocks: head rows, tail rows, the ids' column, the two tables. -/
def stored (x0 x1 : Vec F S1024x512 .f32) (x2 : Vec F S1024x1 .i32) (x3 x4 : Vec F S1024x1024 .bf16) : FVec F S1024x1 .f32 :=
  k0_pay1 (k0_pay3 (View.ld x2 rCol) (View.ld x3 rTab) (View.ld x4 rTab)) (k0_pay5 (View.ld x2 rCol) (View.ld x3 rTab) (View.ld x4 rTab))
    (k0_pay6 (View.ld x0 rEmb) (View.ld x1 rEmb)) (k0_pay10 (View.ld x2 rCol) (View.ld x3 rTab) (View.ld x4 rTab))
    (k0_pay11 (View.ld x2 rCol) (View.ld x3 rTab) (View.ld x4 rTab) (View.ld x0 rEmb) (View.ld x1 rEmb))
    (k0_pay12 (View.ld x2 rCol) (View.ld x3 rTab) (View.ld x4 rTab) (View.ld x0 rEmb) (View.ld x1 rEmb))
    (k0_pay13 (View.ld x2 rCol) (View.ld x3 rTab) (View.ld x4 rTab) (View.ld x0 rEmb) (View.ld x1 rEmb))

/-- The output window's staging buffer after the body: its one store, as the one piece of the block. -/
def out0_5 (x0 x1 : Vec F S1024x512 .f32) (x2 : Vec F S1024x1 .i32) (x3 x4 : Vec F S1024x1024 .bf16) : Vec F S1024x1 .f32 :=
  View.canon [⟨rCol, stored x0 x1 x2 x3 x4⟩]

end Cert.Kernel.Hand

end
-- ==== Proof.KernelFrame.lean ====
/-
  The frame of the program: @main is nine stretches of host operations, one pallas_call over 128 grid points, and one
  reshape. At every grid point the body reads its five input blocks whole and stores the output block whole, so the run
  terminates without a fault, the four argument arrays end as they began, and the output array ends at the blocks the
  points wrote.
-/
import proofs.«426055_j19370302505588_3_alg».proof.Proof.KernelBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline on core `c`: the arrays as the region finds them; after the body at point `t`
    each input's buffer at its block and the output's at `out0_5` of the five input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out0_5 (iblk m c 0 t) (iblk m c 1 t) (iblk m c 2 t) (iblk m c 3 t) (iblk m c 4 t) := by dsimp only [dats]

/-! ## @main around the region -/

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the nine stretches, the region, and the reshape after it: it reduces to the region continued by the reshape,
    entered at the contents the nine stretches leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1]
    ⟨hostOps0_sub, hostOps0_1_sub, hostOps0_2_sub, hostOps0_3_sub, hostOps0_4_sub, hostOps0_5_sub, hostOps0_6_sub, hostOps0_7_sub, hostOps0_8_sub⟩
    ⟨hostOps0_fresh, hostOps0_1_fresh, hostOps0_2_fresh, hostOps0_3_fresh, hostOps0_4_fresh, hostOps0_5_fresh, hostOps0_6_fresh, hostOps0_7_fresh, hostOps0_8_fresh⟩
    main_chain

/-- The reshape after the region touches unscoped TensorCore buffers only: each is an array of the pipeline or bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: its one result is the flattened output, which no window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- Every host operation writes its one result buffer; none of the nine stretches' results is an argument array. -/
local macro "pre_keeps" : tactic => `(tactic| (
    simp only [preOps, hostOps0, hostOps0_1, hostOps0_2, hostOps0_3, hostOps0_4, hostOps0_5, hostOps0_6, hostOps0_7, hostOps0_8,
      List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (by decide)))

/-- No host operation before the region writes an argument array. -/
theorem V_main_arg0 (c : Dev nD) : V m c main_arg0 = m ((c : Thread nD τ).loc main_arg0) :=
  StableHlo.after_of_forall_not_mem (b := Proc.devRef .tc main_arg0) _ _ (List.forall_iff_forall_mem.mp (by pre_keeps))
theorem V_main_arg1 (c : Dev nD) : V m c main_arg1 = m ((c : Thread nD τ).loc main_arg1) :=
  StableHlo.after_of_forall_not_mem (b := Proc.devRef .tc main_arg1) _ _ (List.forall_iff_forall_mem.mp (by pre_keeps))
theorem V_main_arg2 (c : Dev nD) : V m c main_arg2 = m ((c : Thread nD τ).loc main_arg2) :=
  StableHlo.after_of_forall_not_mem (b := Proc.devRef .tc main_arg2) _ _ (List.forall_iff_forall_mem.mp (by pre_keeps))
theorem V_main_arg3 (c : Dev nD) : V m c main_arg3 = m ((c : Thread nD τ).loc main_arg3) :=
  StableHlo.after_of_forall_not_mem (b := Proc.devRef .tc main_arg3) _ _ (List.forall_iff_forall_mem.mp (by pre_keeps))

/-- The reshape after the region writes none of the four either. -/
theorem sfx_arg (r : Ref sig .tc) (hr : r ≠ main_v40) :
    ∀ op ∈ List.flatten ([hostOps1] : List (List (HloOp τ sig (Elt F)))), Proc.devRef (τ := τ) .tc r ∉ op.writes :=
  List.forall_iff_forall_mem.mp (by
    simp only [hostOps1, List.flatten_cons, List.flatten_nil, List.append_nil, List.Forall, StableHlo.reshape_writes, Finset.mem_singleton]
    exact StableHlo.devRef_ne_of_ne hr)

/-- Nor does the reshape after it. An array a window stages ends at what the proof data computes, which for an input is its
    contents at the region's entry; an array no window stages bypasses the region. -/
theorem W_main_arg0 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (sfx_arg main_arg0 (by decide))]
  exact (Pipeline.withArrays_arr spec0 launch0.win.arr_inj c (V0 m c) _ 0).trans
    (((dats 0 c).arrAt_in 0 rfl _).trans ((hA c 0).trans (V_main_arg0 m c)))
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (sfx_arg main_arg1 (by decide)),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (sfx_arg main_arg2 (by decide))]
  exact (Pipeline.withArrays_arr spec0 launch0.win.arr_inj c (V0 m c) _ 1).trans
    (((dats 0 c).arrAt_in 1 rfl _).trans ((hA c 1).trans (V_main_arg2 m c)))
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (sfx_arg main_arg3 (by decide)),
    Pipeline.withArrays_of_ne _ c (V0 m c) _ main_arg3 (by exact (by decide : ∀ w, Pipeline.arrRef spec0 w ≠ main_arg3))]
  exact V_main_arg3 m c

/-! ## The windows' blocks -/

/-- An input window's current staging buffer holds its block at every point, fetched there or not: where the pipeline does
    not fetch, the block index has not moved since the last fetch and the body left the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The frame claim's post from the frame run's -/

/-- From one final state's frame post: the two staged argument arrays end at their entry contents (an input window's array is
    never written), the two that bypass the region at what the reshape after it leaves; each is then as launched. -/
theorem kept_args (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).1 1).trans (((dats m 0 c).arrAt_in 1 rfl _).trans ((A_eq m c 1).trans (V_main_arg2 m c))),
    ((h c).2 main_arg3 (Pipeline.mem_restRefs_of main_arg3 (by decide) (by decide))).trans (W_main_arg3 m (dats m) c)⟩

/-! ## What the body leaves in the output window's buffer -/

/-- The body's one store is the whole output block, so it covers it. -/
theorem cover0_5 (p0 : Vec F S1024x1 .f32) (y : S1024x1.Idx) :
    ∃ pc ∈ ([⟨rCol, p0⟩] : List (View.Piece (Elt F) S1024x1 .f32)), y ∈ pc.1.set :=
  View.cover_of_tiled [⟨rCol, p0⟩] S1024x1.size (by rfl) y

/-! ## The body's triple -/

set_option maxHeartbeats 1000000 in
/-- The kernel body on whole staging memrefs, the five inputs' at read contents and the output's at anything, runs to the
    continuation holding the inputs' as they were and the output's at `out0_5` of the inputs': five whole-block loads, an unused
    load of the output block, and one whole-block store of the payload of the loaded values. -/
theorem sound_kernel (c : Dev nD) (E : Set ℕ) (i : grid0.Coords)
    (arg1 : Memref sig .tc .vmem S1024x512 .f32) (harg1 : arg1.IsWhole) (arg2 : Memref sig .tc .vmem S1024x512 .f32) (harg2 : arg2.IsWhole)
    (arg3 : Memref sig .tc .vmem S1024x1 .i32) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1 .f32) (harg6 : arg6.IsWhole)
    (x0 x1 : Vec F S1024x512 .f32) (x2 : Vec F S1024x1 .i32) (x3 x4 : Vec F S1024x1024 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__boxe_kernel i arg1 harg1 arg2 harg2 arg3 harg3 arg4 harg4 arg5 harg5 arg6 harg6) K := by
  simp only [cc0__boxe_kernel_eq_skeleton]; unfold cc0__boxe_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover0_5 _)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: each input's staging buffer holds its block, so the body's triple applies; the invariant and the
    core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- THE RUN: every weakly fair execution of @main terminates, and every final state has each array of the pipeline at what
    the proof data gives and every other unscoped buffer as the reshape after the region leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the run terminates without a fault and the four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => kept_args m r h c) (run_main m ρ)

end Cert.Kernel.Hand

end
-- ==== Proof.KernelIdealBase.lean ====
/-
  What the one pallas_call of this program finds and leaves, named once for the frame proof and the value proof to share:
  the buffer contents when the region is entered (after the host operations before it), each window's block at a grid
  point, and what the body stores into the output block as a function of the five input blocks (its one whole-block store).
-/
import proofs.«426055_j19370302505588_3_alg».proof.Proof.Gen.KernelIdeal.Launch
import proofs.«426055_j19370302505588_3_alg».proof.Proof.Gen.KernelIdeal.Skeleton
import proofs.«426055_j19370302505588_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The nine stretches of host operations before the region, in order. -/
abbrev preOps : List (List (HloOp τ sig (Elt F))) :=
  [hostOps0, hostOps0_1, hostOps0_2, hostOps0_3, hostOps0_4, hostOps0_5, hostOps0_6, hostOps0_7, hostOps0_8]

/-- Core `c`'s TensorCore buffer contents when the region is entered: after the host operations before it. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's accesses: each is its buffer's whole rectangle. -/
abbrev rEmb : Rect S1024x512 := Rect.unit (s := S1024x512) ![0, 0] S1024x512.size inb_S1024x512_S1024x512_0_0
abbrev rCol : Rect S1024x1 := Rect.unit (s := S1024x1) ![0, 0] S1024x1.size inb_S1024x1_S1024x1_0_0
abbrev rTab : Rect S1024x1024 := Rect.unit (s := S1024x1024) ![0, 0] S1024x1024.size inb_S1024x1024_S1024x1024_0_0

/-- The value the body stores, from the five input blocks: head rows, tail rows, the ids' column, the two tables. -/
def stored (x0 x1 : Vec F S1024x512 .f32) (x2 : Vec F S1024x1 .i32) (x3 x4 : Vec F S1024x1024 .bf16) : FVec F S1024x1 .f32 :=
  k0_pay1 (k0_pay3 (View.ld x2 rCol) (View.ld x3 rTab) (View.ld x4 rTab)) (k0_pay5 (View.ld x2 rCol) (View.ld x3 rTab) (View.ld x4 rTab))
    (k0_pay6 (View.ld x0 rEmb) (View.ld x1 rEmb)) (k0_pay10 (View.ld x2 rCol) (View.ld x3 rTab) (View.ld x4 rTab))
    (k0_pay11 (View.ld x2 rCol) (View.ld x3 rTab) (View.ld x4 rTab) (View.ld x0 rEmb) (View.ld x1 rEmb))
    (k0_pay12 (View.ld x2 rCol) (View.ld x3 rTab) (View.ld x4 rTab) (View.ld x0 rEmb) (View.ld x1 rEmb))
    (k0_pay13 (View.ld x2 rCol) (View.ld x3 rTab) (View.ld x4 rTab) (View.ld x0 rEmb) (View.ld x1 rEmb))

/-- The output window's staging buffer after the body: its one store, as the one piece of the block. -/
def out0_5 (x0 x1 : Vec F S1024x512 .f32) (x2 : Vec F S1024x1 .i32) (x3 x4 : Vec F S1024x1024 .bf16) : Vec F S1024x1 .f32 :=
  View.canon [⟨rCol, stored x0 x1 x2 x3 x4⟩]

end Cert.KernelIdeal.Hand

end
-- ==== Proof.KernelIdealFrame.lean ====
/-
  The frame of the program: @main is nine stretches of host operations, one pallas_call over 128 grid points, and one
  reshape. At every grid point the body reads its five input blocks whole and stores the output block whole, so the run
  terminates without a fault, the four argument arrays end as they began, and the output array ends at the blocks the
  points wrote.
-/
import proofs.«426055_j19370302505588_3_alg».proof.Proof.KernelIdealBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline on core `c`: the arrays as the region finds them; after the body at point `t`
    each input's buffer at its block and the output's at `out0_5` of the five input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out0_5 (iblk m c 0 t) (iblk m c 1 t) (iblk m c 2 t) (iblk m c 3 t) (iblk m c 4 t) := by dsimp only [dats]

/-! ## @main around the region -/

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the nine stretches, the region, and the reshape after it: it reduces to the region continued by the reshape,
    entered at the contents the nine stretches leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1]
    ⟨hostOps0_sub, hostOps0_1_sub, hostOps0_2_sub, hostOps0_3_sub, hostOps0_4_sub, hostOps0_5_sub, hostOps0_6_sub, hostOps0_7_sub, hostOps0_8_sub⟩
    ⟨hostOps0_fresh, hostOps0_1_fresh, hostOps0_2_fresh, hostOps0_3_fresh, hostOps0_4_fresh, hostOps0_5_fresh, hostOps0_6_fresh, hostOps0_7_fresh, hostOps0_8_fresh⟩
    main_chain

/-- The reshape after the region touches unscoped TensorCore buffers only: each is an array of the pipeline or bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: its one result is the flattened output, which no window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- Every host operation writes its one result buffer; none of the nine stretches' results is an argument array. -/
local macro "pre_keeps" : tactic => `(tactic| (
    simp only [preOps, hostOps0, hostOps0_1, hostOps0_2, hostOps0_3, hostOps0_4, hostOps0_5, hostOps0_6, hostOps0_7, hostOps0_8,
      List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.nary_writes, Finset.mem_singleton]
    repeat' apply And.intro
    all_goals exact StableHlo.devRef_ne_of_ne (by decide)))

/-- No host operation before the region writes an argument array. -/
theorem V_main_arg0 (c : Dev nD) : V m c main_arg0 = m ((c : Thread nD τ).loc main_arg0) :=
  StableHlo.after_of_forall_not_mem (b := Proc.devRef .tc main_arg0) _ _ (List.forall_iff_forall_mem.mp (by pre_keeps))
theorem V_main_arg1 (c : Dev nD) : V m c main_arg1 = m ((c : Thread nD τ).loc main_arg1) :=
  StableHlo.after_of_forall_not_mem (b := Proc.devRef .tc main_arg1) _ _ (List.forall_iff_forall_mem.mp (by pre_keeps))
theorem V_main_arg2 (c : Dev nD) : V m c main_arg2 = m ((c : Thread nD τ).loc main_arg2) :=
  StableHlo.after_of_forall_not_mem (b := Proc.devRef .tc main_arg2) _ _ (List.forall_iff_forall_mem.mp (by pre_keeps))
theorem V_main_arg3 (c : Dev nD) : V m c main_arg3 = m ((c : Thread nD τ).loc main_arg3) :=
  StableHlo.after_of_forall_not_mem (b := Proc.devRef .tc main_arg3) _ _ (List.forall_iff_forall_mem.mp (by pre_keeps))

/-- The reshape after the region writes none of the four either. -/
theorem sfx_arg (r : Ref sig .tc) (hr : r ≠ main_v40) :
    ∀ op ∈ List.flatten ([hostOps1] : List (List (HloOp τ sig (Elt F)))), Proc.devRef (τ := τ) .tc r ∉ op.writes :=
  List.forall_iff_forall_mem.mp (by
    simp only [hostOps1, List.flatten_cons, List.flatten_nil, List.append_nil, List.Forall, StableHlo.reshape_writes, Finset.mem_singleton]
    exact StableHlo.devRef_ne_of_ne hr)

/-- Nor does the reshape after it. An array a window stages ends at what the proof data computes, which for an input is its
    contents at the region's entry; an array no window stages bypasses the region. -/
theorem W_main_arg0 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (sfx_arg main_arg0 (by decide))]
  exact (Pipeline.withArrays_arr spec0 launch0.win.arr_inj c (V0 m c) _ 0).trans
    (((dats 0 c).arrAt_in 0 rfl _).trans ((hA c 0).trans (V_main_arg0 m c)))
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (sfx_arg main_arg1 (by decide)),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c)
    (hA : ∀ c w, (dats 0 c).A w = V m c (Pipeline.arrRef spec0 w)) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (sfx_arg main_arg2 (by decide))]
  exact (Pipeline.withArrays_arr spec0 launch0.win.arr_inj c (V0 m c) _ 1).trans
    (((dats 0 c).arrAt_in 1 rfl _).trans ((hA c 1).trans (V_main_arg2 m c)))
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (sfx_arg main_arg3 (by decide)),
    Pipeline.withArrays_of_ne _ c (V0 m c) _ main_arg3 (by exact (by decide : ∀ w, Pipeline.arrRef spec0 w ≠ main_arg3))]
  exact V_main_arg3 m c

/-! ## The windows' blocks -/

/-- An input window's current staging buffer holds its block at every point, fetched there or not: where the pipeline does
    not fetch, the block index has not moved since the last fetch and the body left the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The frame claim's post from the frame run's -/

/-- From one final state's frame post: the two staged argument arrays end at their entry contents (an input window's array is
    never written), the two that bypass the region at what the reshape after it leaves; each is then as launched. -/
theorem kept_args (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).1 1).trans (((dats m 0 c).arrAt_in 1 rfl _).trans ((A_eq m c 1).trans (V_main_arg2 m c))),
    ((h c).2 main_arg3 (Pipeline.mem_restRefs_of main_arg3 (by decide) (by decide))).trans (W_main_arg3 m (dats m) c)⟩

/-! ## What the body leaves in the output window's buffer -/

/-- The body's one store is the whole output block, so it covers it. -/
theorem cover0_5 (p0 : Vec F S1024x1 .f32) (y : S1024x1.Idx) :
    ∃ pc ∈ ([⟨rCol, p0⟩] : List (View.Piece (Elt F) S1024x1 .f32)), y ∈ pc.1.set :=
  View.cover_of_tiled [⟨rCol, p0⟩] S1024x1.size (by rfl) y

/-! ## The body's triple -/

set_option maxHeartbeats 1000000 in
/-- The kernel body on whole staging memrefs, the five inputs' at read contents and the output's at anything, runs to the
    continuation holding the inputs' as they were and the output's at `out0_5` of the inputs': five whole-block loads, an unused
    load of the output block, and one whole-block store of the payload of the loaded values. -/
theorem sound_kernel (c : Dev nD) (E : Set ℕ) (i : grid0.Coords)
    (arg1 : Memref sig .tc .vmem S1024x512 .f32) (harg1 : arg1.IsWhole) (arg2 : Memref sig .tc .vmem S1024x512 .f32) (harg2 : arg2.IsWhole)
    (arg3 : Memref sig .tc .vmem S1024x1 .i32) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1 .f32) (harg6 : arg6.IsWhole)
    (x0 x1 : Vec F S1024x512 .f32) (x2 : Vec F S1024x1 .i32) (x3 x4 : Vec F S1024x1024 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__boxe_kernel i arg1 harg1 arg2 harg2 arg3 harg3 arg4 harg4 arg5 harg5 arg6 harg6) K := by
  simp only [cc0__boxe_kernel_eq_skeleton]; unfold cc0__boxe_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover0_5 _)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: each input's staging buffer holds its block, so the body's triple applies; the invariant and the
    core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- THE RUN: every weakly fair execution of @main terminates, and every final state has each array of the pipeline at what
    the proof data gives and every other unscoped buffer as the reshape after the region leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the run terminates without a fault and the four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => kept_args m r h c) (run_main m ρ)

end Cert.KernelIdeal.Hand

end
-- ==== Proof.Spec.lean ====
/-
  The score both programs compute, as one function of the four argument arrays, index by index on the extended reals.

  A relation row `r` of the table `rel : [1024, 1026]` is laid out as
  `[ center_h (256) | center_t (256) | width_h (256) | width_t (256) | size_h | size_t ]`.
  From it: the squashed centres `tanh center`, and the squashed widths
  `tanh ( |w_j| / max(ε, exp (mean_k log max(ε, |w_k|))) · (1 + elu size) )` — the widths divided by their (softened)
  geometric mean, scaled by the box size.  For example `b` the two bumped points are
  `head[b, 0:256] + tail[b, 256:512]` (scored against the head box) and `tail[b, 0:256] + head[b, 256:512]`
  (against the tail box); coordinate by coordinate the distance of the squashed point to the box is
  `cd / (w + 1)` inside the box (`cd ≤ w / 2`) and `cd · (w + 1) − (w / 2) · ((w + 1) − 1 / (w + 1))` outside, `cd = |tanh x − c|`;
  the score is minus the sum of the two Euclidean norms of these distances.
-/
import Idealize.ShloMosaic.PureOps.Ideal
import Idealize.ShloMosaic.Lib.ValueIdx

noncomputable section

open scoped BigOperators

namespace Cert.Spec

open Idealize.ShloMosaic Idealize.ShloMosaic.ValueIdx

/-- The softening constant ε (the f32 nearest 1e-6), as both programs spell it. -/
def eps : EReal := Ideal.ofBits .f32 0x358637BD#32
/-- The number of coordinates, 256.0, as both programs spell it. -/
def c256 : EReal := Ideal.ofBits .f32 0x43800000#32
/-- One half. -/
def half : EReal := ((1 / 2 : ℝ) : EReal)

/-- The absolute value on the extended reals. -/
def absE (x : EReal) : EReal := max x (-x)

/-- `elu`: the identity above zero, `exp − 1` at and below. -/
def elu (b : EReal) : EReal := if 0 < b then b else Ideal.exp b - 1

/-- One squashed width: `|W j|` over the softened geometric mean of the `|W k|`, times `1 + elu b`, through `tanh`. -/
def widthN (W : Fin 256 → EReal) (b : EReal) (j : Fin 256) : EReal :=
  Ideal.tanh (Ideal.div (absE (W j)) (max eps (Ideal.exp (Ideal.div (∑ k, Ideal.log (max eps (absE (W k)))) c256))) * (1 + elu b))

/-- The relation table's index of a stored id: read signed and clamped into `[0, 1023]`. -/
def ridx (w : BitVec 32) : Fin 1024 := ⟨min w.toInt.toNat 1023, by omega⟩

section Rows
variable (rel : (⟨2, ![1024, 1026]⟩ : Shape).Idx → EReal) (r : Fin 1024)

/-- Row `r`'s squashed head-box centre. -/
def cH (j : Fin 256) : EReal := Ideal.tanh (rel (ix2 r ⟨j.val, by omega⟩))
/-- Row `r`'s squashed tail-box centre. -/
def cT (j : Fin 256) : EReal := Ideal.tanh (rel (ix2 r ⟨256 + j.val, by omega⟩))
/-- Row `r`'s squashed head-box width. -/
def wH (j : Fin 256) : EReal :=
  widthN (fun k => rel (ix2 r ⟨512 + k.val, by omega⟩)) (rel (ix2 r ⟨1024, by omega⟩)) j
/-- Row `r`'s squashed tail-box width. -/
def wT (j : Fin 256) : EReal :=
  widthN (fun k => rel (ix2 r ⟨768 + k.val, by omega⟩)) (rel (ix2 r ⟨1025, by omega⟩)) j
end Rows

/-- One coordinate's distance to the box with squashed centre `c` and squashed width `w`, of the raw point `x`. -/
def dist (x c w : EReal) : EReal :=
  if absE (Ideal.tanh x - c) ≤ w * half then absE (Ideal.tanh x - c) * Ideal.div 1 (w + 1)
  else absE (Ideal.tanh x - c) * (w + 1) - (half * w) * ((w + 1) - Ideal.div 1 (w + 1))

/-- The Euclidean norm of the 256 distances. -/
def norm (x c w : Fin 256 → EReal) : EReal := Ideal.sqrt (∑ j, dist (x j) (c j) (w j) * dist (x j) (c j) (w j))

/-- One example's score from its two bumped points and its relation's two boxes. -/
def score1 (xh xt ch ct wh wt : Fin 256 → EReal) : EReal := -(norm xh ch wh + norm xt ct wt)

/-- The bumped head of example `b`: `head[b, j] + tail[b, 256 + j]`. -/
def bumpH (head tail : (⟨2, ![131072, 512]⟩ : Shape).Idx → EReal) (b : Fin 131072) (j : Fin 256) : EReal :=
  head (ix2 b ⟨j.val, by omega⟩) + tail (ix2 b ⟨256 + j.val, by omega⟩)
/-- The bumped tail of example `b`: `tail[b, j] + head[b, 256 + j]`. -/
def bumpT (head tail : (⟨2, ![131072, 512]⟩ : Shape).Idx → EReal) (b : Fin 131072) (j : Fin 256) : EReal :=
  tail (ix2 b ⟨j.val, by omega⟩) + head (ix2 b ⟨256 + j.val, by omega⟩)

/-- THE SCORE: example `b` against the row its id selects. -/
def score (head : (⟨2, ![131072, 512]⟩ : Shape).Idx → EReal) (rid : (⟨1, ![131072]⟩ : Shape).Idx → BitVec 32)
    (tail : (⟨2, ![131072, 512]⟩ : Shape).Idx → EReal) (rel : (⟨2, ![1024, 1026]⟩ : Shape).Idx → EReal) :
    (⟨1, ![131072]⟩ : Shape).Idx → EReal :=
  fun i => score1 (bumpH head tail (i 0)) (bumpT head tail (i 0))
    (cH rel (ridx (rid i))) (cT rel (ridx (rid i))) (wH rel (ridx (rid i))) (wT rel (ridx (rid i)))

/-- What the precondition says of the four argument arrays: every float entry is a real number, and every id indexes the
    relation table (`0 ≤ id < 1024`). -/
structure Hyp (head : (⟨2, ![131072, 512]⟩ : Shape).Idx → EReal) (rid : (⟨1, ![131072]⟩ : Shape).Idx → BitVec 32)
    (tail : (⟨2, ![131072, 512]⟩ : Shape).Idx → EReal) (rel : (⟨2, ![1024, 1026]⟩ : Shape).Idx → EReal) : Prop where
  head_real : ∀ i, ∃ x : ℝ, head i = (x : EReal)
  tail_real : ∀ i, ∃ x : ℝ, tail i = (x : EReal)
  rel_real : ∀ i, ∃ x : ℝ, rel i = (x : EReal)
  rid_nonneg : ∀ i, 0 ≤ (rid i).toInt
  rid_lt : ∀ i, (rid i).toInt < 1024

end Cert.Spec

end
-- ==== Proof.KernelIdealHost.lean ====
/-
  What the host operations before the pallas_call leave in the three computed operands, at the ideal instance, read at
  an index: the ids' column holds each id clamped into the table's range; the first table holds, row by row, the
  relation's squashed centres and squashed widths; the second table — the first minus itself — is zero.
-/
import proofs.«426055_j19370302505588_3_alg».proof.Proof.KernelIdealBase
import proofs.«426055_j19370302505588_3_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-- The relation table as launched, as a plain array of extended reals. -/
abbrev relArr (c : Dev nD) : (⟨2, ![1024, 1026]⟩ : Shape).Idx → EReal := m ((c : Thread nD τ).loc main_arg3)
/-- The ids as launched. -/
abbrev ridArr (c : Dev nD) : (⟨1, ![131072]⟩ : Shape).Idx → BitVec 32 := m ((c : Thread nD τ).loc main_arg1)

namespace Host

/-! ## The ids' column -/

/-- Clamping a word, read signed, into `[0, 1023]`: the larger of it and `0`, then the smaller of that and `1023`. -/
theorem clamp_word (w : BitVec 32) :
    IntOp.minsi 1023#32 (IntOp.maxsi 0#32 w) = BitVec.ofNat 32 (min w.toInt.toNat 1023) := by
  have h0 : (0#32 : BitVec 32).toInt = 0 := by decide
  have h1 : (1023#32 : BitVec 32).toInt = 1023 := by decide
  have hw := BitVec.toInt_eq_toNat_cond w
  have hlt := w.isLt
  unfold IntOp.maxsi IntOp.minsi
  by_cases hneg : w.toInt < 0
  · have e1 : w.slt 0#32 = true := by simp only [BitVec.slt, h0, decide_eq_true_eq]; exact hneg
    rw [if_pos e1, if_neg (by decide)]
    apply BitVec.eq_of_toNat_eq
    simp only [BitVec.toNat_ofNat]
    omega
  · have e1 : ¬ (w.slt 0#32 = true) := by simp only [BitVec.slt, h0, decide_eq_true_eq]; exact hneg
    rw [if_neg e1]
    by_cases hbig : (1023 : Int) < w.toInt
    · have e2 : (1023#32 : BitVec 32).slt w = true := by simp only [BitVec.slt, h1, decide_eq_true_eq]; exact hbig
      rw [if_pos e2]
      apply BitVec.eq_of_toNat_eq
      simp only [BitVec.toNat_ofNat]
      omega
    · have e2 : ¬ ((1023#32 : BitVec 32).slt w = true) := by simp only [BitVec.slt, h1, decide_eq_true_eq]; exact hbig
      rw [if_neg e2]
      apply BitVec.eq_of_toNat_eq
      simp only [BitVec.toNat_ofNat]
      omega

/-- The ids' column as the host operations compute it from the ids. -/
def ridTerm (ids : IVec S131072 32) : IVec S131072x1 32 :=
  shapeCast S131072x1
    (minsi (broadcastInDim S131072 ![] bcast_S_S131072 (id (constantI S_ 32 1023#32)))
      (maxsi (broadcastInDim S131072 ![] bcast_S_S131072 (id (constantI S_ 32 0#32))) ids))
    shapeCasts_S131072_S131072x1

theorem V_rid_eq (c : Dev nD) :
    (V (F := Ideal) m c main_v38 : S131072x1.Idx → BitVec 32) = ridTerm (ridArr m c) := by
  dsimp only [V, V0]
  simp only [preOps, hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem ridTerm_apply (ids : IVec S131072 32) (b : Fin 131072) :
    ridTerm ids (ix2 b (0 : Fin 1)) = BitVec.ofNat 32 (min (ids (ix1 b)).toInt.toNat 1023) := by
  unfold ridTerm
  refine (shapeCast_apply _ shapeCasts_S131072_S131072x1 (ix2 b (0 : Fin 1)) (ix1 b) ?_).trans ?_
  · rw [Shape.rowMajor_val_one, Shape.rowMajor_val_two]
    show b.val = b.val * 1 + 0
    omega
  · show IntOp.minsi _ (IntOp.maxsi _ _) = _
    rw [broadcastInDim_scalar_apply, broadcastInDim_scalar_apply]
    exact clamp_word _

end Host

open Host

/-- The ids' column: id `b` clamped into `[0, 1023]`. -/
theorem V_rid (c : Dev nD) (b : Fin 131072) :
    (V (F := Ideal) m c main_v38 : S131072x1.Idx → BitVec 32) (ix2 b (0 : Fin 1))
      = BitVec.ofNat 32 (Cert.Spec.ridx (ridArr m c (ix1 b))).val := by
  rw [V_rid_eq, ridTerm_apply]
  rfl

namespace Host

/-! ## The first table as the host operations compute it from the relation table -/

section HostTerm

variable (rel : FVec Ideal S1024x1026 .f32)

/-- The centres, columns `0 … 511`, as `[1024, 2, 256]`: box, coordinate. -/
def hCen : FVec Ideal S1024x2x256 .f32 :=
  shapeCast S1024x2x256 (extractStridedSlice S1024x512 ![0, 0] rel slices_S1024x1026_S1024x512_0_0) shapeCasts_S1024x512_S1024x2x256

/-- The absolute widths, columns `512 … 1023`, as `[1024, 2, 256]`. -/
def hAbs : FVec Ideal S1024x2x256 .f32 :=
  Host.absf (shapeCast S1024x2x256 (extractStridedSlice S1024x512 ![0, 512] rel slices_S1024x1026_S1024x512_0_512) shapeCasts_S1024x512_S1024x2x256)

/-- The two sizes, columns `1024, 1025`. -/
def hSiz : FVec Ideal S1024x2 .f32 :=
  extractStridedSlice S1024x2 ![0, 1024] rel slices_S1024x1026_S1024x2_0_1024

/-- The logarithm of the softened absolute widths. -/
def hLog : FVec Ideal S1024x2x256 .f32 :=
  Host.log (maximumf (broadcastInDim S1024x2x256 ![] bcast_S_S1024x2x256 (id (constant (F := Ideal) S_ .f32 0x358637BD#32))) (hAbs rel))

/-- Its sum over the 256 coordinates of a box. -/
def hSum : FVec Ideal S1024x2 .f32 :=
  Host.reduceAdd (F := Ideal) (hLog rel) (constant (F := Ideal) S_ .f32 0x00000000#32) reducesTo_S1024x2x256_S1024x2_d2 h_S_

/-- The softened geometric mean of a box's absolute widths. -/
def hGeo : FVec Ideal S1024x2x1 .f32 :=
  maximumf (broadcastInDim S1024x2x1 ![] bcast_S_S1024x2x1 (id (constant (F := Ideal) S_ .f32 0x358637BD#32)))
    (Host.exp (Host.divf (F := Ideal) (broadcastInDim S1024x2x1 ![0, 1] bcast_S1024x2_S1024x2x1_0_1 (hSum rel))
      (broadcastInDim S1024x2x1 ![] bcast_S_S1024x2x1 (constant (F := Ideal) S_ .f32 0x43800000#32))))

/-- The absolute widths over their box's softened geometric mean. -/
def hNorm : FVec Ideal S1024x2x256 .f32 :=
  Host.divf (F := Ideal) (hAbs rel) (broadcastInDim S1024x2x256 ![0, 1, 2] bcast_S1024x2x1_S1024x2x256_0_1_2 (hGeo rel))

/-- Where a size is above zero. -/
def hPos : IVec S1024x2 1 :=
  cmpf .ogt (hSiz rel) (broadcastInDim S1024x2 ![] bcast_S_S1024x2 (constant (F := Ideal) S_ .f32 0x00000000#32))

/-- `elu` of the sizes. -/
def hElu : FVec Ideal S1024x2 .f32 :=
  select (hPos rel) (hSiz rel)
    (mulf (broadcastInDim S1024x2 ![] bcast_S_S1024x2 (constant (F := Ideal) S_ .f32 0x3F800000#32))
      (Host.expm1 (select (hPos rel)
        (broadcastInDim S1024x2 ![] bcast_S_S1024x2 (id (constant (F := Ideal) S_ .f32 0x00000000#32))) (hSiz rel))))

/-- One plus `elu` of a box's size, over the box's coordinates. -/
def hScale : FVec Ideal S1024x2x256 .f32 :=
  broadcastInDim S1024x2x256 ![0, 1, 2] bcast_S1024x2x1_S1024x2x256_0_1_2
    (addf (broadcastInDim S1024x2x1 ![] bcast_S_S1024x2x1 (constant (F := Ideal) S_ .f32 0x3F800000#32))
      (broadcastInDim S1024x2x1 ![0, 1] bcast_S1024x2_S1024x2x1_0_1 (hElu rel)))

/-- The squashed widths. -/
def hTW : FVec Ideal S1024x2x256 .f32 := Host.tanh (mulf (hNorm rel) (hScale rel))

/-- The squashed centres. -/
def hTC : FVec Ideal S1024x2x256 .f32 := Host.tanh (hCen rel)

/-- Box `0` of a `[1024, 2, 256]` array, as `[1024, 256]`. -/
def hBox0 (X : FVec Ideal S1024x2x256 .f32) : FVec Ideal S1024x256 .f32 :=
  shapeCast S1024x256 (extractStridedSlice S1024x1x256 ![0, 0, 0] X slices_S1024x2x256_S1024x1x256_0_0_0) shapeCasts_S1024x1x256_S1024x256

/-- Box `1` of a `[1024, 2, 256]` array, as `[1024, 256]`. -/
def hBox1 (X : FVec Ideal S1024x2x256 .f32) : FVec Ideal S1024x256 .f32 :=
  shapeCast S1024x256 (extractStridedSlice S1024x1x256 ![0, 1, 0] X slices_S1024x2x256_S1024x1x256_0_1_0) shapeCasts_S1024x1x256_S1024x256

/-- Four `[1024, 256]` arrays side by side. -/
def hCat (a0 a1 a2 a3 : FVec Ideal S1024x256 .f32) : FVec Ideal S1024x1024 .f32 :=
  concatenate S1024x1024 1 [⟨S1024x256, a0⟩, ⟨S1024x256, a1⟩, ⟨S1024x256, a2⟩, ⟨S1024x256, a3⟩]
    concatenates_S1024x256_S1024x256_S1024x256_S1024x256_S1024x1024_d1

/-- The table before rounding: head centres, tail centres, head widths, tail widths. -/
def hTab : FVec Ideal S1024x1024 .f32 :=
  hCat (hBox0 (hTC rel)) (hBox1 (hTC rel)) (hBox0 (hTW rel)) (hBox1 (hTW rel))

end HostTerm

/-! ## The host term read at an index -/

section HostRead

variable (rel : FVec Ideal S1024x1026 .f32)

/-- Box `h`, coordinate `j` of the centres is column `256 h + j`. -/
theorem hCen_apply (r : Fin 1024) (h : Fin 2) (j : Fin 256) (k : Fin 1026) (hk : k.val = h.val * 256 + j.val) :
    hCen rel (ix3 r h j) = rel (ix2 r k) := by
  unfold hCen
  have hlt : h.val * 256 + j.val < 512 := by omega
  refine (shapeCast_apply _ shapeCasts_S1024x512_S1024x2x256 (ix3 r h j) (ix2 r (⟨h.val * 256 + j.val, hlt⟩ : Fin 512)) ?_).trans ?_
  · rw [Shape.rowMajor_val_two, Shape.rowMajor_val_three]
    show r.val * 512 + (h.val * 256 + j.val) = (r.val * 2 + h.val) * 256 + j.val
    omega
  · exact slice2_axis1_apply 0 rel slices_S1024x1026_S1024x512_0_0 r _ k (by show k.val = 0 + (h.val * 256 + j.val); omega)

/-- Box `h`, coordinate `j` of the absolute widths is the absolute value of column `512 + 256 h + j`. -/
theorem hAbs_apply (r : Fin 1024) (h : Fin 2) (j : Fin 256) (k : Fin 1026) (hk : k.val = 512 + (h.val * 256 + j.val)) :
    hAbs rel (ix3 r h j) = Cert.Spec.absE (rel (ix2 r k)) := by
  unfold hAbs
  have hlt : h.val * 256 + j.val < 512 := by omega
  show FloatOps.hostAbsf (shapeCast S1024x2x256 (extractStridedSlice S1024x512 ![0, 512] rel slices_S1024x1026_S1024x512_0_512) shapeCasts_S1024x512_S1024x2x256 (ix3 r h j)) = _
  rw [Ideal.hostAbsf_def, Ideal.absf_def]
  have e : shapeCast S1024x2x256 (extractStridedSlice S1024x512 ![0, 512] rel slices_S1024x1026_S1024x512_0_512) shapeCasts_S1024x512_S1024x2x256 (ix3 r h j) = rel (ix2 r k) := by
    refine (shapeCast_apply _ shapeCasts_S1024x512_S1024x2x256 (ix3 r h j) (ix2 r (⟨h.val * 256 + j.val, hlt⟩ : Fin 512)) ?_).trans ?_
    · rw [Shape.rowMajor_val_two, Shape.rowMajor_val_three]
      show r.val * 512 + (h.val * 256 + j.val) = (r.val * 2 + h.val) * 256 + j.val
      omega
    · exact slice2_axis1_apply 512 rel slices_S1024x1026_S1024x512_0_512 r _ k hk
  rw [e]
  rfl

/-- Box `h`'s size is column `1024 + h`. -/
theorem hSiz_apply (r : Fin 1024) (h : Fin 2) (k : Fin 1026) (hk : k.val = 1024 + h.val) :
    hSiz rel (ix2 r h) = rel (ix2 r k) := by
  unfold hSiz
  exact slice2_axis1_apply 1024 rel slices_S1024x1026_S1024x2_0_1024 r h k hk

theorem hLog_apply (r : Fin 1024) (h : Fin 2) (j : Fin 256) :
    hLog rel (ix3 r h j) = Ideal.log (max Cert.Spec.eps (hAbs rel (ix3 r h j))) := by
  unfold hLog
  show FloatOps.hostUnary .log (FloatOps.maximumf (broadcastInDim S1024x2x256 ![] bcast_S_S1024x2x256 (id (constant (F := Ideal) S_ .f32 0x358637BD#32)) (ix3 r h j)) (hAbs rel (ix3 r h j))) = _
  rw [Ideal.hostUnary_log_def, Ideal.maximumf_def, broadcastInDim_scalar_apply]
  rfl

/-- The reduction's witness in the form that names the inserted index. -/
theorem reduces_d2 : Shape.Reduces S1024x2x256 [2] S1024x2 := by decide

theorem hSum_apply (r : Fin 1024) (h : Fin 2) :
    hSum rel (ix2 r h) = ∑ k : Fin 256, hLog rel (ix3 r h k) := by
  unfold hSum
  rw [hostReduceAdd_apply, Ideal.hostReduceAdd_single reducesTo_S1024x2x256_S1024x2_d2 reduces_d2]
  rw [show (constant (F := Ideal) S_ .f32 0x00000000#32) (Shape.Idx.first h_S_) = Ideal.ofBits .f32 0x00000000#32 from rfl,
    Ideal.ofBits_zero_f32, zero_add]
  refine Finset.sum_congr rfl fun k _ => congrArg (hLog rel) ?_
  funext a
  match a with
  | ⟨0, _⟩ => exact Fin.ext rfl
  | ⟨1, _⟩ => exact Fin.ext rfl
  | ⟨2, _⟩ => exact Fin.ext rfl

theorem bcast_21_apply (x : FVec Ideal S1024x2 .f32) (r : Fin 1024) (h : Fin 2) (u : Fin 1) :
    broadcastInDim S1024x2x1 ![0, 1] bcast_S1024x2_S1024x2x1_0_1 x (ix3 r h u) = x (ix2 r h) := by
  refine broadcastInDim_apply _ bcast_S1024x2_S1024x2x1_0_1 x (ix3 r h u) (ix2 r h) fun a => ?_
  match a with
  | ⟨0, _⟩ => rfl
  | ⟨1, _⟩ => rfl

theorem bcast_256_apply (x : FVec Ideal S1024x2x1 .f32) (r : Fin 1024) (h : Fin 2) (j : Fin 256) :
    broadcastInDim S1024x2x256 ![0, 1, 2] bcast_S1024x2x1_S1024x2x256_0_1_2 x (ix3 r h j) = x (ix3 r h (0 : Fin 1)) := by
  refine broadcastInDim_apply _ bcast_S1024x2x1_S1024x2x256_0_1_2 x (ix3 r h j) (ix3 r h (0 : Fin 1)) fun a => ?_
  match a with
  | ⟨0, _⟩ => rfl
  | ⟨1, _⟩ => rfl
  | ⟨2, _⟩ => rfl

theorem hGeo_apply (r : Fin 1024) (h : Fin 2) :
    hGeo rel (ix3 r h (0 : Fin 1))
      = max Cert.Spec.eps (Ideal.exp (Ideal.div (hSum rel (ix2 r h)) Cert.Spec.c256)) := by
  unfold hGeo
  show FloatOps.maximumf (broadcastInDim S1024x2x1 ![] bcast_S_S1024x2x1 (id (constant (F := Ideal) S_ .f32 0x358637BD#32)) (ix3 r h (0 : Fin 1)))
    (FloatOps.hostUnary .exp (FloatOps.hostDivf
      (broadcastInDim S1024x2x1 ![0, 1] bcast_S1024x2_S1024x2x1_0_1 (hSum rel) (ix3 r h (0 : Fin 1)))
      (broadcastInDim S1024x2x1 ![] bcast_S_S1024x2x1 (constant (F := Ideal) S_ .f32 0x43800000#32) (ix3 r h (0 : Fin 1))))) = _
  rw [Ideal.maximumf_def, Ideal.hostUnary_exp_def, Ideal.hostDivf_def, broadcastInDim_scalar_apply, broadcastInDim_scalar_apply,
    bcast_21_apply]
  rfl

theorem hNorm_apply (r : Fin 1024) (h : Fin 2) (j : Fin 256) :
    hNorm rel (ix3 r h j) = Ideal.div (hAbs rel (ix3 r h j)) (hGeo rel (ix3 r h (0 : Fin 1))) := by
  unfold hNorm
  show FloatOps.hostDivf (hAbs rel (ix3 r h j)) (broadcastInDim S1024x2x256 ![0, 1, 2] bcast_S1024x2x1_S1024x2x256_0_1_2 (hGeo rel) (ix3 r h j)) = _
  rw [Ideal.hostDivf_def, bcast_256_apply]

theorem hPos_apply (r : Fin 1024) (h : Fin 2) :
    hPos rel (ix2 r h) = BitVec.ofBool (decide (0 < hSiz rel (ix2 r h))) := by
  unfold hPos
  show FloatOps.cmpf .ogt (hSiz rel (ix2 r h)) (broadcastInDim S1024x2 ![] bcast_S_S1024x2 (constant (F := Ideal) S_ .f32 0x00000000#32) (ix2 r h)) = _
  rw [broadcastInDim_scalar_apply, Ideal.cmpf_def]
  show BitVec.ofBool (decide (Ideal.ofBits .f32 0x00000000#32 < hSiz rel (ix2 r h))) = _
  rw [Ideal.ofBits_zero_f32]

theorem hElu_apply (r : Fin 1024) (h : Fin 2) :
    hElu rel (ix2 r h) = Cert.Spec.elu (hSiz rel (ix2 r h)) := by
  unfold hElu Cert.Spec.elu
  show Scalar.select (hPos rel (ix2 r h)) (hSiz rel (ix2 r h))
    (FloatOps.mulf (broadcastInDim S1024x2 ![] bcast_S_S1024x2 (constant (F := Ideal) S_ .f32 0x3F800000#32) (ix2 r h))
      (FloatOps.hostUnary .expm1 (Scalar.select (hPos rel (ix2 r h))
        (broadcastInDim S1024x2 ![] bcast_S_S1024x2 (id (constant (F := Ideal) S_ .f32 0x00000000#32)) (ix2 r h)) (hSiz rel (ix2 r h))))) = _
  rw [hPos_apply]
  by_cases hp : 0 < hSiz rel (ix2 r h)
  · rw [if_pos hp, decide_eq_true hp]
    exact select_one _ _
  · rw [if_neg hp, decide_eq_false hp]
    show Scalar.select 0#1 _ _ = _
    rw [select_zero, Ideal.mulf_def, Ideal.hostUnary_expm1_def, broadcastInDim_scalar_apply]
    show Ideal.ofBits .f32 0x3F800000#32 * (Ideal.exp (Scalar.select 0#1 _ _) - 1) = _
    rw [select_zero, Ideal.ofBits_one_f32, one_mul]

theorem hScale_apply (r : Fin 1024) (h : Fin 2) (j : Fin 256) :
    hScale rel (ix3 r h j) = 1 + hElu rel (ix2 r h) := by
  unfold hScale
  rw [bcast_256_apply]
  show FloatOps.addf (broadcastInDim S1024x2x1 ![] bcast_S_S1024x2x1 (constant (F := Ideal) S_ .f32 0x3F800000#32) (ix3 r h (0 : Fin 1)))
    (broadcastInDim S1024x2x1 ![0, 1] bcast_S1024x2_S1024x2x1_0_1 (hElu rel) (ix3 r h (0 : Fin 1))) = _
  rw [Ideal.addf_def, broadcastInDim_scalar_apply, bcast_21_apply]
  show Ideal.ofBits .f32 0x3F800000#32 + _ = _
  rw [Ideal.ofBits_one_f32]

/-- A squashed width of box `h`, from the box's raw widths `W` and raw size `b`. -/
theorem hTW_apply (r : Fin 1024) (h : Fin 2) (j : Fin 256) (W : Fin 256 → EReal) (b : EReal)
    (hW : ∀ k : Fin 256, hAbs rel (ix3 r h k) = Cert.Spec.absE (W k)) (hb : hSiz rel (ix2 r h) = b) :
    hTW rel (ix3 r h j) = Cert.Spec.widthN W b j := by
  unfold hTW Cert.Spec.widthN
  show FloatOps.hostUnary .tanh (FloatOps.mulf (hNorm rel (ix3 r h j)) (hScale rel (ix3 r h j))) = _
  rw [Ideal.hostUnary_tanh_def, Ideal.mulf_def, hNorm_apply, hScale_apply, hGeo_apply, hSum_apply, hElu_apply, hb, hW j]
  refine congrArg (fun s : EReal => Ideal.tanh (Ideal.div (Cert.Spec.absE (W j)) (max Cert.Spec.eps (Ideal.exp (Ideal.div s Cert.Spec.c256))) * (1 + Cert.Spec.elu b))) ?_
  exact Finset.sum_congr rfl fun k _ => by rw [hLog_apply, hW k]

theorem hTW_tanh (r : Fin 1024) (h : Fin 2) (j : Fin 256) :
    hTW rel (ix3 r h j) = Ideal.tanh (mulf (hNorm rel) (hScale rel) (ix3 r h j)) := rfl

theorem hTC_apply (r : Fin 1024) (h : Fin 2) (j : Fin 256) :
    hTC rel (ix3 r h j) = Ideal.tanh (hCen rel (ix3 r h j)) := rfl

theorem hBox0_apply (X : FVec Ideal S1024x2x256 .f32) (r : Fin 1024) (j : Fin 256) :
    hBox0 X (ix2 r j) = X (ix3 r (0 : Fin 2) j) := by
  unfold hBox0
  refine (shapeCast_apply _ shapeCasts_S1024x1x256_S1024x256 (ix2 r j) (ix3 r (0 : Fin 1) j) ?_).trans ?_
  · rw [Shape.rowMajor_val_two, Shape.rowMajor_val_three]
    show (r.val * 1 + 0) * 256 + j.val = r.val * 256 + j.val
    omega
  · exact slice3_axis1_apply 0 X slices_S1024x2x256_S1024x1x256_0_0_0 r (0 : Fin 1) j (0 : Fin 2) rfl

theorem hBox1_apply (X : FVec Ideal S1024x2x256 .f32) (r : Fin 1024) (j : Fin 256) :
    hBox1 X (ix2 r j) = X (ix3 r (1 : Fin 2) j) := by
  unfold hBox1
  refine (shapeCast_apply _ shapeCasts_S1024x1x256_S1024x256 (ix2 r j) (ix3 r (0 : Fin 1) j) ?_).trans ?_
  · rw [Shape.rowMajor_val_two, Shape.rowMajor_val_three]
    show (r.val * 1 + 0) * 256 + j.val = r.val * 256 + j.val
    omega
  · exact slice3_axis1_apply 1 X slices_S1024x2x256_S1024x1x256_0_1_0 r (0 : Fin 1) j (1 : Fin 2) rfl

end HostRead

/-! ## Four arrays side by side, read at an index: the quarter the column falls in -/

section Cat

variable (a0 a1 a2 a3 : FVec Ideal S1024x256 .f32)

theorem hCat_apply0 (r : Fin 1024) (col : Fin 1024) (j : Fin 256) (hc : col.val = 0 + j.val) :
    hCat a0 a1 a2 a3 (ix2 r col) = a0 (ix2 r j) := by
  unfold hCat
  refine concatenate_apply_piece (1 : Fin S1024x1024.rank) [⟨S1024x256, a0⟩, ⟨S1024x256, a1⟩, ⟨S1024x256, a2⟩, ⟨S1024x256, a3⟩]
    concatenates_S1024x256_S1024x256_S1024x256_S1024x256_S1024x1024_d1 (ix2 r col) 0 (by show 0 < 4; omega) S1024x256 a0 rfl rfl 0 rfl
    (ix2 r j) (fun b hb => ?_) ?_
  · match b with
    | ⟨0, _⟩ => rfl
    | ⟨1, _⟩ => exact absurd rfl hb
  · show 0 + j.val = col.val
    omega

theorem hCat_apply1 (r : Fin 1024) (col : Fin 1024) (j : Fin 256) (hc : col.val = 256 + j.val) :
    hCat a0 a1 a2 a3 (ix2 r col) = a1 (ix2 r j) := by
  unfold hCat
  refine concatenate_apply_piece (1 : Fin S1024x1024.rank) [⟨S1024x256, a0⟩, ⟨S1024x256, a1⟩, ⟨S1024x256, a2⟩, ⟨S1024x256, a3⟩]
    concatenates_S1024x256_S1024x256_S1024x256_S1024x256_S1024x1024_d1 (ix2 r col) 1 (by show 1 < 4; omega) S1024x256 a1 rfl rfl 256 rfl
    (ix2 r j) (fun b hb => ?_) ?_
  · match b with
    | ⟨0, _⟩ => rfl
    | ⟨1, _⟩ => exact absurd rfl hb
  · show 256 + j.val = col.val
    omega

theorem hCat_apply2 (r : Fin 1024) (col : Fin 1024) (j : Fin 256) (hc : col.val = 512 + j.val) :
    hCat a0 a1 a2 a3 (ix2 r col) = a2 (ix2 r j) := by
  unfold hCat
  refine concatenate_apply_piece (1 : Fin S1024x1024.rank) [⟨S1024x256, a0⟩, ⟨S1024x256, a1⟩, ⟨S1024x256, a2⟩, ⟨S1024x256, a3⟩]
    concatenates_S1024x256_S1024x256_S1024x256_S1024x256_S1024x1024_d1 (ix2 r col) 2 (by show 2 < 4; omega) S1024x256 a2 rfl rfl 512 rfl
    (ix2 r j) (fun b hb => ?_) ?_
  · match b with
    | ⟨0, _⟩ => rfl
    | ⟨1, _⟩ => exact absurd rfl hb
  · show 512 + j.val = col.val
    omega

theorem hCat_apply3 (r : Fin 1024) (col : Fin 1024) (j : Fin 256) (hc : col.val = 768 + j.val) :
    hCat a0 a1 a2 a3 (ix2 r col) = a3 (ix2 r j) := by
  unfold hCat
  refine concatenate_apply_piece (1 : Fin S1024x1024.rank) [⟨S1024x256, a0⟩, ⟨S1024x256, a1⟩, ⟨S1024x256, a2⟩, ⟨S1024x256, a3⟩]
    concatenates_S1024x256_S1024x256_S1024x256_S1024x256_S1024x1024_d1 (ix2 r col) 3 (by show 3 < 4; omega) S1024x256 a3 rfl rfl 768 rfl
    (ix2 r j) (fun b hb => ?_) ?_
  · match b with
    | ⟨0, _⟩ => rfl
    | ⟨1, _⟩ => exact absurd rfl hb
  · show 768 + j.val = col.val
    omega

end Cat

/-! ## The first table is the host term -/

theorem hCat_congr {a0 a1 a2 a3 b0 b1 b2 b3 : FVec Ideal S1024x256 .f32} (h0 : a0 = b0) (h1 : a1 = b1) (h2 : a2 = b2) (h3 : a3 = b3) :
    concatenate S1024x1024 1 [⟨S1024x256, a0⟩, ⟨S1024x256, a1⟩, ⟨S1024x256, a2⟩, ⟨S1024x256, a3⟩]
      concatenates_S1024x256_S1024x256_S1024x256_S1024x256_S1024x1024_d1 = hCat b0 b1 b2 b3 := by
  subst h0 h1 h2 h3; rfl

set_option maxHeartbeats 0 in
/-- The first table is the host term of the relation table, rounded (at the ideal instance: unchanged). -/
theorem V_hi_eq (c : Dev nD) :
    (V (F := Ideal) m c main_v33 : S1024x1024.Idx → EReal) = truncf .bf16 (hTab (relArr m c)) bitsLt_bf16_f32 := by
  dsimp only [V, V0]
  simp only [preOps, hostOps0, hostOps0_1, hostOps0_2, hostOps0_3, hostOps0_4, hostOps0_5, hostOps0_6, hostOps0_7, hostOps0_8, List.flatten_cons, List.flatten_nil, List.append_nil, List.cons_append, List.nil_append]
  after_results_simp
  dsimp only [Matrix.cons_val]
  refine congrArg (fun t : FVec Ideal S1024x1024 .f32 => truncf .bf16 t bitsLt_bf16_f32) ?_
  refine hCat_congr ?_ ?_ ?_ ?_
  · after_results_simp; rfl
  · after_results_simp; rfl
  · after_results_simp; rfl
  · after_results_simp; rfl

set_option maxHeartbeats 0 in
/-- The two tables come from one unrounded table `C`: the first is `C` rounded, the second is `C` minus the first
    widened back, rounded. -/
theorem V_tabs (c : Dev nD) : ∃ C : FVec Ideal S1024x1024 .f32,
    (V (F := Ideal) m c main_v33 : S1024x1024.Idx → EReal) = truncf .bf16 C bitsLt_bf16_f32 ∧
    (V (F := Ideal) m c main_v36 : S1024x1024.Idx → EReal)
      = truncf .bf16 (subf C (extf .f32 (truncf .bf16 C bitsLt_bf16_f32) bitsLt_bf16_f32)) bitsLt_bf16_f32 := by
  apply Exists.intro
  apply And.intro
  · dsimp only [V, V0]
    simp only [preOps, hostOps0, hostOps0_1, hostOps0_2, hostOps0_3, hostOps0_4, hostOps0_5, hostOps0_6, hostOps0_7, hostOps0_8, List.flatten_cons, List.flatten_nil, List.append_nil, List.cons_append, List.nil_append]
    after_results_simp
    rfl
  · dsimp only [V, V0]
    simp only [preOps, hostOps0, hostOps0_1, hostOps0_2, hostOps0_3, hostOps0_4, hostOps0_5, hostOps0_6, hostOps0_7, hostOps0_8, List.flatten_cons, List.flatten_nil, List.append_nil, List.cons_append, List.nil_append]
    after_results_simp

end Host

/-! ## The first table's four quarters -/

/-- The first table, row `r`: columns `0 … 255` the squashed head centres, -/
theorem V_hi_cH (c : Dev nD) (r : Fin 1024) (j : Fin 256) :
    (V (F := Ideal) m c main_v33 : S1024x1024.Idx → EReal) (ix2 r (⟨j.val, by omega⟩ : Fin 1024)) = Cert.Spec.cH (relArr m c) r j := by
  rw [V_hi_eq]
  show hTab (relArr m c) (ix2 r (⟨j.val, _⟩ : Fin 1024)) = _
  unfold hTab
  rw [hCat_apply0 _ _ _ _ r _ j (by show j.val = 0 + j.val; omega), hBox0_apply, hTC_apply,
    hCen_apply (relArr m c) r 0 j ⟨j.val, by omega⟩ (by show j.val = 0 * 256 + j.val; omega)]
  rfl
/-- columns `256 … 511` the squashed tail centres, -/
theorem V_hi_cT (c : Dev nD) (r : Fin 1024) (j : Fin 256) :
    (V (F := Ideal) m c main_v33 : S1024x1024.Idx → EReal) (ix2 r (⟨256 + j.val, by omega⟩ : Fin 1024)) = Cert.Spec.cT (relArr m c) r j := by
  rw [V_hi_eq]
  show hTab (relArr m c) (ix2 r (⟨256 + j.val, _⟩ : Fin 1024)) = _
  unfold hTab
  rw [hCat_apply1 _ _ _ _ r _ j rfl, hBox1_apply, hTC_apply,
    hCen_apply (relArr m c) r 1 j ⟨256 + j.val, by omega⟩ (by show 256 + j.val = 1 * 256 + j.val; omega)]
  rfl
/-- columns `512 … 767` the squashed head widths, -/
theorem V_hi_wH (c : Dev nD) (r : Fin 1024) (j : Fin 256) :
    (V (F := Ideal) m c main_v33 : S1024x1024.Idx → EReal) (ix2 r (⟨512 + j.val, by omega⟩ : Fin 1024)) = Cert.Spec.wH (relArr m c) r j := by
  rw [V_hi_eq]
  show hTab (relArr m c) (ix2 r (⟨512 + j.val, _⟩ : Fin 1024)) = _
  unfold hTab
  rw [hCat_apply2 _ _ _ _ r _ j rfl, hBox0_apply]
  exact hTW_apply (relArr m c) r 0 j (fun k => relArr m c (ix2 r ⟨512 + k.val, by omega⟩)) (relArr m c (ix2 r ⟨1024, by omega⟩))
    (fun k => hAbs_apply (relArr m c) r 0 k ⟨512 + k.val, by omega⟩ (by show 512 + k.val = 512 + (0 * 256 + k.val); omega))
    (hSiz_apply (relArr m c) r 0 ⟨1024, by omega⟩ rfl)
/-- columns `768 … 1023` the squashed tail widths. -/
theorem V_hi_wT (c : Dev nD) (r : Fin 1024) (j : Fin 256) :
    (V (F := Ideal) m c main_v33 : S1024x1024.Idx → EReal) (ix2 r (⟨768 + j.val, by omega⟩ : Fin 1024)) = Cert.Spec.wT (relArr m c) r j := by
  rw [V_hi_eq]
  show hTab (relArr m c) (ix2 r (⟨768 + j.val, _⟩ : Fin 1024)) = _
  unfold hTab
  rw [hCat_apply3 _ _ _ _ r _ j rfl, hBox1_apply]
  exact hTW_apply (relArr m c) r 1 j (fun k => relArr m c (ix2 r ⟨768 + k.val, by omega⟩)) (relArr m c (ix2 r ⟨1025, by omega⟩))
    (fun k => hAbs_apply (relArr m c) r 1 k ⟨768 + k.val, by omega⟩ (by show 768 + k.val = 512 + (1 * 256 + k.val); omega))
    (hSiz_apply (relArr m c) r 1 ⟨1025, by omega⟩ rfl)

namespace Host

/-! ## The second table -/

/-- A `tanh` is a real number, at the infinities too. -/
theorem tanh_real (y : EReal) : ∃ t : ℝ, Ideal.tanh y = (t : EReal) := by
  induction y using EReal.rec with
  | bot => exact ⟨-1, by rw [Ideal.tanh_bot, EReal.coe_neg, EReal.coe_one]⟩
  | top => exact ⟨1, by rw [Ideal.tanh_top, EReal.coe_one]⟩
  | coe r => exact ⟨Real.tanh r, rfl⟩

/-- So a `tanh` minus itself is zero. -/
theorem tanh_sub_self (y : EReal) : Ideal.tanh y - Ideal.tanh y = 0 := by
  obtain ⟨t, ht⟩ := tanh_real y
  rw [ht, ← EReal.coe_sub, sub_self, EReal.coe_zero]

/-- Every entry of the unrounded table is a `tanh`. -/
theorem hTab_tanh (rel : FVec Ideal S1024x1026 .f32) (r : Fin 1024) (col : Fin 1024) :
    ∃ y : EReal, hTab rel (ix2 r col) = Ideal.tanh y := by
  unfold hTab
  have hcol := col.isLt
  by_cases h1 : col.val < 256
  · exact ⟨_, (hCat_apply0 _ _ _ _ r col ⟨col.val, h1⟩ (by show col.val = 0 + col.val; omega)).trans
      ((hBox0_apply _ r _).trans (hTC_apply rel r 0 _))⟩
  · by_cases h2 : col.val < 512
    · exact ⟨_, (hCat_apply1 _ _ _ _ r col ⟨col.val - 256, by omega⟩ (by show col.val = 256 + (col.val - 256); omega)).trans
        ((hBox1_apply _ r _).trans (hTC_apply rel r 1 _))⟩
    · by_cases h3 : col.val < 768
      · exact ⟨_, (hCat_apply2 _ _ _ _ r col ⟨col.val - 512, by omega⟩ (by show col.val = 512 + (col.val - 512); omega)).trans
          ((hBox0_apply _ r _).trans (hTW_tanh rel r 0 _))⟩
      · exact ⟨_, (hCat_apply3 _ _ _ _ r col ⟨col.val - 768, by omega⟩ (by show col.val = 768 + (col.val - 768); omega)).trans
          ((hBox1_apply _ r _).trans (hTW_tanh rel r 1 _))⟩

end Host

/-- The second table is zero: a `tanh` is never infinite, so each entry minus itself is `0`. -/
theorem V_lo (c : Dev nD) (i : S1024x1024.Idx) :
    (V (F := Ideal) m c main_v36 : S1024x1024.Idx → EReal) i = (0 : EReal) := by
  obtain ⟨C, h33, h36⟩ := V_tabs m c
  have hC : C = hTab (relArr m c) := h33.symm.trans (V_hi_eq m c)
  rw [h36, hC]
  show hTab (relArr m c) i - hTab (relArr m c) i = 0
  obtain ⟨y, hy⟩ : ∃ y : EReal, hTab (relArr m c) i = Ideal.tanh y := by
    rw [eq_ix2 i]
    exact hTab_tanh (relArr m c) _ _
  rw [hy]
  exact tanh_sub_self y

end Cert.KernelIdeal.Hand

end
-- ==== Proof.KernelIdealBody.lean ====
/-
  The value the body stores, at the ideal instance, read at a row `p` of the block: when the ids' column holds the table
  row `r` at `p` and the second table is zero, the one-hot products select row `r` of the first table exactly, and the
  stored entry is the score of the two bumped points of row `p` against that row's two boxes.
-/
import proofs.«426055_j19370302505588_3_alg».proof.Proof.KernelIdealBase
import proofs.«426055_j19370302505588_3_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! ## The literals -/

/-- The pattern `0x3F000000` denotes one half. -/
theorem ofBits_half_f32 : Ideal.ofBits .f32 0x3F000000#32 = Cert.Spec.half := by
  unfold Cert.Spec.half
  simp [Ideal.ofBits, Ideal.ieee, -EReal.coe_mul]; norm_num

/-- A scalar constant at the ideal values is what its pattern denotes. -/
theorem scalar_ofBits_eq {φ : FTy} (b : BitVec φ.bits) : Scalar.ofBits (F := Ideal) φ b = Ideal.ofBits φ b := rfl

/-! ## Pointwise operations read at an index -/

section Pointwise
variable {s : Shape} {φ : FTy}

theorem sqrt_apply (a : FVec Ideal s φ) (i : s.Idx) : sqrt a i = Ideal.sqrt (a i) := rfl
theorem tanh_apply (a : FVec Ideal s φ) (i : s.Idx) : tanh a i = Ideal.tanh (a i) := rfl
theorem absf_apply (a : FVec Ideal s φ) (i : s.Idx) : absf a i = Cert.Spec.absE (a i) := rfl

end Pointwise

/-- A select on the bit of the comparison `≤` is the `if` on the order's `≤`. -/
theorem select_cmpf_ole {φ : FTy} {α : Type} (a b : Ideal φ) (x y : α) :
    Scalar.select (FloatOps.cmpf .ole a b) x y = if a ≤ b then x else y := by
  show Scalar.select (BitVec.ofBool (decide (a ≤ b))) x y = _
  by_cases h : a ≤ b
  · rw [if_pos h, decide_eq_true h]; exact select_one x y
  · rw [if_neg h, decide_eq_false h]; exact select_zero x y

/-! ## The two layout steps of a row norm -/

/-- A vector `[a]` cast to the column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the lanes of a `1024 × 256` vector, at row `p`, is the sum over that row's 256 entries. -/
theorem lane_sum_apply (src : FVec Ideal S1024x256 .f32) (h : S1024x256.Reduces [1] S1024) (hφ : FTy.f32 = FTy.f32 ∨ FTy.f32 = FTy.bf16)
    (hacc : (0x00000000#32 : BitVec 32) = 0x00000000#32) (p : Fin 1024) :
    multiReduction (F := Ideal) .add [1] S1024 src 0x00000000#32 h hφ hacc (ix1 p) = ∑ j : Fin 256, src (ix2 p j) := by
  refine (Ideal.multiReduction_add_single src 0x00000000#32 h hφ hacc (ix1 p)).trans ?_
  refine Finset.sum_congr rfl fun k _ => congrArg src ?_
  funext c
  match c with
  | ⟨0, _⟩ => exact Fin.ext rfl
  | ⟨1, _⟩ => exact Fin.ext rfl

/-- A row's norm: the square root of the lane sum, kept as a column, at row `p`. -/
theorem norm_col_apply (src : FVec Ideal S1024x256 .f32) (h : S1024x256.Reduces [1] S1024) (hφ : FTy.f32 = FTy.f32 ∨ FTy.f32 = FTy.bf16)
    (hacc : (0x00000000#32 : BitVec 32) = 0x00000000#32) (hc : S1024.ShapeCasts S1024x1) (p : Fin 1024) :
    sqrt (shapeCast S1024x1 (multiReduction (F := Ideal) .add [1] S1024 src 0x00000000#32 h hφ hacc) hc) (ix2 p (0 : Fin 1))
      = Ideal.sqrt (∑ j : Fin 256, src (ix2 p j)) := by
  rw [sqrt_apply]
  refine congrArg Ideal.sqrt ?_
  exact (shapeCast_a_a1_apply _ hc p 0).trans (lane_sum_apply src h hφ hacc p)

/-! ## The last payload: the two distances, their norms, and the sign -/

/-- The stored column at row `p`, from the seven vectors it reads: minus the sum of the norm of the selected head
    distances and the norm of the tail distances (the tail's chain is spelt out inside this payload). -/
theorem pay1_apply (v16 v18 v26 v37 : FVec Ideal S1024x256 .f32) (v40 : IVec S1024x256 1)
    (v41 v42 : FVec Ideal S1024x256 .f32) (p : Fin 1024) :
    k0_pay1 (F := Ideal) v16 v18 v26 v37 v40 v41 v42 (ix2 p (0 : Fin 1))
      = 0 - (Ideal.sqrt (∑ j : Fin 256,
                Scalar.select (v40 (ix2 p j)) (v41 (ix2 p j)) (v42 (ix2 p j) - v37 (ix2 p j))
                  * Scalar.select (v40 (ix2 p j)) (v41 (ix2 p j)) (v42 (ix2 p j) - v37 (ix2 p j)))
             + Ideal.sqrt (∑ j : Fin 256,
                Cert.Spec.dist (v26 (ix2 p j)) (v16 (ix2 p j)) (v18 (ix2 p j))
                  * Cert.Spec.dist (v26 (ix2 p j)) (v16 (ix2 p j)) (v18 (ix2 p j)))) := by
  unfold k0_pay1
  simp only [subf_apply, addf_apply, broadcast_apply]
  rw [norm_col_apply, norm_col_apply]
  simp only [mulf_apply, select_apply, subf_apply, addf_apply, divf_apply, tanh_apply, absf_apply, cmpf_apply,
    broadcast_apply, scalar_ofBits_eq, Ideal.ofBits_one_f32, ofBits_half_f32, Ideal.ofBits_zero_f32, select_cmpf_ole,
    Cert.Spec.dist]

/-! ## The one-hot products: a gather of row `r` -/

/-- A column `[a, 1]` broadcast along the lanes to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two table rows below 1024 with the same 32-bit word are the same row. -/
theorem ofNat32_inj_of_lt {k r : ℕ} (hk : k < 1024) (hr : r < 1024) (h : BitVec.ofNat 32 k = BitVec.ofNat 32 r) : k = r := by
  have e := congrArg BitVec.toNat h
  simp only [BitVec.toNat_ofNat] at e
  omega

/-- The one-hot matrix at `(p, k)`: one where `k` is the row the id at `p` names, zero elsewhere. -/
theorem onehot_apply (x2 : S1024x1.Idx → BitVec 32) (p r k : Fin 1024)
    (hid : x2 (ix2 p (0 : Fin 1)) = BitVec.ofNat 32 r.val) :
    (truncf .bf16 (sitofp (F := Ideal) .f32 (extui 32 (cmpi .eq (iota .tc S1024x1024 32 [1] iota_S1024x1024_d1_w32)
        (broadcastTo S1024x1024 x2 broadcasts_S1024x1_S1024x1024)) natLt_1_32))
        bitsLt_bf16_f32 : FVec Ideal S1024x1024 .bf16) (ix2 p k) = if k = r then 1 else 0 := by
  rw [truncf_apply, sitofp_apply, extui_apply]
  show FloatOps.sitofp (F := Ideal) .f32 ((IntOp.cmpi .eq (iota .tc S1024x1024 32 [1] iota_S1024x1024_d1_w32 (ix2 p k))
    (broadcastTo S1024x1024 x2 broadcasts_S1024x1_S1024x1024 (ix2 p k))).setWidth 32) = _
  rw [iota_single_apply, broadcastTo_a1_ab_apply, hid]
  show (((((IntOp.cmpi .eq (BitVec.ofNat 32 k.val) (BitVec.ofNat 32 r.val)).setWidth 32).toInt : ℤ) : ℝ) : EReal) = _
  by_cases hkr : k = r
  · subst hkr
    rw [if_pos rfl]
    simp [IntOp.cmpi]
  · have hne : BitVec.ofNat 32 k.val ≠ BitVec.ofNat 32 r.val :=
      fun h => hkr (Fin.ext (ofNat32_inj_of_lt k.isLt r.isLt h))
    have hb : (BitVec.ofNat 32 k.val == BitVec.ofNat 32 r.val) = false := beq_eq_false_iff_ne.mpr hne
    rw [if_neg hkr]
    simp [IntOp.cmpi, hb]

/-- The four coordinates of the product's operand indices. -/
theorem lhs_tab_0 (j : S1024x1024.Idx) (k : dot_S1024x1024_S1024x1024_S1024x1024_1_0_0_1_n_n.contr.Idx) :
    (dot_S1024x1024_S1024x1024_S1024x1024_1_0_0_1_n_n.lhsIdx j k 0 : ℕ) = j 0 := by
  simp [DotDims.lhsIdx, dot_S1024x1024_S1024x1024_S1024x1024_1_0_0_1_n_n]; rfl
theorem lhs_tab_1 (j : S1024x1024.Idx) (k : dot_S1024x1024_S1024x1024_S1024x1024_1_0_0_1_n_n.contr.Idx) :
    (dot_S1024x1024_S1024x1024_S1024x1024_1_0_0_1_n_n.lhsIdx j k 1 : ℕ) = k ⟨0, by decide⟩ := by
  simp [DotDims.lhsIdx, dot_S1024x1024_S1024x1024_S1024x1024_1_0_0_1_n_n]; rfl
theorem rhs_tab_0 (j : S1024x1024.Idx) (k : dot_S1024x1024_S1024x1024_S1024x1024_1_0_0_1_n_n.contr.Idx) :
    (dot_S1024x1024_S1024x1024_S1024x1024_1_0_0_1_n_n.rhsIdx j k 0 : ℕ) = k ⟨0, by decide⟩ := by
  simp [DotDims.rhsIdx, dot_S1024x1024_S1024x1024_S1024x1024_1_0_0_1_n_n]; rfl
theorem rhs_tab_1 (j : S1024x1024.Idx) (k : dot_S1024x1024_S1024x1024_S1024x1024_1_0_0_1_n_n.contr.Idx) :
    (dot_S1024x1024_S1024x1024_S1024x1024_1_0_0_1_n_n.rhsIdx j k 1 : ℕ) = j 1 := by
  simp [DotDims.rhsIdx, dot_S1024x1024_S1024x1024_S1024x1024_1_0_0_1_n_n]; rfl

/-- A product into the zero accumulator, at `(p, q)`: the sum over the 1024 contraction positions. -/
theorem matmul_tab_apply (lhs rhs : FVec Ideal S1024x1024 .bf16) (p q : Fin 1024) :
    matmul (F := Ideal) dot_S1024x1024_S1024x1024_S1024x1024_1_0_0_1_n_n none lhs rhs
        (constant (F := Ideal) S1024x1024 .f32 0x00000000#32) (ix2 p q)
      = ∑ k : Fin 1024, lhs (ix2 p k) * rhs (ix2 k q) := by
  refine (Ideal.matmul_constant_zero_apply _ none lhs rhs (ix2 p q)).trans ?_
  rw [← Equiv.sum_comp (contrEquiv1 dot_S1024x1024_S1024x1024_S1024x1024_1_0_0_1_n_n 1024 rfl rfl).symm]
  refine Finset.sum_congr rfl fun k _ => ?_
  congr 1
  · refine congrArg lhs (funext fun a => Fin.ext ?_)
    match a with
    | ⟨0, _⟩ => exact lhs_tab_0 _ _
    | ⟨1, _⟩ => exact (lhs_tab_1 _ _).trans (contrEquiv1_symm_val _ _ _ _ k)
  · refine congrArg rhs (funext fun a => Fin.ext ?_)
    match a with
    | ⟨0, _⟩ => exact (rhs_tab_0 _ _).trans (contrEquiv1_symm_val _ _ _ _ k)
    | ⟨1, _⟩ => exact rhs_tab_1 _ _

/-- The gathered table at `(p, q)`: row `r` of the first table (the second table's product vanishes). -/
theorem pay2_apply (x2 : S1024x1.Idx → BitVec 32) (x3 x4 : S1024x1024.Idx → EReal) (p r q : Fin 1024)
    (hid : x2 (ix2 p (0 : Fin 1)) = BitVec.ofNat 32 r.val) (hlo : ∀ i, x4 i = 0) :
    k0_pay2 (F := Ideal) x2 x3 x4 (ix2 p q) = x3 (ix2 r q) := by
  unfold k0_pay2
  simp only [addf_apply, matmul_tab_apply, shapeCast_self, onehot_apply x2 p r _ hid, hlo]
  rw [Finset.sum_eq_single r (fun b _ hb => by rw [if_neg hb, zero_mul]) (fun h => absurd (Finset.mem_univ r) h)]
  simp only [if_true, one_mul, mul_zero, Finset.sum_const_zero, add_zero]

/-! ## The four column slices of the gathered row -/

/-- Columns `0 … 255`: the head box's centres. -/
theorem slice0_apply (x2 : S1024x1.Idx → BitVec 32) (x3 x4 : S1024x1024.Idx → EReal) (p r : Fin 1024) (j : Fin 256)
    (hid : x2 (ix2 p (0 : Fin 1)) = BitVec.ofNat 32 r.val) (hlo : ∀ i, x4 i = 0) :
    extractStridedSlice S1024x256 ![0, 0] (k0_pay2 (F := Ideal) x2 x3 x4) slices_S1024x1024_o0_0_S1024x256 (ix2 p j)
      = x3 (ix2 r (⟨j.val, by omega⟩ : Fin 1024)) :=
  (slice2_axis1_apply 0 (k0_pay2 (F := Ideal) x2 x3 x4) slices_S1024x1024_o0_0_S1024x256 p j ⟨j.val, by omega⟩ (Nat.zero_add _).symm).trans
    (pay2_apply x2 x3 x4 p r _ hid hlo)

/-- Columns `256 … 511`: the tail box's centres. -/
theorem pay3_apply (x2 : S1024x1.Idx → BitVec 32) (x3 x4 : S1024x1024.Idx → EReal) (p r : Fin 1024) (j : Fin 256)
    (hid : x2 (ix2 p (0 : Fin 1)) = BitVec.ofNat 32 r.val) (hlo : ∀ i, x4 i = 0) :
    k0_pay3 (F := Ideal) x2 x3 x4 (ix2 p j) = x3 (ix2 r (⟨256 + j.val, by omega⟩ : Fin 1024)) := by
  unfold k0_pay3
  exact (slice2_axis1_eq 256 (k0_pay2 (F := Ideal) x2 x3 x4) slices_S1024x1024_o0_256_S1024x256 p j).trans
    (pay2_apply x2 x3 x4 p r _ hid hlo)

/-- Columns `512 … 767`: the head box's widths. -/
theorem pay4_apply (x2 : S1024x1.Idx → BitVec 32) (x3 x4 : S1024x1024.Idx → EReal) (p r : Fin 1024) (j : Fin 256)
    (hid : x2 (ix2 p (0 : Fin 1)) = BitVec.ofNat 32 r.val) (hlo : ∀ i, x4 i = 0) :
    k0_pay4 (F := Ideal) x2 x3 x4 (ix2 p j) = x3 (ix2 r (⟨512 + j.val, by omega⟩ : Fin 1024)) := by
  unfold k0_pay4
  exact (slice2_axis1_eq 512 (k0_pay2 (F := Ideal) x2 x3 x4) slices_S1024x1024_o0_512_S1024x256 p j).trans
    (pay2_apply x2 x3 x4 p r _ hid hlo)

/-- Columns `768 … 1023`: the tail box's widths. -/
theorem pay5_apply (x2 : S1024x1.Idx → BitVec 32) (x3 x4 : S1024x1024.Idx → EReal) (p r : Fin 1024) (j : Fin 256)
    (hid : x2 (ix2 p (0 : Fin 1)) = BitVec.ofNat 32 r.val) (hlo : ∀ i, x4 i = 0) :
    k0_pay5 (F := Ideal) x2 x3 x4 (ix2 p j) = x3 (ix2 r (⟨768 + j.val, by omega⟩ : Fin 1024)) := by
  unfold k0_pay5
  exact (slice2_axis1_eq 768 (k0_pay2 (F := Ideal) x2 x3 x4) slices_S1024x1024_o0_768_S1024x256 p j).trans
    (pay2_apply x2 x3 x4 p r _ hid hlo)

/-! ## The bumped points -/

/-- The bumped tail: the tail row's first half plus the head row's second half. -/
theorem pay6_apply (x0 x1 : S1024x512.Idx → EReal) (p : Fin 1024) (j : Fin 256) :
    k0_pay6 (F := Ideal) x0 x1 (ix2 p j)
      = x1 (ix2 p (⟨j.val, by omega⟩ : Fin 512)) + x0 (ix2 p (⟨256 + j.val, by omega⟩ : Fin 512)) := by
  unfold k0_pay6
  rw [addf_apply]
  exact congrArg₂ (fun a b : EReal => a + b)
    (slice2_axis1_apply 0 x1 slices_S1024x512_o0_0_S1024x256 p j ⟨j.val, by omega⟩ (Nat.zero_add _).symm)
    (slice2_axis1_eq 256 x0 slices_S1024x512_o0_256_S1024x256 p j)

/-! ## The head chain, payload by payload, at `(p, j)` -/

/-- The head width plus one. -/
theorem pay7_apply (x0 x1 : S1024x512.Idx → EReal) (x2 : S1024x1.Idx → BitVec 32) (x3 x4 : S1024x1024.Idx → EReal)
    (p r : Fin 1024) (j : Fin 256) (hid : x2 (ix2 p (0 : Fin 1)) = BitVec.ofNat 32 r.val) (hlo : ∀ i, x4 i = 0) :
    k0_pay7 (F := Ideal) x2 x3 x4 (ix2 p j) = x3 (ix2 r (⟨512 + j.val, by omega⟩ : Fin 1024)) + 1 := by
  unfold k0_pay7
  simp only [addf_apply, broadcast_apply, scalar_ofBits_eq, Ideal.ofBits_one_f32, pay4_apply x2 x3 x4 p r j hid hlo]

/-- Its reciprocal. -/
theorem pay8_apply (x0 x1 : S1024x512.Idx → EReal) (x2 : S1024x1.Idx → BitVec 32) (x3 x4 : S1024x1024.Idx → EReal)
    (p r : Fin 1024) (j : Fin 256) (hid : x2 (ix2 p (0 : Fin 1)) = BitVec.ofNat 32 r.val) (hlo : ∀ i, x4 i = 0) :
    k0_pay8 (F := Ideal) x2 x3 x4 (ix2 p j) = Ideal.div 1 (x3 (ix2 r (⟨512 + j.val, by omega⟩ : Fin 1024)) + 1) := by
  unfold k0_pay8
  simp only [divf_apply, broadcast_apply, scalar_ofBits_eq, Ideal.ofBits_one_f32, pay7_apply x0 x1 x2 x3 x4 p r j hid hlo]

/-- The squashed bumped head's distance from the head centre. -/
theorem pay9_apply (x0 x1 : S1024x512.Idx → EReal) (x2 : S1024x1.Idx → BitVec 32) (x3 x4 : S1024x1024.Idx → EReal)
    (p r : Fin 1024) (j : Fin 256) (hid : x2 (ix2 p (0 : Fin 1)) = BitVec.ofNat 32 r.val) (hlo : ∀ i, x4 i = 0) :
    k0_pay9 (F := Ideal) x2 x3 x4 x0 x1 (ix2 p j)
      = Cert.Spec.absE (Ideal.tanh (x0 (ix2 p (⟨j.val, by omega⟩ : Fin 512)) + x1 (ix2 p (⟨256 + j.val, by omega⟩ : Fin 512))) - x3 (ix2 r (⟨j.val, by omega⟩ : Fin 1024))) := by
  unfold k0_pay9
  simp only [absf_apply, subf_apply, tanh_apply, addf_apply, slice0_apply x2 x3 x4 p r j hid hlo]
  rw [slice2_axis1_apply 0 x0 slices_S1024x512_o0_0_S1024x256 p j ⟨j.val, by omega⟩ (Nat.zero_add _).symm,
    slice2_axis1_eq 256 x1 slices_S1024x512_o0_256_S1024x256 p j]

/-- The outside correction: half the width times the width-plus-one less its reciprocal. -/
theorem pay10_apply (x0 x1 : S1024x512.Idx → EReal) (x2 : S1024x1.Idx → BitVec 32) (x3 x4 : S1024x1024.Idx → EReal)
    (p r : Fin 1024) (j : Fin 256) (hid : x2 (ix2 p (0 : Fin 1)) = BitVec.ofNat 32 r.val) (hlo : ∀ i, x4 i = 0) :
    k0_pay10 (F := Ideal) x2 x3 x4 (ix2 p j)
      = Cert.Spec.half * x3 (ix2 r (⟨512 + j.val, by omega⟩ : Fin 1024)) * (x3 (ix2 r (⟨512 + j.val, by omega⟩ : Fin 1024)) + 1 - Ideal.div 1 (x3 (ix2 r (⟨512 + j.val, by omega⟩ : Fin 1024)) + 1)) := by
  unfold k0_pay10
  simp only [mulf_apply, subf_apply, broadcast_apply, scalar_ofBits_eq, ofBits_half_f32,
    pay4_apply x2 x3 x4 p r j hid hlo, pay7_apply x0 x1 x2 x3 x4 p r j hid hlo, pay8_apply x0 x1 x2 x3 x4 p r j hid hlo]

/-- The inside test: the distance is at most half the width. -/
theorem pay11_apply (x0 x1 : S1024x512.Idx → EReal) (x2 : S1024x1.Idx → BitVec 32) (x3 x4 : S1024x1024.Idx → EReal)
    (p r : Fin 1024) (j : Fin 256) (hid : x2 (ix2 p (0 : Fin 1)) = BitVec.ofNat 32 r.val) (hlo : ∀ i, x4 i = 0) :
    k0_pay11 (F := Ideal) x2 x3 x4 x0 x1 (ix2 p j)
      = FloatOps.cmpf (F := Ideal) (φ := .f32) .ole (Cert.Spec.absE (Ideal.tanh (x0 (ix2 p (⟨j.val, by omega⟩ : Fin 512)) + x1 (ix2 p (⟨256 + j.val, by omega⟩ : Fin 512))) - x3 (ix2 r (⟨j.val, by omega⟩ : Fin 1024)))) (x3 (ix2 r (⟨512 + j.val, by omega⟩ : Fin 1024)) * Cert.Spec.half) := by
  unfold k0_pay11
  simp only [cmpf_apply, mulf_apply, broadcast_apply, scalar_ofBits_eq, ofBits_half_f32,
    pay4_apply x2 x3 x4 p r j hid hlo, pay9_apply x0 x1 x2 x3 x4 p r j hid hlo]

/-- The inside distance. -/
theorem pay12_apply (x0 x1 : S1024x512.Idx → EReal) (x2 : S1024x1.Idx → BitVec 32) (x3 x4 : S1024x1024.Idx → EReal)
    (p r : Fin 1024) (j : Fin 256) (hid : x2 (ix2 p (0 : Fin 1)) = BitVec.ofNat 32 r.val) (hlo : ∀ i, x4 i = 0) :
    k0_pay12 (F := Ideal) x2 x3 x4 x0 x1 (ix2 p j)
      = Cert.Spec.absE (Ideal.tanh (x0 (ix2 p (⟨j.val, by omega⟩ : Fin 512)) + x1 (ix2 p (⟨256 + j.val, by omega⟩ : Fin 512))) - x3 (ix2 r (⟨j.val, by omega⟩ : Fin 1024))) * Ideal.div 1 (x3 (ix2 r (⟨512 + j.val, by omega⟩ : Fin 1024)) + 1) := by
  unfold k0_pay12
  simp only [mulf_apply, pay9_apply x0 x1 x2 x3 x4 p r j hid hlo, pay8_apply x0 x1 x2 x3 x4 p r j hid hlo]

/-- The outside distance before its correction. -/
theorem pay13_apply (x0 x1 : S1024x512.Idx → EReal) (x2 : S1024x1.Idx → BitVec 32) (x3 x4 : S1024x1024.Idx → EReal)
    (p r : Fin 1024) (j : Fin 256) (hid : x2 (ix2 p (0 : Fin 1)) = BitVec.ofNat 32 r.val) (hlo : ∀ i, x4 i = 0) :
    k0_pay13 (F := Ideal) x2 x3 x4 x0 x1 (ix2 p j)
      = Cert.Spec.absE (Ideal.tanh (x0 (ix2 p (⟨j.val, by omega⟩ : Fin 512)) + x1 (ix2 p (⟨256 + j.val, by omega⟩ : Fin 512))) - x3 (ix2 r (⟨j.val, by omega⟩ : Fin 1024))) * (x3 (ix2 r (⟨512 + j.val, by omega⟩ : Fin 1024)) + 1) := by
  unfold k0_pay13
  simp only [mulf_apply, pay9_apply x0 x1 x2 x3 x4 p r j hid hlo, pay7_apply x0 x1 x2 x3 x4 p r j hid hlo]

/-- The selected head distance is the distance of the bumped head to the head box. -/
theorem head_dist_apply (x0 x1 : S1024x512.Idx → EReal) (x2 : S1024x1.Idx → BitVec 32) (x3 x4 : S1024x1024.Idx → EReal)
    (p r : Fin 1024) (j : Fin 256) (hid : x2 (ix2 p (0 : Fin 1)) = BitVec.ofNat 32 r.val) (hlo : ∀ i, x4 i = 0) :
    Scalar.select (k0_pay11 (F := Ideal) x2 x3 x4 x0 x1 (ix2 p j)) (k0_pay12 (F := Ideal) x2 x3 x4 x0 x1 (ix2 p j))
        (k0_pay13 (F := Ideal) x2 x3 x4 x0 x1 (ix2 p j) - k0_pay10 (F := Ideal) x2 x3 x4 (ix2 p j))
      = Cert.Spec.dist (x0 (ix2 p (⟨j.val, by omega⟩ : Fin 512)) + x1 (ix2 p (⟨256 + j.val, by omega⟩ : Fin 512)))
          (x3 (ix2 r (⟨j.val, by omega⟩ : Fin 1024))) (x3 (ix2 r (⟨512 + j.val, by omega⟩ : Fin 1024))) := by
  rw [pay11_apply x0 x1 x2 x3 x4 p r j hid hlo, pay12_apply x0 x1 x2 x3 x4 p r j hid hlo, pay13_apply x0 x1 x2 x3 x4 p r j hid hlo, pay10_apply x0 x1 x2 x3 x4 p r j hid hlo, select_cmpf_ole]
  rfl

/-! ## The stored entry -/

/-- Both offsets of a whole-block access are zero. -/
theorem off_zero : (![0, 0] : Fin 2 → Nat) = fun _ => 0 :=
  funext fun a => match a with | ⟨0, _⟩ => rfl | ⟨1, _⟩ => rfl

/-- THE STORED ENTRY of row `p`. -/
theorem stored_apply (x0 x1 : S1024x512.Idx → EReal) (x2 : S1024x1.Idx → BitVec 32) (x3 x4 : S1024x1024.Idx → EReal)
    (p r : Fin 1024) (hid : x2 (ix2 p (0 : Fin 1)) = BitVec.ofNat 32 r.val) (hlo : ∀ i, x4 i = 0) :
    (stored (F := Ideal) x0 x1 x2 x3 x4 : S1024x1.Idx → EReal) (ix2 p (0 : Fin 1))
      = Cert.Spec.score1
          (fun j => x0 (ix2 p (⟨j.val, by omega⟩ : Fin 512)) + x1 (ix2 p (⟨256 + j.val, by omega⟩ : Fin 512)))
          (fun j => x1 (ix2 p (⟨j.val, by omega⟩ : Fin 512)) + x0 (ix2 p (⟨256 + j.val, by omega⟩ : Fin 512)))
          (fun j => x3 (ix2 r (⟨j.val, by omega⟩ : Fin 1024)))
          (fun j => x3 (ix2 r (⟨256 + j.val, by omega⟩ : Fin 1024)))
          (fun j => x3 (ix2 r (⟨512 + j.val, by omega⟩ : Fin 1024)))
          (fun j => x3 (ix2 r (⟨768 + j.val, by omega⟩ : Fin 1024))) := by
  unfold stored
  simp only [View.ld_unit_zero (S := S1024x512) off_zero, View.ld_unit_zero (S := S1024x1) off_zero,
    View.ld_unit_zero (S := S1024x1024) off_zero]
  rw [pay1_apply]
  simp only [head_dist_apply x0 x1 x2 x3 x4 p r _ hid hlo, pay6_apply x0 x1 p, pay3_apply x2 x3 x4 p r _ hid hlo,
    pay5_apply x2 x3 x4 p r _ hid hlo]
  exact zero_sub _

end Cert.KernelIdeal.Hand

end
-- ==== Proof.KernelIdealValue.lean ====
/-
  The kernel's result, at the ideal instance, as the score of the four argument arrays.

  Grid point `t` handles examples `1024 t … 1024 t + 1023`: its head, tail and id blocks are those rows of the
  arguments (ids clamped), its two table blocks are the whole tables. Row `p` of what it stores is the score of example
  `1024 t + p` against the table row its id selects; the 128 blocks tile the `[131072, 1]` output, and the reshape
  after the region reads that column as the result vector.
-/
import proofs.«426055_j19370302505588_3_alg».proof.Proof.KernelIdealFrame
import proofs.«426055_j19370302505588_3_alg».proof.Proof.KernelIdealHost
import proofs.«426055_j19370302505588_3_alg».proof.Proof.KernelIdealBody
import proofs.«426055_j19370302505588_3_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl

/-- The printed index maps over the 128 grid points: the three row windows and the output move to block row `t`; the
    two tables stay at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 128 := lt_of_lt_of_eq t.isLt (show cfg0.N = 128 from N_0)

/-- The score as the `[131072, 1]` column the region writes. -/
def G (c : Dev nD) : S131072x1.Idx → EReal := fun i =>
  Cert.Spec.score (m ((c : Thread nD τ).loc main_arg0)) (m ((c : Thread nD τ).loc main_arg1))
    (m ((c : Thread nD τ).loc main_arg2)) (m ((c : Thread nD τ).loc main_arg3)) (ix1 (i 0))

/-- The head block at point `t` is rows `1024 t …` of the head argument. -/
theorem iblk0_apply (c : Dev nD) (t : Fin cfg0.N) (x : S1024x512.Idx) (k : S131072x512.Idx)
    (hk0 : (k 0).val = 1024 * t.val + (x 0).val) (hk1 : (k 1).val = (x 1).val) :
    (iblk m c 0 t : S1024x512.Idx → EReal) x = (m ((c : Thread nD τ).loc main_arg0) : S131072x512.Idx → EReal) k := by
  obtain ⟨h0, h1, -⟩ := idx_facts t
  unfold iblk
  rw [View.read_apply]
  show V m c main_arg0 _ = _
  rw [V_main_arg0 m c]
  congr 1
  funext a; apply Fin.ext
  match a with
  | ⟨0, _⟩ => show win0_0.index t 0 * 1024 + 1 * (x 0).val = (k 0).val; rw [h0, hk0]; omega
  | ⟨1, _⟩ => show win0_0.index t 1 * 512 + 1 * (x 1).val = (k 1).val; rw [h1, hk1]; omega

/-- The tail block at point `t` is rows `1024 t …` of the tail argument. -/
theorem iblk1_apply (c : Dev nD) (t : Fin cfg0.N) (x : S1024x512.Idx) (k : S131072x512.Idx)
    (hk0 : (k 0).val = 1024 * t.val + (x 0).val) (hk1 : (k 1).val = (x 1).val) :
    (iblk m c 1 t : S1024x512.Idx → EReal) x = (m ((c : Thread nD τ).loc main_arg2) : S131072x512.Idx → EReal) k := by
  obtain ⟨-, -, h0, h1, -⟩ := idx_facts t
  unfold iblk
  rw [View.read_apply]
  show V m c main_arg2 _ = _
  rw [V_main_arg2 m c]
  congr 1
  funext a; apply Fin.ext
  match a with
  | ⟨0, _⟩ => show win0_1.index t 0 * 1024 + 1 * (x 0).val = (k 0).val; rw [h0, hk0]; omega
  | ⟨1, _⟩ => show win0_1.index t 1 * 512 + 1 * (x 1).val = (k 1).val; rw [h1, hk1]; omega

/-- The ids' block at point `t` is rows `1024 t …` of the clamped ids' column. -/
theorem iblk2_apply (c : Dev nD) (t : Fin cfg0.N) (x : S1024x1.Idx) (k : S131072x1.Idx)
    (hk0 : (k 0).val = 1024 * t.val + (x 0).val) (hk1 : (k 1).val = (x 1).val) :
    (iblk m c 2 t : S1024x1.Idx → BitVec 32) x = (V m c main_v38 : S131072x1.Idx → BitVec 32) k := by
  obtain ⟨-, -, -, -, h0, h1, -⟩ := idx_facts t
  unfold iblk
  rw [View.read_apply]
  show V m c main_v38 _ = _
  congr 1
  funext a; apply Fin.ext
  match a with
  | ⟨0, _⟩ => show win0_2.index t 0 * 1024 + 1 * (x 0).val = (k 0).val; rw [h0, hk0]; omega
  | ⟨1, _⟩ => show win0_2.index t 1 * 1 + 1 * (x 1).val = (k 1).val; rw [h1, hk1]; omega

/-- Each table block is the whole table, at every point. -/
theorem iblk3_apply (c : Dev nD) (t : Fin cfg0.N) (x : S1024x1024.Idx) :
    (iblk m c 3 t : S1024x1024.Idx → EReal) x = (V m c main_v33 : S1024x1024.Idx → EReal) x := by
  obtain ⟨-, -, -, -, -, -, h0, h1, -⟩ := idx_facts t
  unfold iblk
  rw [View.read_apply]
  show V m c main_v33 _ = _
  congr 1
  funext a; apply Fin.ext
  match a with
  | ⟨0, _⟩ => show win0_3.index t 0 * 1024 + 1 * (x 0).val = (x 0).val; rw [h0]; omega
  | ⟨1, _⟩ => show win0_3.index t 1 * 1024 + 1 * (x 1).val = (x 1).val; rw [h1]; omega

theorem iblk4_apply (c : Dev nD) (t : Fin cfg0.N) (x : S1024x1024.Idx) :
    (iblk m c 4 t : S1024x1024.Idx → EReal) x = (V m c main_v36 : S1024x1024.Idx → EReal) x := by
  obtain ⟨-, -, -, -, -, -, -, -, h0, h1, -⟩ := idx_facts t
  unfold iblk
  rw [View.read_apply]
  show V m c main_v36 _ = _
  congr 1
  funext a; apply Fin.ext
  match a with
  | ⟨0, _⟩ => show win0_4.index t 0 * 1024 + 1 * (x 0).val = (x 0).val; rw [h0]; omega
  | ⟨1, _⟩ => show win0_4.index t 1 * 1024 + 1 * (x 1).val = (x 1).val; rw [h1]; omega

/-- WHAT POINT `t` WRITES BACK is block `t` of the score column. -/
theorem flushed5_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5]
  unfold out0_5
  rw [View.canon_unit_zero hz2]
  refine funext fun (j : S1024x1.Idx) => ?_
  rw [View.read_apply]
  obtain ⟨p, rfl⟩ : ∃ p : Fin 1024, j = ix2 p (0 : Fin 1) :=
    ⟨j 0, (eq_ix2 j).trans (by congr 1; exact Fin.ext (by have := idx2_lt1 j; show (j 1).val = 0; omega))⟩
  have hb : 1024 * t.val + p.val < 131072 := by have := t_lt t; have := p.isLt; omega
  obtain ⟨-, -, -, -, -, -, -, -, -, -, h50, h51⟩ := idx_facts t
  have hemb : ((cfg0.win 5).blk t).view.emb (ix2 p (0 : Fin 1)) = (ix2 (⟨1024 * t.val + p.val, hb⟩ : Fin 131072) (0 : Fin 1) : S131072x1.Idx) := by
    funext a; apply Fin.ext
    match a with
    | ⟨0, _⟩ => show win0_5.index t 0 * 1024 + 1 * p.val = 1024 * t.val + p.val; rw [h50]; omega
    | ⟨1, _⟩ => show win0_5.index t 1 * 1 + 1 * 0 = 0; rw [h51]
  show (stored (F := Ideal) (iblk m c 0 t) (iblk m c 1 t) (iblk m c 2 t) (iblk m c 3 t) (iblk m c 4 t) : S1024x1.Idx → EReal) (ix2 p (0 : Fin 1))
      = G m c (((cfg0.win 5).blk t).view.emb (ix2 p (0 : Fin 1)))
  rw [hemb]
  have hid : (iblk m c 2 t : S1024x1.Idx → BitVec 32) (ix2 p (0 : Fin 1))
      = BitVec.ofNat 32 (Cert.Spec.ridx (ridArr m c (ix1 (⟨1024 * t.val + p.val, hb⟩ : Fin 131072)))).val :=
    (iblk2_apply m c t (ix2 p (0 : Fin 1)) (ix2 (⟨1024 * t.val + p.val, hb⟩ : Fin 131072) (0 : Fin 1)) rfl rfl).trans (V_rid m c _)
  have hlo : ∀ i : S1024x1024.Idx, (iblk m c 4 t : S1024x1024.Idx → EReal) i = (0 : EReal) := fun i => (iblk4_apply m c t i).trans (V_lo m c i)
  refine (stored_apply (iblk m c 0 t) (iblk m c 1 t) (iblk m c 2 t) (iblk m c 3 t) (iblk m c 4 t) p _ hid hlo).trans ?_
  show Cert.Spec.score1 _ _ _ _ _ _
      = Cert.Spec.score1
          (Cert.Spec.bumpH (m ((c : Thread nD τ).loc main_arg0)) (m ((c : Thread nD τ).loc main_arg2)) ⟨1024 * t.val + p.val, hb⟩)
          (Cert.Spec.bumpT (m ((c : Thread nD τ).loc main_arg0)) (m ((c : Thread nD τ).loc main_arg2)) ⟨1024 * t.val + p.val, hb⟩)
          (Cert.Spec.cH (relArr m c) (Cert.Spec.ridx (ridArr m c (ix1 (⟨1024 * t.val + p.val, hb⟩ : Fin 131072)))))
          (Cert.Spec.cT (relArr m c) (Cert.Spec.ridx (ridArr m c (ix1 (⟨1024 * t.val + p.val, hb⟩ : Fin 131072)))))
          (Cert.Spec.wH (relArr m c) (Cert.Spec.ridx (ridArr m c (ix1 (⟨1024 * t.val + p.val, hb⟩ : Fin 131072)))))
          (Cert.Spec.wT (relArr m c) (Cert.Spec.ridx (ridArr m c (ix1 (⟨1024 * t.val + p.val, hb⟩ : Fin 131072)))))
  refine congr (congr (congr (congr (congr (congrArg Cert.Spec.score1 (funext fun j => ?_)) (funext fun j => ?_))
    (funext fun j => ?_)) (funext fun j => ?_)) (funext fun j => ?_)) (funext fun j => ?_)
  · unfold Cert.Spec.bumpH
    exact congr (congrArg _ (iblk0_apply m c t _ (ix2 (⟨1024 * t.val + p.val, hb⟩ : Fin 131072) (⟨j.val, by omega⟩ : Fin 512)) rfl rfl))
      (iblk1_apply m c t _ (ix2 (⟨1024 * t.val + p.val, hb⟩ : Fin 131072) (⟨256 + j.val, by omega⟩ : Fin 512)) rfl rfl)
  · unfold Cert.Spec.bumpT
    exact congr (congrArg _ (iblk1_apply m c t _ (ix2 (⟨1024 * t.val + p.val, hb⟩ : Fin 131072) (⟨j.val, by omega⟩ : Fin 512)) rfl rfl))
      (iblk0_apply m c t _ (ix2 (⟨1024 * t.val + p.val, hb⟩ : Fin 131072) (⟨256 + j.val, by omega⟩ : Fin 512)) rfl rfl)
  · exact (iblk3_apply m c t _).trans (V_hi_cH m c _ j)
  · exact (iblk3_apply m c t _).trans (V_hi_cT m c _ j)
  · exact (iblk3_apply m c t _).trans (V_hi_wH m c _ j)
  · exact (iblk3_apply m c t _).trans (V_hi_wT m c _ j)

/-- An index of the output column is in point `t`'s block iff each coordinate is in the block's range on its axis. -/
theorem mem_blk5 (t : Fin cfg0.N) (i : S131072x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v39).slice (win0_5.rect t)).set ↔ _
  rw [View.set_slice_whole, Rect.mem_set_unit]
  exact Iff.rfl

/-- Every index of the output column is in some grid point's block: row `i` in block `i / 1024`. -/
theorem cover5 (i : S131072x1.Idx) : ∃ t : Fin cfg0.N, (cfg0.win 5).flush t = true ∧ i ∈ ((cfg0.win 5).blk t).view.set := by
  have hi0 : (i 0).val < 131072 := idx2_lt0 i
  have hi1 : (i 1).val < 1 := idx2_lt1 i
  have ht : (i 0).val / 1024 < cfg0.N := by rw [show cfg0.N = 128 from N_0]; omega
  obtain ⟨-, -, -, -, -, -, -, -, -, -, h50, h51⟩ := idx_facts ⟨(i 0).val / 1024, ht⟩
  refine ⟨⟨(i 0).val / 1024, ht⟩, flush0_5 _, ?_⟩
  rw [mem_blk5]
  intro a
  match a with
  | ⟨0, _⟩ =>
    show win0_5.index ⟨(i 0).val / 1024, ht⟩ (0 : Fin 2) * 1024 ≤ (i 0).val ∧ (i 0).val < win0_5.index ⟨(i 0).val / 1024, ht⟩ (0 : Fin 2) * 1024 + 1024
    rw [h50]; show (i 0).val / 1024 * 1024 ≤ (i 0).val ∧ (i 0).val < (i 0).val / 1024 * 1024 + 1024; omega
  | ⟨1, _⟩ =>
    show win0_5.index ⟨(i 0).val / 1024, ht⟩ (1 : Fin 2) * 1 ≤ (i 1).val ∧ (i 1).val < win0_5.index ⟨(i 0).val / 1024, ht⟩ (1 : Fin 2) * 1 + 1
    rw [h51]; omega

/-- THE OUTPUT COLUMN after the run is the score column. -/
theorem final5 (c : Dev nD) : (dats m 0 c).arrAt 5 cfg0.N = G m c :=
  (dats m 0 c).arrAt_eq_of_cover 5 (G m c) (fun t _ => flushed5_eq m c t) cover5

/-- The reshape after the region reads the column as the result vector. -/
theorem tail_eq (c : Dev nD) :
    (Pipeline.afterTail₀ cfgs (dats m) 0 (V0 m) [hostOps1] c main_v40 : S131072.Idx → EReal)
      = Cert.Spec.score (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v40) = _
  after_results
  rw [show Pipeline.withArrays (cfgs 0).spec c (V0 m c) (fun w => (dats m 0 c).arrAt w (cfgs 0).N) (Proc.devRef .tc main_v39)
      = (dats m 0 c).arrAt 5 cfg0.N from Pipeline.withArrays_arr spec0 launch0.win.arr_inj c _ _ 5, final5]
  funext i
  obtain ⟨b, rfl⟩ : ∃ b : Fin 131072, i = ix1 b := ⟨i 0, eq_ix1 i⟩
  show shapeCast S131072 (G m c) shapeCasts_S131072x1_S131072 (ix1 b) = _
  refine (shapeCast_apply (G m c) shapeCasts_S131072x1_S131072 (ix1 b) (ix2 b (0 : Fin 1)) ?_).trans rfl
  rw [Shape.rowMajor_val_two, Shape.rowMajor_val_one]
  show b.val * 1 + 0 = b.val
  omega

/-- THE KERNEL'S RUN, READ: the result vector is the score of the argument arrays, which end unchanged. -/
theorem result : θ_run defs (onTc (τ := τ) (main (F := Ideal))) ⟨m, fun _ => 0, ρ⟩ (fun r => ∀ c : Dev nD,
      r.2.mem ((c.tc : Thread nD τ).loc main_v40)
        = Cert.Spec.score (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨((h c).2 main_v40 (Pipeline.mem_restRefs_of main_v40 (by decide) (by decide))).trans (tail_eq m c), kept_args m r h c⟩)
    (run_main m ρ)

end Cert.KernelIdeal.Hand

end
-- ==== Proof.ReferenceIdealTerm.lean ====
/-
  The reference's result as one pure term of its four argument arrays: @main's operations composed in order, the
  functions it calls (the two clips, elu and its selects, the final select) written out at their call sites.
-/
import proofs.«426055_j19370302505588_3_alg».proof.ReferenceIdeal
import proofs.«426055_j19370302505588_3_alg».proof.Proof.Gen.ReferenceIdeal
import Idealize.ShloMosaic.PureOps.Ideal

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

/-- The last stage: the two Euclidean norms of the distances, added and negated. -/
def refTerm_part4 (v57 : FVec F S131072x2x256 .f32) : FVec F S131072 .f32 :=
  -- the two Euclidean norms, added and negated
  let v58 : FVec F S131072x2x256 .f32 := Host.absf v57
  let v59 : FVec F S131072x2x256 .f32 := mulf v58 v58
  let cst_9 : FVec F S_ .f32 := constant S_ .f32 0x00000000#32
  let v60 : FVec F S131072x2 .f32 := Host.reduceAdd v59 cst_9 reducesTo_S131072x2x256_S131072x2_d2 h_S_
  let cst_10 : FVec F S_ .f32 := constant S_ .f32 0x3F000000#32
  let v61 : FVec F S131072x2 .f32 := broadcastInDim S131072x2 ![] bcast_S_S131072x2 cst_10
  let v62 : FVec F S131072x2 .f32 := Host.powf v60 v61
  let cst_11 : FVec F S_ .f32 := constant S_ .f32 0x00000000#32
  let v63 : FVec F S131072 .f32 := Host.reduceAdd v62 cst_11 reducesTo_S131072x2_S131072_d1 h_S_
  let v64 : FVec F S131072 .f32 := Host.negf v63
  v64

/-- The distances from the squashed widths, centres and points. -/
def refTerm_part3 (v38 v39 v40 : FVec F S131072x2x256 .f32) : FVec F S131072 .f32 :=
  let cst_5 : FVec F S_ .f32 := constant S_ .f32 0x3F800000#32
  let v41 : FVec F S131072x2x256 .f32 := broadcastInDim S131072x2x256 ![] bcast_S_S131072x2x256 cst_5
  let v42 : FVec F S131072x2x256 .f32 := addf v38 v41
  let v43 : FVec F S131072x2x256 .f32 := subf v40 v39
  let v44 : FVec F S131072x2x256 .f32 := Host.absf v43
  -- the distance outside the box, and the test for being inside it
  let cst_6 : FVec F S_ .f32 := constant S_ .f32 0x3F000000#32
  let v45 : FVec F S131072x2x256 .f32 := broadcastInDim S131072x2x256 ![] bcast_S_S131072x2x256 cst_6
  let v46 : FVec F S131072x2x256 .f32 := mulf v45 v38
  let cst_7 : FVec F S_ .f32 := constant S_ .f32 0x3F800000#32
  let v47 : FVec F S131072x2x256 .f32 := broadcastInDim S131072x2x256 ![] bcast_S_S131072x2x256 cst_7
  let v48 : FVec F S131072x2x256 .f32 := Host.divf v47 v42
  let v49 : FVec F S131072x2x256 .f32 := subf v42 v48
  let v50 : FVec F S131072x2x256 .f32 := mulf v46 v49
  let cst_8 : FVec F S_ .f32 := constant S_ .f32 0x40000000#32
  let v51 : FVec F S131072x2x256 .f32 := broadcastInDim S131072x2x256 ![] bcast_S_S131072x2x256 cst_8
  let v52 : FVec F S131072x2x256 .f32 := Host.divf v38 v51
  let v53 : IVec S131072x2x256 1 := cmpf .ole v44 v52
  let v54 : FVec F S131072x2x256 .f32 := Host.divf v44 v42
  let v55 : FVec F S131072x2x256 .f32 := mulf v44 v42
  let v56 : FVec F S131072x2x256 .f32 := subf v55 v50
  let v57 : FVec F S131072x2x256 .f32 := select v53 v54 v56
  refTerm_part4 (F := F) v57

/-- One plus elu of the box size, the scaled widths, and the three squashings. -/
def refTerm_part2 (v8 v20 v31 : FVec F S131072x2x256 .f32) (v32 : FVec F S131072x2x1 .f32) : FVec F S131072 .f32 :=
  let call2_cst : FVec F S_ .f32 := constant S_ .f32 0x00000000#32
  let call2_v0 : FVec F S131072x2x1 .f32 := broadcastInDim S131072x2x1 ![] bcast_S_S131072x2x1 call2_cst
  let call2_v1 : IVec S131072x2x1 1 := cmpf .ogt v32 call2_v0
  let call2_cst_0 : FVec F S_ .f32 := constant S_ .f32 0x00000000#32
  let call2_v2 : FVec F S131072x2x1 .f32 := broadcastInDim S131072x2x1 ![] bcast_S_S131072x2x1 call2_cst_0
  let call2_v3 : IVec S131072x2x1 1 := cmpf .ogt v32 call2_v2
  let call2_cst_1 : FVec F S_ .f32 := constant S_ .f32 0x00000000#32
  let call2_call0_v0 : FVec F S_ .f32 := id call2_cst_1
  let call2_call0_v1 : FVec F S131072x2x1 .f32 := broadcastInDim S131072x2x1 ![] bcast_S_S131072x2x1 call2_call0_v0
  let call2_v4 : FVec F S131072x2x1 .f32 := select call2_v3 call2_call0_v1 v32
  let call2_v5 : FVec F S131072x2x1 .f32 := Host.expm1 call2_v4
  let call2_cst_2 : FVec F S_ .f32 := constant S_ .f32 0x3F800000#32
  let call2_v6 : FVec F S131072x2x1 .f32 := broadcastInDim S131072x2x1 ![] bcast_S_S131072x2x1 call2_cst_2
  let call2_v7 : FVec F S131072x2x1 .f32 := mulf call2_v6 call2_v5
  let v33 : FVec F S131072x2x1 .f32 := select call2_v1 v32 call2_v7
  let cst_4 : FVec F S_ .f32 := constant S_ .f32 0x3F800000#32
  let v34 : FVec F S131072x2x1 .f32 := broadcastInDim S131072x2x1 ![] bcast_S_S131072x2x1 cst_4
  let v35 : FVec F S131072x2x1 .f32 := addf v34 v33
  let v36 : FVec F S131072x2x256 .f32 := broadcastInDim S131072x2x256 ![0, 1, 2] bcast_S131072x2x1_S131072x2x256_0_1_2 v35
  let v37 : FVec F S131072x2x256 .f32 := mulf v31 v36
  -- the squashed widths, centres and points
  let v38 : FVec F S131072x2x256 .f32 := Host.tanh v37
  let v39 : FVec F S131072x2x256 .f32 := Host.tanh v8
  let v40 : FVec F S131072x2x256 .f32 := Host.tanh v20
  refTerm_part3 (F := F) v38 v39 v40

/-- The widths over their softened geometric mean. -/
def refTerm_part1 (v8 v10 : FVec F S131072x2x256 .f32) (v11 : FVec F S131072x2 .f32) (v20 : FVec F S131072x2x256 .f32) : FVec F S131072 .f32 :=
  -- the widths over their softened geometric mean
  let v21 : FVec F S131072x2x256 .f32 := Host.absf v10
  let cst : FVec F S_ .f32 := constant S_ .f32 0x358637BD#32
  let call0_v0 : FVec F S_ .f32 := id cst
  let call0_v1 : FVec F S131072x2x256 .f32 := broadcastInDim S131072x2x256 ![] bcast_S_S131072x2x256 call0_v0
  let v22 : FVec F S131072x2x256 .f32 := maximumf call0_v1 v21
  let v23 : FVec F S131072x2x256 .f32 := Host.log v22
  let cst_1 : FVec F S_ .f32 := constant S_ .f32 0x00000000#32
  let v24 : FVec F S131072x2 .f32 := Host.reduceAdd v23 cst_1 reducesTo_S131072x2x256_S131072x2_d2 h_S_
  let v25 : FVec F S131072x2x1 .f32 := broadcastInDim S131072x2x1 ![0, 1] bcast_S131072x2_S131072x2x1_0_1 v24
  let cst_2 : FVec F S_ .f32 := constant S_ .f32 0x43800000#32
  let v26 : FVec F S131072x2x1 .f32 := broadcastInDim S131072x2x1 ![] bcast_S_S131072x2x1 cst_2
  let v27 : FVec F S131072x2x1 .f32 := Host.divf v25 v26
  let v28 : FVec F S131072x2x1 .f32 := Host.exp v27
  let cst_3 : FVec F S_ .f32 := constant S_ .f32 0x358637BD#32
  let call1_v0 : FVec F S_ .f32 := id cst_3
  let call1_v1 : FVec F S131072x2x1 .f32 := broadcastInDim S131072x2x1 ![] bcast_S_S131072x2x1 call1_v0
  let v29 : FVec F S131072x2x1 .f32 := maximumf call1_v1 v28
  let v30 : FVec F S131072x2x256 .f32 := broadcastInDim S131072x2x256 ![0, 1, 2] bcast_S131072x2x1_S131072x2x256_0_1_2 v29
  let v31 : FVec F S131072x2x256 .f32 := Host.divf v21 v30
  -- one plus elu of the box size
  let v32 : FVec F S131072x2x1 .f32 := broadcastInDim S131072x2x1 ![0, 1] bcast_S131072x2_S131072x2x1_0_1 v11
  refTerm_part2 (F := F) v8 v20 v31 v32

/-- The reference's result array from its arguments (head, ids, tail, relation table). -/
def refTerm (a0 : FVec F S131072x512 .f32) (a1 : IVec S131072 32) (a2 : FVec F S131072x512 .f32) (a3 : FVec F S1024x1026 .f32) :
    FVec F S131072 .f32 :=
  -- the ids: a negative id is wrapped by the table's height, then each id becomes a one-entry start index
  let c : IVec S_ 32 := constantI S_ 32 0#32
  let v0 : IVec S131072 32 := broadcastInDim S131072 ![] bcast_S_S131072 c
  let v1 : IVec S131072 1 := cmpi .slt a1 v0
  let c_0 : IVec S_ 32 := constantI S_ 32 1024#32
  let v2 : IVec S131072 32 := broadcastInDim S131072 ![] bcast_S_S131072 c_0
  let v3 : IVec S131072 32 := addi a1 v2
  let v4 : IVec S131072 32 := select v1 v3 a1
  let v5 : IVec S131072x1 32 := broadcastInDim S131072x1 ![0] bcast_S131072_S131072x1_0 v4
  -- each example's row of the relation table, cut into centres, widths and the two sizes
  let v6 : FVec F S131072x1026 .f32 := Host.gather gather_S1024x1026_S131072x1_S131072x1026_1_0_n_n_0_1_11026 a3 v5
  let v7 : FVec F S131072x512 .f32 := extractStridedSlice S131072x512 ![0, 0] v6 slices_S131072x1026_S131072x512_0_0
  let v8 : FVec F S131072x2x256 .f32 := shapeCast S131072x2x256 v7 shapeCasts_S131072x512_S131072x2x256
  let v9 : FVec F S131072x512 .f32 := extractStridedSlice S131072x512 ![0, 512] v6 slices_S131072x1026_S131072x512_0_512
  let v10 : FVec F S131072x2x256 .f32 := shapeCast S131072x2x256 v9 shapeCasts_S131072x512_S131072x2x256
  let v11 : FVec F S131072x2 .f32 := extractStridedSlice S131072x2 ![0, 1024] v6 slices_S131072x1026_S131072x2_0_1024
  -- the two bumped points, stacked along a new middle axis
  let v12 : FVec F S131072x256 .f32 := extractStridedSlice S131072x256 ![0, 0] a0 slices_S131072x512_S131072x256_0_0
  let v13 : FVec F S131072x256 .f32 := extractStridedSlice S131072x256 ![0, 256] a0 slices_S131072x512_S131072x256_0_256
  let v14 : FVec F S131072x256 .f32 := extractStridedSlice S131072x256 ![0, 0] a2 slices_S131072x512_S131072x256_0_0
  let v15 : FVec F S131072x256 .f32 := extractStridedSlice S131072x256 ![0, 256] a2 slices_S131072x512_S131072x256_0_256
  let v16 : FVec F S131072x256 .f32 := addf v12 v15
  let v17 : FVec F S131072x256 .f32 := addf v14 v13
  let v18 : FVec F S131072x1x256 .f32 := broadcastInDim S131072x1x256 ![0, 2] bcast_S131072x256_S131072x1x256_0_2 v16
  let v19 : FVec F S131072x1x256 .f32 := broadcastInDim S131072x1x256 ![0, 2] bcast_S131072x256_S131072x1x256_0_2 v17
  let v20 : FVec F S131072x2x256 .f32 :=
    concatenate S131072x2x256 1 [⟨S131072x1x256, v18⟩, ⟨S131072x1x256, v19⟩] concatenates_S131072x1x256_S131072x1x256_S131072x2x256_d1
  refTerm_part1 (F := F) v8 v10 v11 v20

end Cert.ReferenceIdeal.Hand

end
-- ==== Proof.ReferenceIdealSteps.lean ====
/-
  A straight line of host operations in single-assignment form: each operation writes one buffer and no later operation
  writes it again, so what a buffer holds at the end is what its own operation left there, and an operation's operands,
  written before it, hold at the end what it read.
-/
import proofs.«426055_j19370302505588_3_alg».proof.ReferenceIdeal
import Idealize.ShloMosaic.Lib.StableHlo.Run
import Mathlib.Data.List.Forall2

noncomputable section

namespace Cert.ReferenceIdeal.Hand

open Cert.ReferenceIdeal
open Idealize.ShloMosaic Idealize.ShloMosaic.TcCoe Idealize.SL.Sem

variable {F : FTy → Type} [FloatOps F]

/-! ## A line in single-assignment form

Each operation of the line writes one buffer and no later operation writes it again, so what a buffer holds at the end
is what its own operation left there, and an operation's operands, written before it, hold at the end what it read. -/

/-- The line writes, operation by operation, exactly the references `outs`. -/
abbrev WritesList (l : List (HloOp τ sig (Elt F))) (outs : List (Ref sig .tc)) : Prop :=
  List.Forall₂ (fun op y => op.writes = {Proc.devRef (τ := τ) .tc y}) l outs

/-- Two lines one after the other fold as the second over what the first left. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, StableHlo.after_cons, ih]

/-- A reference the line does not write keeps its contents. -/
theorem after_keep {r : Ref sig .tc} : ∀ {l : List (HloOp τ sig (Elt F))} {outs : List (Ref sig .tc)},
    WritesList l outs → ∀ V : Valuation τ sig (Elt F), r ∉ outs →
      StableHlo.after l V (Proc.devRef .tc r) = V (Proc.devRef .tc r)
  | _, _, .nil, _, _ => rfl
  | _, _, .cons (a := op) (b := y) hy h, V, hr => by
    rw [StableHlo.after_cons, after_keep h _ (fun hm => hr (List.mem_cons_of_mem _ hm)),
      op.result_of_not_mem V (by
        rw [hy, Finset.mem_singleton]
        exact StableHlo.devRef_ne_of_ne (fun e => hr (e ▸ List.mem_cons_self)))]

/-- A reference the line's tail from `k` on does not write holds at the end what the first `k` operations left. -/
theorem after_at {l : List (HloOp τ sig (Elt F))} {outs : List (Ref sig .tc)} (h : WritesList l outs) (k : Nat)
    (V : Valuation τ sig (Elt F)) (r : Ref sig .tc) (hr : r ∉ outs.drop k) :
    StableHlo.after l V (Proc.devRef .tc r) = StableHlo.after (l.take k) V (Proc.devRef .tc r) := by
  conv_lhs => rw [← List.take_append_drop k l]
  rw [after_append, after_keep (List.forall₂_drop k h) _ hr]

/-- One more operation of the line. -/
theorem after_take_succ (l : List (HloOp τ sig (Elt F))) (k : Nat) (op : HloOp τ sig (Elt F)) (hop : l[k]? = some op)
    (V : Valuation τ sig (Elt F)) :
    StableHlo.after (l.take (k + 1)) V = op.result (StableHlo.after (l.take k) V) := by
  rw [List.take_succ, hop, Option.toList_some, after_append, StableHlo.after_cons, StableHlo.after_nil]

/-! The operation at place `k` of the line, by its arity: at the end its result buffer holds its function of what its
operand buffers hold at the end, for the result buffer is not written after place `k` and no operand from place `k` on. -/

section Steps
variable {l : List (HloOp τ sig (Elt F))} {outs : List (Ref sig .tc)} (h : WritesList l outs) (k : Nat)
include h

theorem step_nullary {y : Ref sig .tc} {v : y.ty.Contents (Elt F)} {hy}
    (hop : l[k]? = some (StableHlo.nullary y v hy)) (hy' : y ∉ outs.drop (k + 1)) (V : Valuation τ sig (Elt F)) :
    StableHlo.after l V (Proc.devRef .tc y) = v := by
  rw [after_at h (k + 1) V y hy', after_take_succ l k _ hop, StableHlo.nullary_result]

theorem step_unary {x y : Ref sig .tc} {f : x.ty.Contents (Elt F) → y.ty.Contents (Elt F)} {hx hy}
    (hop : l[k]? = some (StableHlo.unary x y f hx hy)) (hy' : y ∉ outs.drop (k + 1)) (hx' : x ∉ outs.drop k)
    (V : Valuation τ sig (Elt F)) :
    StableHlo.after l V (Proc.devRef .tc y) = f (StableHlo.after l V (Proc.devRef .tc x)) := by
  rw [after_at h (k + 1) V y hy', after_take_succ l k _ hop, StableHlo.unary_result, ← after_at h k V x hx']

theorem step_binary {a b y : Ref sig .tc} {f : a.ty.Contents (Elt F) → b.ty.Contents (Elt F) → y.ty.Contents (Elt F)} {ha hb hy}
    (hop : l[k]? = some (StableHlo.binary a b y f ha hb hy)) (hy' : y ∉ outs.drop (k + 1))
    (ha' : a ∉ outs.drop k) (hb' : b ∉ outs.drop k) (V : Valuation τ sig (Elt F)) :
    StableHlo.after l V (Proc.devRef .tc y)
      = f (StableHlo.after l V (Proc.devRef .tc a)) (StableHlo.after l V (Proc.devRef .tc b)) := by
  rw [after_at h (k + 1) V y hy', after_take_succ l k _ hop, StableHlo.binary_result, ← after_at h k V a ha',
    ← after_at h k V b hb']

theorem step_ternary {c a b y : Ref sig .tc}
    {f : c.ty.Contents (Elt F) → a.ty.Contents (Elt F) → b.ty.Contents (Elt F) → y.ty.Contents (Elt F)} {hc ha hb hy}
    (hop : l[k]? = some (StableHlo.ternary c a b y f hc ha hb hy)) (hy' : y ∉ outs.drop (k + 1))
    (hc' : c ∉ outs.drop k) (ha' : a ∉ outs.drop k) (hb' : b ∉ outs.drop k) (V : Valuation τ sig (Elt F)) :
    StableHlo.after l V (Proc.devRef .tc y)
      = f (StableHlo.after l V (Proc.devRef .tc c)) (StableHlo.after l V (Proc.devRef .tc a))
          (StableHlo.after l V (Proc.devRef .tc b)) := by
  rw [after_at h (k + 1) V y hy', after_take_succ l k _ hop, StableHlo.ternary_result, ← after_at h k V c hc',
    ← after_at h k V a ha', ← after_at h k V b hb']

theorem step_reshape {x y : Ref sig .tc} {he hn hx hy}
    (hop : l[k]? = some (StableHlo.reshape x y he hn hx hy)) (hy' : y ∉ outs.drop (k + 1)) (hx' : x ∉ outs.drop k)
    (V : Valuation τ sig (Elt F)) :
    StableHlo.after l V (Proc.devRef .tc y)
      = fun i => he ▸ shapeCast y.ty.shape (StableHlo.after l V (Proc.devRef .tc x)) hn i := by
  rw [after_at h (k + 1) V y hy', after_take_succ l k _ hop, StableHlo.reshape_result, ← after_at h k V x hx']

end Steps

end Cert.ReferenceIdeal.Hand

end
-- ==== Proof.ReferenceIdealRunTable.lean ====
/-
  The reference's @main as one straight line of operations, and the tables over it: every operation touches TensorCore
  references only; operation by operation the line writes one buffer each, never twice; and, stage by stage of the
  composed term, each buffer holds at the end its operation's function of what its operands hold.
-/
import proofs.«426055_j19370302505588_3_alg».proof.Proof.ReferenceIdealTerm
import proofs.«426055_j19370302505588_3_alg».proof.Proof.ReferenceIdealSteps

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

/-- @main as one straight line: its own operations in order, and in the place of each call the called function's
    operations over that call's buffers (the two clips three each; elu fifteen, its two selects' among them; the last
    select one). -/
abbrev ops : List (HloOp τ sig (Elt F)) :=
  [ StableHlo.nullary main_c (constantI S_ 32 0#32),
    StableHlo.unary main_c main_v0 (broadcastInDim S131072 ![] bcast_S_S131072 : (⟨S_, .i32⟩ : BufTy).Contents (Elt F) → (⟨S131072, .i32⟩ : BufTy).Contents (Elt F)),
    StableHlo.binary main_arg1 main_v0 main_v1 (cmpi .slt : (⟨S131072, .i32⟩ : BufTy).Contents (Elt F) → (⟨S131072, .i32⟩ : BufTy).Contents (Elt F) → (⟨S131072, .i1⟩ : BufTy).Contents (Elt F)),
    StableHlo.nullary main_c_0 (constantI S_ 32 1024#32),
    StableHlo.unary main_c_0 main_v2 (broadcastInDim S131072 ![] bcast_S_S131072 : (⟨S_, .i32⟩ : BufTy).Contents (Elt F) → (⟨S131072, .i32⟩ : BufTy).Contents (Elt F)),
    StableHlo.binary main_arg1 main_v2 main_v3 (addi : (⟨S131072, .i32⟩ : BufTy).Contents (Elt F) → (⟨S131072, .i32⟩ : BufTy).Contents (Elt F) → (⟨S131072, .i32⟩ : BufTy).Contents (Elt F)),
    StableHlo.ternary main_v1 main_v3 main_arg1 main_v4 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    StableHlo.unary main_v4 main_v5 (broadcastInDim S131072x1 ![0] bcast_S131072_S131072x1_0 : (⟨S131072, .i32⟩ : BufTy).Contents (Elt F) → (⟨S131072x1, .i32⟩ : BufTy).Contents (Elt F)),
    StableHlo.binary main_arg3 main_v5 main_v6 ((fun x i => Host.gather gather_S1024x1026_S131072x1_S131072x1026_1_0_n_n_0_1_11026 x i) : (⟨S1024x1026, .f32⟩ : BufTy).Contents (Elt F) → (⟨S131072x1, .i32⟩ : BufTy).Contents (Elt F) → (⟨S131072x1026, .f32⟩ : BufTy).Contents (Elt F)),
    StableHlo.unary main_v6 main_v7 ((extractStridedSlice S131072x512 ![0, 0] · slices_S131072x1026_S131072x512_0_0) : (⟨S131072x1026, .f32⟩ : BufTy).Contents (Elt F) → (⟨S131072x512, .f32⟩ : BufTy).Contents (Elt F)),
    StableHlo.reshape main_v7 main_v8 rfl shapeCasts_S131072x512_S131072x2x256,
    StableHlo.unary main_v6 main_v9 ((extractStridedSlice S131072x512 ![0, 512] · slices_S131072x1026_S131072x512_0_512) : (⟨S131072x1026, .f32⟩ : BufTy).Contents (Elt F) → (⟨S131072x512, .f32⟩ : BufTy).Contents (Elt F)),
    StableHlo.reshape main_v9 main_v10 rfl shapeCasts_S131072x512_S131072x2x256,
    StableHlo.unary main_v6 main_v11 ((extractStridedSlice S131072x2 ![0, 1024] · slices_S131072x1026_S131072x2_0_1024) : (⟨S131072x1026, .f32⟩ : BufTy).Contents (Elt F) → (⟨S131072x2, .f32⟩ : BufTy).Contents (Elt F)),
    StableHlo.unary main_arg0 main_v12 ((extractStridedSlice S131072x256 ![0, 0] · slices_S131072x512_S131072x256_0_0) : (⟨S131072x512, .f32⟩ : BufTy).Contents (Elt F) → (⟨S131072x256, .f32⟩ : BufTy).Contents (Elt F)),
    StableHlo.unary main_arg0 main_v13 ((extractStridedSlice S131072x256 ![0, 256] · slices_S131072x512_S131072x256_0_256) : (⟨S131072x512, .f32⟩ : BufTy).Contents (Elt F) → (⟨S131072x256, .f32⟩ : BufTy).Contents (Elt F)),
    StableHlo.unary main_arg2 main_v14 ((extractStridedSlice S131072x256 ![0, 0] · slices_S131072x512_S131072x256_0_0) : (⟨S131072x512, .f32⟩ : BufTy).Contents (Elt F) → (⟨S131072x256, .f32⟩ : BufTy).Contents (Elt F)),
    StableHlo.unary main_arg2 main_v15 ((extractStridedSlice S131072x256 ![0, 256] · slices_S131072x512_S131072x256_0_256) : (⟨S131072x512, .f32⟩ : BufTy).Contents (Elt F) → (⟨S131072x256, .f32⟩ : BufTy).Contents (Elt F)),
    StableHlo.binary main_v12 main_v15 main_v16 (addf : (⟨S131072x256, .f32⟩ : BufTy).Contents (Elt F) → (⟨S131072x256, .f32⟩ : BufTy).Contents (Elt F) → (⟨S131072x256, .f32⟩ : BufTy).Contents (Elt F)),
    StableHlo.binary main_v14 main_v13 main_v17 (addf : (⟨S131072x256, .f32⟩ : BufTy).Contents (Elt F) → (⟨S131072x256, .f32⟩ : BufTy).Contents (Elt F) → (⟨S131072x256, .f32⟩ : BufTy).Contents (Elt F)),
    StableHlo.unary main_v16 main_v18 (broadcastInDim S131072x1x256 ![0, 2] bcast_S131072x256_S131072x1x256_0_2 : (⟨S131072x256, .f32⟩ : BufTy).Contents (Elt F) → (⟨S131072x1x256, .f32⟩ : BufTy).Contents (Elt F)),
    StableHlo.unary main_v17 main_v19 (broadcastInDim S131072x1x256 ![0, 2] bcast_S131072x256_S131072x1x256_0_2 : (⟨S131072x256, .f32⟩ : BufTy).Contents (Elt F) → (⟨S131072x1x256, .f32⟩ : BufTy).Contents (Elt F)),
    StableHlo.binary main_v18 main_v19 main_v20 ((fun a b => concatenate S131072x2x256 1 [⟨S131072x1x256, a⟩, ⟨S131072x1x256, b⟩] concatenates_S131072x1x256_S131072x1x256_S131072x2x256_d1) : (⟨S131072x1x256, .f32⟩ : BufTy).Contents (Elt F) → (⟨S131072x1x256, .f32⟩ : BufTy).Contents (Elt F) → (⟨S131072x2x256, .f32⟩ : BufTy).Contents (Elt F)),
    StableHlo.unary main_v10 main_v21 (Host.absf : (⟨S131072x2x256, .f32⟩ : BufTy).Contents (Elt F) → (⟨S131072x2x256, .f32⟩ : BufTy).Contents (Elt F)),
    StableHlo.nullary main_cst (constant S_ .f32 0x358637BD#32),
    StableHlo.TRef.unary (.of main_cst : StableHlo.TRef sig ⟨S_, .f32⟩) main_call0.v0 id,
    StableHlo.TRef.unary main_call0.v0 main_call0.v1 (broadcastInDim S131072x2x256 ![] bcast_S_S131072x2x256),
    StableHlo.TRef.binary main_call0.v1 (.of main_v21 : StableHlo.TRef sig ⟨S131072x2x256, .f32⟩) main_call0.v2 maximumf,
    StableHlo.unary main_v22 main_v23 (Host.log : (⟨S131072x2x256, .f32⟩ : BufTy).Contents (Elt F) → (⟨S131072x2x256, .f32⟩ : BufTy).Contents (Elt F)),
    StableHlo.nullary main_cst_1 (constant S_ .f32 0x00000000#32),
    StableHlo.binary main_v23 main_cst_1 main_v24 ((fun x v => Host.reduceAdd x v reducesTo_S131072x2x256_S131072x2_d2 h_S_) : (⟨S131072x2x256, .f32⟩ : BufTy).Contents (Elt F) → (⟨S_, .f32⟩ : BufTy).Contents (Elt F) → (⟨S131072x2, .f32⟩ : BufTy).Contents (Elt F)),
    StableHlo.unary main_v24 main_v25 (broadcastInDim S131072x2x1 ![0, 1] bcast_S131072x2_S131072x2x1_0_1 : (⟨S131072x2, .f32⟩ : BufTy).Contents (Elt F) → (⟨S131072x2x1, .f32⟩ : BufTy).Contents (Elt F)),
    StableHlo.nullary main_cst_2 (constant S_ .f32 0x43800000#32),
    StableHlo.unary main_cst_2 main_v26 (broadcastInDim S131072x2x1 ![] bcast_S_S131072x2x1 : (⟨S_, .f32⟩ : BufTy).Contents (Elt F) → (⟨S131072x2x1, .f32⟩ : BufTy).Contents (Elt F)),
    StableHlo.binary main_v25 main_v26 main_v27 (Host.divf : (⟨S131072x2x1, .f32⟩ : BufTy).Contents (Elt F) → (⟨S131072x2x1, .f32⟩ : BufTy).Contents (Elt F) → (⟨S131072x2x1, .f32⟩ : BufTy).Contents (Elt F)),
    StableHlo.unary main_v27 main_v28 (Host.exp : (⟨S131072x2x1, .f32⟩ : BufTy).Contents (Elt F) → (⟨S131072x2x1, .f32⟩ : BufTy).Contents (Elt F)),
    StableHlo.nullary main_cst_3 (constant S_ .f32 0x358637BD#32),
    StableHlo.TRef.unary (.of main_cst_3 : StableHlo.TRef sig ⟨S_, .f32⟩) main_call1.v0 id,
    StableHlo.TRef.unary main_call1.v0 main_call1.v1 (broadcastInDim S131072x2x1 ![] bcast_S_S131072x2x1),
    StableHlo.TRef.binary main_call1.v1 (.of main_v28 : StableHlo.TRef sig ⟨S131072x2x1, .f32⟩) main_call1.v2 maximumf,
    StableHlo.unary main_v29 main_v30 (broadcastInDim S131072x2x256 ![0, 1, 2] bcast_S131072x2x1_S131072x2x256_0_1_2 : (⟨S131072x2x1, .f32⟩ : BufTy).Contents (Elt F) → (⟨S131072x2x256, .f32⟩ : BufTy).Contents (Elt F)),
    StableHlo.binary main_v21 main_v30 main_v31 (Host.divf : (⟨S131072x2x256, .f32⟩ : BufTy).Contents (Elt F) → (⟨S131072x2x256, .f32⟩ : BufTy).Contents (Elt F) → (⟨S131072x2x256, .f32⟩ : BufTy).Contents (Elt F)),
    StableHlo.unary main_v11 main_v32 (broadcastInDim S131072x2x1 ![0, 1] bcast_S131072x2_S131072x2x1_0_1 : (⟨S131072x2, .f32⟩ : BufTy).Contents (Elt F) → (⟨S131072x2x1, .f32⟩ : BufTy).Contents (Elt F)),
    StableHlo.TRef.nullary main_call2.cst (constant S_ .f32 0x00000000#32),
    StableHlo.TRef.unary main_call2.cst main_call2.v0 (broadcastInDim S131072x2x1 ![] bcast_S_S131072x2x1),
    StableHlo.TRef.binary (.of main_v32 : StableHlo.TRef sig ⟨S131072x2x1, .f32⟩) main_call2.v0 main_call2.v1 (cmpf .ogt),
    StableHlo.TRef.nullary main_call2.cst_0 (constant S_ .f32 0x00000000#32),
    StableHlo.TRef.unary main_call2.cst_0 main_call2.v2 (broadcastInDim S131072x2x1 ![] bcast_S_S131072x2x1),
    StableHlo.TRef.binary (.of main_v32 : StableHlo.TRef sig ⟨S131072x2x1, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S131072x2x1 ![] bcast_S_S131072x2x1),
    StableHlo.TRef.ternary main_call2.v3 main_call2.call0.v1 (.of main_v32 : StableHlo.TRef sig ⟨S131072x2x1, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S131072x2x1 ![] bcast_S_S131072x2x1),
    StableHlo.TRef.binary main_call2.v6 main_call2.v5 main_call2.v7 mulf,
    StableHlo.TRef.ternary main_call2.v1 (.of main_v32 : StableHlo.TRef sig ⟨S131072x2x1, .f32⟩) main_call2.v7 main_call2.call1.v0 select,
    StableHlo.nullary main_cst_4 (constant S_ .f32 0x3F800000#32),
    StableHlo.unary main_cst_4 main_v34 (broadcastInDim S131072x2x1 ![] bcast_S_S131072x2x1 : (⟨S_, .f32⟩ : BufTy).Contents (Elt F) → (⟨S131072x2x1, .f32⟩ : BufTy).Contents (Elt F)),
    StableHlo.binary main_v34 main_v33 main_v35 (addf : (⟨S131072x2x1, .f32⟩ : BufTy).Contents (Elt F) → (⟨S131072x2x1, .f32⟩ : BufTy).Contents (Elt F) → (⟨S131072x2x1, .f32⟩ : BufTy).Contents (Elt F)),
    StableHlo.unary main_v35 main_v36 (broadcastInDim S131072x2x256 ![0, 1, 2] bcast_S131072x2x1_S131072x2x256_0_1_2 : (⟨S131072x2x1, .f32⟩ : BufTy).Contents (Elt F) → (⟨S131072x2x256, .f32⟩ : BufTy).Contents (Elt F)),
    StableHlo.binary main_v31 main_v36 main_v37 (mulf : (⟨S131072x2x256, .f32⟩ : BufTy).Contents (Elt F) → (⟨S131072x2x256, .f32⟩ : BufTy).Contents (Elt F) → (⟨S131072x2x256, .f32⟩ : BufTy).Contents (Elt F)),
    StableHlo.unary main_v37 main_v38 (Host.tanh : (⟨S131072x2x256, .f32⟩ : BufTy).Contents (Elt F) → (⟨S131072x2x256, .f32⟩ : BufTy).Contents (Elt F)),
    StableHlo.unary main_v8 main_v39 (Host.tanh : (⟨S131072x2x256, .f32⟩ : BufTy).Contents (Elt F) → (⟨S131072x2x256, .f32⟩ : BufTy).Contents (Elt F)),
    StableHlo.unary main_v20 main_v40 (Host.tanh : (⟨S131072x2x256, .f32⟩ : BufTy).Contents (Elt F) → (⟨S131072x2x256, .f32⟩ : BufTy).Contents (Elt F)),
    StableHlo.nullary main_cst_5 (constant S_ .f32 0x3F800000#32),
    StableHlo.unary main_cst_5 main_v41 (broadcastInDim S131072x2x256 ![] bcast_S_S131072x2x256 : (⟨S_, .f32⟩ : BufTy).Contents (Elt F) → (⟨S131072x2x256, .f32⟩ : BufTy).Contents (Elt F)),
    StableHlo.binary main_v38 main_v41 main_v42 (addf : (⟨S131072x2x256, .f32⟩ : BufTy).Contents (Elt F) → (⟨S131072x2x256, .f32⟩ : BufTy).Contents (Elt F) → (⟨S131072x2x256, .f32⟩ : BufTy).Contents (Elt F)),
    StableHlo.binary main_v40 main_v39 main_v43 (subf : (⟨S131072x2x256, .f32⟩ : BufTy).Contents (Elt F) → (⟨S131072x2x256, .f32⟩ : BufTy).Contents (Elt F) → (⟨S131072x2x256, .f32⟩ : BufTy).Contents (Elt F)),
    StableHlo.unary main_v43 main_v44 (Host.absf : (⟨S131072x2x256, .f32⟩ : BufTy).Contents (Elt F) → (⟨S131072x2x256, .f32⟩ : BufTy).Contents (Elt F)),
    StableHlo.nullary main_cst_6 (constant S_ .f32 0x3F000000#32),
    StableHlo.unary main_cst_6 main_v45 (broadcastInDim S131072x2x256 ![] bcast_S_S131072x2x256 : (⟨S_, .f32⟩ : BufTy).Contents (Elt F) → (⟨S131072x2x256, .f32⟩ : BufTy).Contents (Elt F)),
    StableHlo.binary main_v45 main_v38 main_v46 (mulf : (⟨S131072x2x256, .f32⟩ : BufTy).Contents (Elt F) → (⟨S131072x2x256, .f32⟩ : BufTy).Contents (Elt F) → (⟨S131072x2x256, .f32⟩ : BufTy).Contents (Elt F)),
    StableHlo.nullary main_cst_7 (constant S_ .f32 0x3F800000#32),
    StableHlo.unary main_cst_7 main_v47 (broadcastInDim S131072x2x256 ![] bcast_S_S131072x2x256 : (⟨S_, .f32⟩ : BufTy).Contents (Elt F) → (⟨S131072x2x256, .f32⟩ : BufTy).Contents (Elt F)),
    StableHlo.binary main_v47 main_v42 main_v48 (Host.divf : (⟨S131072x2x256, .f32⟩ : BufTy).Contents (Elt F) → (⟨S131072x2x256, .f32⟩ : BufTy).Contents (Elt F) → (⟨S131072x2x256, .f32⟩ : BufTy).Contents (Elt F)),
    StableHlo.binary main_v42 main_v48 main_v49 (subf : (⟨S131072x2x256, .f32⟩ : BufTy).Contents (Elt F) → (⟨S131072x2x256, .f32⟩ : BufTy).Contents (Elt F) → (⟨S131072x2x256, .f32⟩ : BufTy).Contents (Elt F)),
    StableHlo.binary main_v46 main_v49 main_v50 (mulf : (⟨S131072x2x256, .f32⟩ : BufTy).Contents (Elt F) → (⟨S131072x2x256, .f32⟩ : BufTy).Contents (Elt F) → (⟨S131072x2x256, .f32⟩ : BufTy).Contents (Elt F)),
    StableHlo.nullary main_cst_8 (constant S_ .f32 0x40000000#32),
    StableHlo.unary main_cst_8 main_v51 (broadcastInDim S131072x2x256 ![] bcast_S_S131072x2x256 : (⟨S_, .f32⟩ : BufTy).Contents (Elt F) → (⟨S131072x2x256, .f32⟩ : BufTy).Contents (Elt F)),
    StableHlo.binary main_v38 main_v51 main_v52 (Host.divf : (⟨S131072x2x256, .f32⟩ : BufTy).Contents (Elt F) → (⟨S131072x2x256, .f32⟩ : BufTy).Contents (Elt F) → (⟨S131072x2x256, .f32⟩ : BufTy).Contents (Elt F)),
    StableHlo.binary main_v44 main_v52 main_v53 (cmpf .ole : (⟨S131072x2x256, .f32⟩ : BufTy).Contents (Elt F) → (⟨S131072x2x256, .f32⟩ : BufTy).Contents (Elt F) → (⟨S131072x2x256, .i1⟩ : BufTy).Contents (Elt F)),
    StableHlo.binary main_v44 main_v42 main_v54 (Host.divf : (⟨S131072x2x256, .f32⟩ : BufTy).Contents (Elt F) → (⟨S131072x2x256, .f32⟩ : BufTy).Contents (Elt F) → (⟨S131072x2x256, .f32⟩ : BufTy).Contents (Elt F)),
    StableHlo.binary main_v44 main_v42 main_v55 (mulf : (⟨S131072x2x256, .f32⟩ : BufTy).Contents (Elt F) → (⟨S131072x2x256, .f32⟩ : BufTy).Contents (Elt F) → (⟨S131072x2x256, .f32⟩ : BufTy).Contents (Elt F)),
    StableHlo.binary main_v55 main_v50 main_v56 (subf : (⟨S131072x2x256, .f32⟩ : BufTy).Contents (Elt F) → (⟨S131072x2x256, .f32⟩ : BufTy).Contents (Elt F) → (⟨S131072x2x256, .f32⟩ : BufTy).Contents (Elt F)),
    StableHlo.TRef.ternary (.of main_v53 : StableHlo.TRef sig ⟨S131072x2x256, .i1⟩) (.of main_v54 : StableHlo.TRef sig ⟨S131072x2x256, .f32⟩) (.of main_v56 : StableHlo.TRef sig ⟨S131072x2x256, .f32⟩) main_call3.v0 select,
    StableHlo.unary main_v57 main_v58 (Host.absf : (⟨S131072x2x256, .f32⟩ : BufTy).Contents (Elt F) → (⟨S131072x2x256, .f32⟩ : BufTy).Contents (Elt F)),
    StableHlo.binary main_v58 main_v58 main_v59 (mulf : (⟨S131072x2x256, .f32⟩ : BufTy).Contents (Elt F) → (⟨S131072x2x256, .f32⟩ : BufTy).Contents (Elt F) → (⟨S131072x2x256, .f32⟩ : BufTy).Contents (Elt F)),
    StableHlo.nullary main_cst_9 (constant S_ .f32 0x00000000#32),
    StableHlo.binary main_v59 main_cst_9 main_v60 ((fun x v => Host.reduceAdd x v reducesTo_S131072x2x256_S131072x2_d2 h_S_) : (⟨S131072x2x256, .f32⟩ : BufTy).Contents (Elt F) → (⟨S_, .f32⟩ : BufTy).Contents (Elt F) → (⟨S131072x2, .f32⟩ : BufTy).Contents (Elt F)),
    StableHlo.nullary main_cst_10 (constant S_ .f32 0x3F000000#32),
    StableHlo.unary main_cst_10 main_v61 (broadcastInDim S131072x2 ![] bcast_S_S131072x2 : (⟨S_, .f32⟩ : BufTy).Contents (Elt F) → (⟨S131072x2, .f32⟩ : BufTy).Contents (Elt F)),
    StableHlo.binary main_v60 main_v61 main_v62 (Host.powf : (⟨S131072x2, .f32⟩ : BufTy).Contents (Elt F) → (⟨S131072x2, .f32⟩ : BufTy).Contents (Elt F) → (⟨S131072x2, .f32⟩ : BufTy).Contents (Elt F)),
    StableHlo.nullary main_cst_11 (constant S_ .f32 0x00000000#32),
    StableHlo.binary main_v62 main_cst_11 main_v63 ((fun x v => Host.reduceAdd x v reducesTo_S131072x2_S131072_d1 h_S_) : (⟨S131072x2, .f32⟩ : BufTy).Contents (Elt F) → (⟨S_, .f32⟩ : BufTy).Contents (Elt F) → (⟨S131072, .f32⟩ : BufTy).Contents (Elt F)),
    StableHlo.unary main_v63 main_v64 (Host.negf : (⟨S131072, .f32⟩ : BufTy).Contents (Elt F) → (⟨S131072, .f32⟩ : BufTy).Contents (Elt F)) ]

set_option maxRecDepth 8192 in
/-- Every operation of the line touches TensorCore references only. -/
theorem ops_sub : (ops : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.binary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.binary_bufs_sub .., StableHlo.ternary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub ..⟩

/-- The references the line writes, in order. -/
abbrev outs : List (Ref sig .tc) :=
  [main_c, main_v0, main_v1, main_c_0, main_v2, main_v3, main_v4, main_v5, main_v6, main_v7, main_v8, main_v9, main_v10, main_v11, main_v12, main_v13, main_v14, main_v15, main_v16, main_v17, main_v18, main_v19, main_v20, main_v21, main_cst, main_call0_v0, main_call0_v1, main_v22, main_v23, main_cst_1, main_v24, main_v25, main_cst_2, main_v26, main_v27, main_v28, main_cst_3, main_call1_v0, main_call1_v1, main_v29, main_v30, main_v31, main_v32, main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v33, main_cst_4, main_v34, main_v35, main_v36, main_v37, main_v38, main_v39, main_v40, main_cst_5, main_v41, main_v42, main_v43, main_v44, main_cst_6, main_v45, main_v46, main_cst_7, main_v47, main_v48, main_v49, main_v50, main_cst_8, main_v51, main_v52, main_v53, main_v54, main_v55, main_v56, main_v57, main_v58, main_v59, main_cst_9, main_v60, main_cst_10, main_v61, main_v62, main_cst_11, main_v63, main_v64]

set_option maxRecDepth 8192 in
/-- Operation by operation, the line writes exactly those. -/
theorem ops_writes : WritesList (ops (F := F)) outs :=
  .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .cons rfl <| .nil

set_option maxRecDepth 8192 in
set_option maxHeartbeats 1000000 in
/-- The two Euclidean norms of the distances, added and negated. -/
theorem stage4 (V : Valuation τ sig (Elt F)) (t_main_v57 : FVec F S131072x2x256 .f32)
    (e_main_v57 : StableHlo.after ops V (main_v57 : DevRef τ sig) = t_main_v57) :
    StableHlo.after ops V (main_v64 : DevRef τ sig) = refTerm_part4 (F := F) t_main_v57 := by
  have hw := ops_writes (F := F)
  delta refTerm_part4
  beta_reduce
  extract_lets -merge t_main_v58 t_main_v59 t_main_cst_9 t_main_v60 t_main_cst_10 t_main_v61 t_main_v62 t_main_cst_11 t_main_v63 t_main_v64
  have e_main_v58 : StableHlo.after ops V (main_v58 : DevRef τ sig) = t_main_v58 := (step_unary hw 87 rfl (by decide) (by decide) V).trans (by rw [e_main_v57] <;> rfl)
  have e_main_v59 : StableHlo.after ops V (main_v59 : DevRef τ sig) = t_main_v59 := (step_binary hw 88 rfl (by decide) (by decide) (by decide) V).trans (by rw [e_main_v58] <;> rfl)
  have e_main_cst_9 : StableHlo.after ops V (main_cst_9 : DevRef τ sig) = t_main_cst_9 := step_nullary hw 89 rfl (by decide) V
  have e_main_v60 : StableHlo.after ops V (main_v60 : DevRef τ sig) = t_main_v60 := (step_binary hw 90 rfl (by decide) (by decide) (by decide) V).trans (by rw [e_main_v59, e_main_cst_9] <;> rfl)
  have e_main_cst_10 : StableHlo.after ops V (main_cst_10 : DevRef τ sig) = t_main_cst_10 := step_nullary hw 91 rfl (by decide) V
  have e_main_v61 : StableHlo.after ops V (main_v61 : DevRef τ sig) = t_main_v61 := (step_unary hw 92 rfl (by decide) (by decide) V).trans (by rw [e_main_cst_10] <;> rfl)
  have e_main_v62 : StableHlo.after ops V (main_v62 : DevRef τ sig) = t_main_v62 := (step_binary hw 93 rfl (by decide) (by decide) (by decide) V).trans (by rw [e_main_v60, e_main_v61] <;> rfl)
  have e_main_cst_11 : StableHlo.after ops V (main_cst_11 : DevRef τ sig) = t_main_cst_11 := step_nullary hw 94 rfl (by decide) V
  have e_main_v63 : StableHlo.after ops V (main_v63 : DevRef τ sig) = t_main_v63 := (step_binary hw 95 rfl (by decide) (by decide) (by decide) V).trans (by rw [e_main_v62, e_main_cst_11] <;> rfl)
  have e_main_v64 : StableHlo.after ops V (main_v64 : DevRef τ sig) = t_main_v64 := (step_unary hw 96 rfl (by decide) (by decide) V).trans (by rw [e_main_v63] <;> rfl)
  exact e_main_v64

set_option maxRecDepth 8192 in
set_option maxHeartbeats 1000000 in
/-- The distances from the squashed widths, centres and points; then the last stage. -/
theorem stage3 (V : Valuation τ sig (Elt F)) (t_main_v38 : FVec F S131072x2x256 .f32) (t_main_v39 : FVec F S131072x2x256 .f32) (t_main_v40 : FVec F S131072x2x256 .f32)
    (e_main_v38 : StableHlo.after ops V (main_v38 : DevRef τ sig) = t_main_v38)
    (e_main_v39 : StableHlo.after ops V (main_v39 : DevRef τ sig) = t_main_v39)
    (e_main_v40 : StableHlo.after ops V (main_v40 : DevRef τ sig) = t_main_v40) :
    StableHlo.after ops V (main_v64 : DevRef τ sig) = refTerm_part3 (F := F) t_main_v38 t_main_v39 t_main_v40 := by
  have hw := ops_writes (F := F)
  delta refTerm_part3
  beta_reduce
  extract_lets -merge t_main_cst_5 t_main_v41 t_main_v42 t_main_v43 t_main_v44 t_main_cst_6 t_main_v45 t_main_v46 t_main_cst_7 t_main_v47 t_main_v48 t_main_v49 t_main_v50 t_main_cst_8 t_main_v51 t_main_v52 t_main_v53 t_main_v54 t_main_v55 t_main_v56 t_main_v57
  have e_main_cst_5 : StableHlo.after ops V (main_cst_5 : DevRef τ sig) = t_main_cst_5 := step_nullary hw 66 rfl (by decide) V
  have e_main_v41 : StableHlo.after ops V (main_v41 : DevRef τ sig) = t_main_v41 := (step_unary hw 67 rfl (by decide) (by decide) V).trans (by rw [e_main_cst_5] <;> rfl)
  have e_main_v42 : StableHlo.after ops V (main_v42 : DevRef τ sig) = t_main_v42 := (step_binary hw 68 rfl (by decide) (by decide) (by decide) V).trans (by rw [e_main_v38, e_main_v41] <;> rfl)
  have e_main_v43 : StableHlo.after ops V (main_v43 : DevRef τ sig) = t_main_v43 := (step_binary hw 69 rfl (by decide) (by decide) (by decide) V).trans (by rw [e_main_v40, e_main_v39] <;> rfl)
  have e_main_v44 : StableHlo.after ops V (main_v44 : DevRef τ sig) = t_main_v44 := (step_unary hw 70 rfl (by decide) (by decide) V).trans (by rw [e_main_v43] <;> rfl)
  have e_main_cst_6 : StableHlo.after ops V (main_cst_6 : DevRef τ sig) = t_main_cst_6 := step_nullary hw 71 rfl (by decide) V
  have e_main_v45 : StableHlo.after ops V (main_v45 : DevRef τ sig) = t_main_v45 := (step_unary hw 72 rfl (by decide) (by decide) V).trans (by rw [e_main_cst_6] <;> rfl)
  have e_main_v46 : StableHlo.after ops V (main_v46 : DevRef τ sig) = t_main_v46 := (step_binary hw 73 rfl (by decide) (by decide) (by decide) V).trans (by rw [e_main_v45, e_main_v38] <;> rfl)
  have e_main_cst_7 : StableHlo.after ops V (main_cst_7 : DevRef τ sig) = t_main_cst_7 := step_nullary hw 74 rfl (by decide) V
  have e_main_v47 : StableHlo.after ops V (main_v47 : DevRef τ sig) = t_main_v47 := (step_unary hw 75 rfl (by decide) (by decide) V).trans (by rw [e_main_cst_7] <;> rfl)
  have e_main_v48 : StableHlo.after ops V (main_v48 : DevRef τ sig) = t_main_v48 := (step_binary hw 76 rfl (by decide) (by decide) (by decide) V).trans (by rw [e_main_v47, e_main_v42] <;> rfl)
  have e_main_v49 : StableHlo.after ops V (main_v49 : DevRef τ sig) = t_main_v49 := (step_binary hw 77 rfl (by decide) (by decide) (by decide) V).trans (by rw [e_main_v42, e_main_v48] <;> rfl)
  have e_main_v50 : StableHlo.after ops V (main_v50 : DevRef τ sig) = t_main_v50 := (step_binary hw 78 rfl (by decide) (by decide) (by decide) V).trans (by rw [e_main_v46, e_main_v49] <;> rfl)
  have e_main_cst_8 : StableHlo.after ops V (main_cst_8 : DevRef τ sig) = t_main_cst_8 := step_nullary hw 79 rfl (by decide) V
  have e_main_v51 : StableHlo.after ops V (main_v51 : DevRef τ sig) = t_main_v51 := (step_unary hw 80 rfl (by decide) (by decide) V).trans (by rw [e_main_cst_8] <;> rfl)
  have e_main_v52 : StableHlo.after ops V (main_v52 : DevRef τ sig) = t_main_v52 := (step_binary hw 81 rfl (by decide) (by decide) (by decide) V).trans (by rw [e_main_v38, e_main_v51] <;> rfl)
  have e_main_v53 : StableHlo.after ops V (main_v53 : DevRef τ sig) = t_main_v53 := (step_binary hw 82 rfl (by decide) (by decide) (by decide) V).trans (by rw [e_main_v44, e_main_v52] <;> rfl)
  have e_main_v54 : StableHlo.after ops V (main_v54 : DevRef τ sig) = t_main_v54 := (step_binary hw 83 rfl (by decide) (by decide) (by decide) V).trans (by rw [e_main_v44, e_main_v42] <;> rfl)
  have e_main_v55 : StableHlo.after ops V (main_v55 : DevRef τ sig) = t_main_v55 := (step_binary hw 84 rfl (by decide) (by decide) (by decide) V).trans (by rw [e_main_v44, e_main_v42] <;> rfl)
  have e_main_v56 : StableHlo.after ops V (main_v56 : DevRef τ sig) = t_main_v56 := (step_binary hw 85 rfl (by decide) (by decide) (by decide) V).trans (by rw [e_main_v55, e_main_v50] <;> rfl)
  have e_main_v57 : StableHlo.after ops V (main_v57 : DevRef τ sig) = t_main_v57 := (step_ternary hw 86 rfl (by decide) (by decide) (by decide) (by decide) V).trans (by rw [e_main_v53, e_main_v54, e_main_v56] <;> rfl)
  exact stage4 V _ e_main_v57

set_option maxRecDepth 8192 in
set_option maxHeartbeats 1000000 in
/-- One plus elu of the box size, the scaled widths, the three squashings; then the later stages. -/
theorem stage2 (V : Valuation τ sig (Elt F)) (t_main_v8 : FVec F S131072x2x256 .f32) (t_main_v20 : FVec F S131072x2x256 .f32) (t_main_v31 : FVec F S131072x2x256 .f32) (t_main_v32 : FVec F S131072x2x1 .f32)
    (e_main_v8 : StableHlo.after ops V (main_v8 : DevRef τ sig) = t_main_v8)
    (e_main_v20 : StableHlo.after ops V (main_v20 : DevRef τ sig) = t_main_v20)
    (e_main_v31 : StableHlo.after ops V (main_v31 : DevRef τ sig) = t_main_v31)
    (e_main_v32 : StableHlo.after ops V (main_v32 : DevRef τ sig) = t_main_v32) :
    StableHlo.after ops V (main_v64 : DevRef τ sig) = refTerm_part2 (F := F) t_main_v8 t_main_v20 t_main_v31 t_main_v32 := by
  have hw := ops_writes (F := F)
  delta refTerm_part2
  beta_reduce
  extract_lets -merge t_main_call2_cst t_main_call2_v0 t_main_call2_v1 t_main_call2_cst_0 t_main_call2_v2 t_main_call2_v3 t_main_call2_cst_1 t_main_call2_call0_v0 t_main_call2_call0_v1 t_main_call2_v4 t_main_call2_v5 t_main_call2_cst_2 t_main_call2_v6 t_main_call2_v7 t_main_v33 t_main_cst_4 t_main_v34 t_main_v35 t_main_v36 t_main_v37 t_main_v38 t_main_v39 t_main_v40
  have e_main_call2_cst : StableHlo.after ops V (main_call2_cst : DevRef τ sig) = t_main_call2_cst := step_nullary hw 43 rfl (by decide) V
  have e_main_call2_v0 : StableHlo.after ops V (main_call2_v0 : DevRef τ sig) = t_main_call2_v0 := (step_unary hw 44 rfl (by decide) (by decide) V).trans (by rw [e_main_call2_cst] <;> rfl)
  have e_main_call2_v1 : StableHlo.after ops V (main_call2_v1 : DevRef τ sig) = t_main_call2_v1 := (step_binary hw 45 rfl (by decide) (by decide) (by decide) V).trans (by rw [e_main_v32, e_main_call2_v0] <;> rfl)
  have e_main_call2_cst_0 : StableHlo.after ops V (main_call2_cst_0 : DevRef τ sig) = t_main_call2_cst_0 := step_nullary hw 46 rfl (by decide) V
  have e_main_call2_v2 : StableHlo.after ops V (main_call2_v2 : DevRef τ sig) = t_main_call2_v2 := (step_unary hw 47 rfl (by decide) (by decide) V).trans (by rw [e_main_call2_cst_0] <;> rfl)
  have e_main_call2_v3 : StableHlo.after ops V (main_call2_v3 : DevRef τ sig) = t_main_call2_v3 := (step_binary hw 48 rfl (by decide) (by decide) (by decide) V).trans (by rw [e_main_v32, e_main_call2_v2] <;> rfl)
  have e_main_call2_cst_1 : StableHlo.after ops V (main_call2_cst_1 : DevRef τ sig) = t_main_call2_cst_1 := step_nullary hw 49 rfl (by decide) V
  have e_main_call2_call0_v0 : StableHlo.after ops V (main_call2_call0_v0 : DevRef τ sig) = t_main_call2_call0_v0 := (step_unary hw 50 rfl (by decide) (by decide) V).trans (by rw [e_main_call2_cst_1] <;> rfl)
  have e_main_call2_call0_v1 : StableHlo.after ops V (main_call2_call0_v1 : DevRef τ sig) = t_main_call2_call0_v1 := (step_unary hw 51 rfl (by decide) (by decide) V).trans (by rw [e_main_call2_call0_v0] <;> rfl)
  have e_main_call2_v4 : StableHlo.after ops V (main_call2_v4 : DevRef τ sig) = t_main_call2_v4 := (step_ternary hw 52 rfl (by decide) (by decide) (by decide) (by decide) V).trans (by rw [e_main_call2_v3, e_main_call2_call0_v1, e_main_v32] <;> rfl)
  have e_main_call2_v5 : StableHlo.after ops V (main_call2_v5 : DevRef τ sig) = t_main_call2_v5 := (step_unary hw 53 rfl (by decide) (by decide) V).trans (by rw [e_main_call2_v4] <;> rfl)
  have e_main_call2_cst_2 : StableHlo.after ops V (main_call2_cst_2 : DevRef τ sig) = t_main_call2_cst_2 := step_nullary hw 54 rfl (by decide) V
  have e_main_call2_v6 : StableHlo.after ops V (main_call2_v6 : DevRef τ sig) = t_main_call2_v6 := (step_unary hw 55 rfl (by decide) (by decide) V).trans (by rw [e_main_call2_cst_2] <;> rfl)
  have e_main_call2_v7 : StableHlo.after ops V (main_call2_v7 : DevRef τ sig) = t_main_call2_v7 := (step_binary hw 56 rfl (by decide) (by decide) (by decide) V).trans (by rw [e_main_call2_v6, e_main_call2_v5] <;> rfl)
  have e_main_v33 : StableHlo.after ops V (main_v33 : DevRef τ sig) = t_main_v33 := (step_ternary hw 57 rfl (by decide) (by decide) (by decide) (by decide) V).trans (by rw [e_main_call2_v1, e_main_v32, e_main_call2_v7] <;> rfl)
  have e_main_cst_4 : StableHlo.after ops V (main_cst_4 : DevRef τ sig) = t_main_cst_4 := step_nullary hw 58 rfl (by decide) V
  have e_main_v34 : StableHlo.after ops V (main_v34 : DevRef τ sig) = t_main_v34 := (step_unary hw 59 rfl (by decide) (by decide) V).trans (by rw [e_main_cst_4] <;> rfl)
  have e_main_v35 : StableHlo.after ops V (main_v35 : DevRef τ sig) = t_main_v35 := (step_binary hw 60 rfl (by decide) (by decide) (by decide) V).trans (by rw [e_main_v34, e_main_v33] <;> rfl)
  have e_main_v36 : StableHlo.after ops V (main_v36 : DevRef τ sig) = t_main_v36 := (step_unary hw 61 rfl (by decide) (by decide) V).trans (by rw [e_main_v35] <;> rfl)
  have e_main_v37 : StableHlo.after ops V (main_v37 : DevRef τ sig) = t_main_v37 := (step_binary hw 62 rfl (by decide) (by decide) (by decide) V).trans (by rw [e_main_v31, e_main_v36] <;> rfl)
  have e_main_v38 : StableHlo.after ops V (main_v38 : DevRef τ sig) = t_main_v38 := (step_unary hw 63 rfl (by decide) (by decide) V).trans (by rw [e_main_v37] <;> rfl)
  have e_main_v39 : StableHlo.after ops V (main_v39 : DevRef τ sig) = t_main_v39 := (step_unary hw 64 rfl (by decide) (by decide) V).trans (by rw [e_main_v8] <;> rfl)
  have e_main_v40 : StableHlo.after ops V (main_v40 : DevRef τ sig) = t_main_v40 := (step_unary hw 65 rfl (by decide) (by decide) V).trans (by rw [e_main_v20] <;> rfl)
  exact stage3 V _ _ _ e_main_v38 e_main_v39 e_main_v40

set_option maxRecDepth 8192 in
set_option maxHeartbeats 1000000 in
/-- The widths over their softened geometric mean, and the box size broadcast; then the later stages. -/
theorem stage1 (V : Valuation τ sig (Elt F)) (t_main_v8 : FVec F S131072x2x256 .f32) (t_main_v10 : FVec F S131072x2x256 .f32) (t_main_v11 : FVec F S131072x2 .f32) (t_main_v20 : FVec F S131072x2x256 .f32)
    (e_main_v8 : StableHlo.after ops V (main_v8 : DevRef τ sig) = t_main_v8)
    (e_main_v10 : StableHlo.after ops V (main_v10 : DevRef τ sig) = t_main_v10)
    (e_main_v11 : StableHlo.after ops V (main_v11 : DevRef τ sig) = t_main_v11)
    (e_main_v20 : StableHlo.after ops V (main_v20 : DevRef τ sig) = t_main_v20) :
    StableHlo.after ops V (main_v64 : DevRef τ sig) = refTerm_part1 (F := F) t_main_v8 t_main_v10 t_main_v11 t_main_v20 := by
  have hw := ops_writes (F := F)
  delta refTerm_part1
  beta_reduce
  extract_lets -merge t_main_v21 t_main_cst t_main_call0_v0 t_main_call0_v1 t_main_v22 t_main_v23 t_main_cst_1 t_main_v24 t_main_v25 t_main_cst_2 t_main_v26 t_main_v27 t_main_v28 t_main_cst_3 t_main_call1_v0 t_main_call1_v1 t_main_v29 t_main_v30 t_main_v31 t_main_v32
  have e_main_v21 : StableHlo.after ops V (main_v21 : DevRef τ sig) = t_main_v21 := (step_unary hw 23 rfl (by decide) (by decide) V).trans (by rw [e_main_v10] <;> rfl)
  have e_main_cst : StableHlo.after ops V (main_cst : DevRef τ sig) = t_main_cst := step_nullary hw 24 rfl (by decide) V
  have e_main_call0_v0 : StableHlo.after ops V (main_call0_v0 : DevRef τ sig) = t_main_call0_v0 := (step_unary hw 25 rfl (by decide) (by decide) V).trans (by rw [e_main_cst] <;> rfl)
  have e_main_call0_v1 : StableHlo.after ops V (main_call0_v1 : DevRef τ sig) = t_main_call0_v1 := (step_unary hw 26 rfl (by decide) (by decide) V).trans (by rw [e_main_call0_v0] <;> rfl)
  have e_main_v22 : StableHlo.after ops V (main_v22 : DevRef τ sig) = t_main_v22 := (step_binary hw 27 rfl (by decide) (by decide) (by decide) V).trans (by rw [e_main_call0_v1, e_main_v21] <;> rfl)
  have e_main_v23 : StableHlo.after ops V (main_v23 : DevRef τ sig) = t_main_v23 := (step_unary hw 28 rfl (by decide) (by decide) V).trans (by rw [e_main_v22] <;> rfl)
  have e_main_cst_1 : StableHlo.after ops V (main_cst_1 : DevRef τ sig) = t_main_cst_1 := step_nullary hw 29 rfl (by decide) V
  have e_main_v24 : StableHlo.after ops V (main_v24 : DevRef τ sig) = t_main_v24 := (step_binary hw 30 rfl (by decide) (by decide) (by decide) V).trans (by rw [e_main_v23, e_main_cst_1] <;> rfl)
  have e_main_v25 : StableHlo.after ops V (main_v25 : DevRef τ sig) = t_main_v25 := (step_unary hw 31 rfl (by decide) (by decide) V).trans (by rw [e_main_v24] <;> rfl)
  have e_main_cst_2 : StableHlo.after ops V (main_cst_2 : DevRef τ sig) = t_main_cst_2 := step_nullary hw 32 rfl (by decide) V
  have e_main_v26 : StableHlo.after ops V (main_v26 : DevRef τ sig) = t_main_v26 := (step_unary hw 33 rfl (by decide) (by decide) V).trans (by rw [e_main_cst_2] <;> rfl)
  have e_main_v27 : StableHlo.after ops V (main_v27 : DevRef τ sig) = t_main_v27 := (step_binary hw 34 rfl (by decide) (by decide) (by decide) V).trans (by rw [e_main_v25, e_main_v26] <;> rfl)
  have e_main_v28 : StableHlo.after ops V (main_v28 : DevRef τ sig) = t_main_v28 := (step_unary hw 35 rfl (by decide) (by decide) V).trans (by rw [e_main_v27] <;> rfl)
  have e_main_cst_3 : StableHlo.after ops V (main_cst_3 : DevRef τ sig) = t_main_cst_3 := step_nullary hw 36 rfl (by decide) V
  have e_main_call1_v0 : StableHlo.after ops V (main_call1_v0 : DevRef τ sig) = t_main_call1_v0 := (step_unary hw 37 rfl (by decide) (by decide) V).trans (by rw [e_main_cst_3] <;> rfl)
  have e_main_call1_v1 : StableHlo.after ops V (main_call1_v1 : DevRef τ sig) = t_main_call1_v1 := (step_unary hw 38 rfl (by decide) (by decide) V).trans (by rw [e_main_call1_v0] <;> rfl)
  have e_main_v29 : StableHlo.after ops V (main_v29 : DevRef τ sig) = t_main_v29 := (step_binary hw 39 rfl (by decide) (by decide) (by decide) V).trans (by rw [e_main_call1_v1, e_main_v28] <;> rfl)
  have e_main_v30 : StableHlo.after ops V (main_v30 : DevRef τ sig) = t_main_v30 := (step_unary hw 40 rfl (by decide) (by decide) V).trans (by rw [e_main_v29] <;> rfl)
  have e_main_v31 : StableHlo.after ops V (main_v31 : DevRef τ sig) = t_main_v31 := (step_binary hw 41 rfl (by decide) (by decide) (by decide) V).trans (by rw [e_main_v21, e_main_v30] <;> rfl)
  have e_main_v32 : StableHlo.after ops V (main_v32 : DevRef τ sig) = t_main_v32 := (step_unary hw 42 rfl (by decide) (by decide) V).trans (by rw [e_main_v11] <;> rfl)
  exact stage2 V _ _ _ _ e_main_v8 e_main_v20 e_main_v31 e_main_v32

set_option maxRecDepth 8192 in
set_option maxHeartbeats 1000000 in
/-- The result buffer at the end holds the composed term of the arguments' contents: each buffer in turn holds its
    operation's function of what its operands hold. First the ids wrapped and gathered, the table's rows cut and the
    two bumped points stacked; then the later stages. -/
theorem result_eq (V : Valuation τ sig (Elt F)) :
    StableHlo.after ops V (main_v64 : DevRef τ sig)
      = refTerm (F := F) (V (main_arg0 : DevRef τ sig)) (V (main_arg1 : DevRef τ sig)) (V (main_arg2 : DevRef τ sig))
          (V (main_arg3 : DevRef τ sig)) := by
  have hw := ops_writes (F := F)
  have e_main_arg0 : StableHlo.after ops V (main_arg0 : DevRef τ sig) = V (main_arg0 : DevRef τ sig) := after_keep hw V (by decide)
  have e_main_arg1 : StableHlo.after ops V (main_arg1 : DevRef τ sig) = V (main_arg1 : DevRef τ sig) := after_keep hw V (by decide)
  have e_main_arg2 : StableHlo.after ops V (main_arg2 : DevRef τ sig) = V (main_arg2 : DevRef τ sig) := after_keep hw V (by decide)
  have e_main_arg3 : StableHlo.after ops V (main_arg3 : DevRef τ sig) = V (main_arg3 : DevRef τ sig) := after_keep hw V (by decide)
  delta refTerm
  beta_reduce
  extract_lets -merge t_main_c t_main_v0 t_main_v1 t_main_c_0 t_main_v2 t_main_v3 t_main_v4 t_main_v5 t_main_v6 t_main_v7 t_main_v8 t_main_v9 t_main_v10 t_main_v11 t_main_v12 t_main_v13 t_main_v14 t_main_v15 t_main_v16 t_main_v17 t_main_v18 t_main_v19 t_main_v20
  have e_main_c : StableHlo.after ops V (main_c : DevRef τ sig) = t_main_c := step_nullary hw 0 rfl (by decide) V
  have e_main_v0 : StableHlo.after ops V (main_v0 : DevRef τ sig) = t_main_v0 := (step_unary hw 1 rfl (by decide) (by decide) V).trans (by rw [e_main_c] <;> rfl)
  have e_main_v1 : StableHlo.after ops V (main_v1 : DevRef τ sig) = t_main_v1 := (step_binary hw 2 rfl (by decide) (by decide) (by decide) V).trans (by rw [e_main_arg1, e_main_v0] <;> rfl)
  have e_main_c_0 : StableHlo.after ops V (main_c_0 : DevRef τ sig) = t_main_c_0 := step_nullary hw 3 rfl (by decide) V
  have e_main_v2 : StableHlo.after ops V (main_v2 : DevRef τ sig) = t_main_v2 := (step_unary hw 4 rfl (by decide) (by decide) V).trans (by rw [e_main_c_0] <;> rfl)
  have e_main_v3 : StableHlo.after ops V (main_v3 : DevRef τ sig) = t_main_v3 := (step_binary hw 5 rfl (by decide) (by decide) (by decide) V).trans (by rw [e_main_arg1, e_main_v2] <;> rfl)
  have e_main_v4 : StableHlo.after ops V (main_v4 : DevRef τ sig) = t_main_v4 := (step_ternary hw 6 rfl (by decide) (by decide) (by decide) (by decide) V).trans (by rw [e_main_v1, e_main_v3, e_main_arg1] <;> rfl)
  have e_main_v5 : StableHlo.after ops V (main_v5 : DevRef τ sig) = t_main_v5 := (step_unary hw 7 rfl (by decide) (by decide) V).trans (by rw [e_main_v4] <;> rfl)
  have e_main_v6 : StableHlo.after ops V (main_v6 : DevRef τ sig) = t_main_v6 := (step_binary hw 8 rfl (by decide) (by decide) (by decide) V).trans (by rw [e_main_arg3, e_main_v5] <;> rfl)
  have e_main_v7 : StableHlo.after ops V (main_v7 : DevRef τ sig) = t_main_v7 := (step_unary hw 9 rfl (by decide) (by decide) V).trans (by rw [e_main_v6] <;> rfl)
  have e_main_v8 : StableHlo.after ops V (main_v8 : DevRef τ sig) = t_main_v8 := (step_reshape hw 10 rfl (by decide) (by decide) V).trans (by rw [e_main_v7] <;> rfl)
  have e_main_v9 : StableHlo.after ops V (main_v9 : DevRef τ sig) = t_main_v9 := (step_unary hw 11 rfl (by decide) (by decide) V).trans (by rw [e_main_v6] <;> rfl)
  have e_main_v10 : StableHlo.after ops V (main_v10 : DevRef τ sig) = t_main_v10 := (step_reshape hw 12 rfl (by decide) (by decide) V).trans (by rw [e_main_v9] <;> rfl)
  have e_main_v11 : StableHlo.after ops V (main_v11 : DevRef τ sig) = t_main_v11 := (step_unary hw 13 rfl (by decide) (by decide) V).trans (by rw [e_main_v6] <;> rfl)
  have e_main_v12 : StableHlo.after ops V (main_v12 : DevRef τ sig) = t_main_v12 := (step_unary hw 14 rfl (by decide) (by decide) V).trans (by rw [e_main_arg0] <;> rfl)
  have e_main_v13 : StableHlo.after ops V (main_v13 : DevRef τ sig) = t_main_v13 := (step_unary hw 15 rfl (by decide) (by decide) V).trans (by rw [e_main_arg0] <;> rfl)
  have e_main_v14 : StableHlo.after ops V (main_v14 : DevRef τ sig) = t_main_v14 := (step_unary hw 16 rfl (by decide) (by decide) V).trans (by rw [e_main_arg2] <;> rfl)
  have e_main_v15 : StableHlo.after ops V (main_v15 : DevRef τ sig) = t_main_v15 := (step_unary hw 17 rfl (by decide) (by decide) V).trans (by rw [e_main_arg2] <;> rfl)
  have e_main_v16 : StableHlo.after ops V (main_v16 : DevRef τ sig) = t_main_v16 := (step_binary hw 18 rfl (by decide) (by decide) (by decide) V).trans (by rw [e_main_v12, e_main_v15] <;> rfl)
  have e_main_v17 : StableHlo.after ops V (main_v17 : DevRef τ sig) = t_main_v17 := (step_binary hw 19 rfl (by decide) (by decide) (by decide) V).trans (by rw [e_main_v14, e_main_v13] <;> rfl)
  have e_main_v18 : StableHlo.after ops V (main_v18 : DevRef τ sig) = t_main_v18 := (step_unary hw 20 rfl (by decide) (by decide) V).trans (by rw [e_main_v16] <;> rfl)
  have e_main_v19 : StableHlo.after ops V (main_v19 : DevRef τ sig) = t_main_v19 := (step_unary hw 21 rfl (by decide) (by decide) V).trans (by rw [e_main_v17] <;> rfl)
  have e_main_v20 : StableHlo.after ops V (main_v20 : DevRef τ sig) = t_main_v20 := (step_binary hw 22 rfl (by decide) (by decide) (by decide) V).trans (by rw [e_main_v18, e_main_v19] <;> rfl)
  exact stage1 V _ _ _ _ e_main_v8 e_main_v10 e_main_v11 e_main_v20

end Cert.ReferenceIdeal.Hand

end
-- ==== Proof.ReferenceIdealRun.lean ====
/-
  The reference's run: @main is a straight line of host operations, so every execution terminates, writes each result
  buffer once, leaves the four argument arrays as they were, and ends with the result buffer at the composed term.
-/
import proofs.«426055_j19370302505588_3_alg».proof.Proof.ReferenceIdealRunTable
import Idealize.ShloMosaic.Lib.StableHlo.Run

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

set_option maxRecDepth 8192 in
set_option maxHeartbeats 4000000 in
/-- @main is the line `ops`: the two windows and the called bodies unfold to the same chain of steps. -/
theorem main_eq (c : Dev nD) : main (F := F) c = StableHlo.seq ops := rfl

theorem scopedRefs_eq : (Finset.univ.filter fun b : Ref sig .tc => b.isScoped) = ∅ := by decide
theorem scopedSems_eq : (Finset.univ.filter fun sm : SemLoc sig => sm.isScoped .tc) = ∅ := by decide

/-- Every weakly fair execution of @main terminates with each buffer at the line's fold over the launch contents. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b)
        = StableHlo.after ops (StableHlo.launchContents m c) (b : DevRef τ sig) :=
  StableHlo.run_seq scopedRefs_eq scopedSems_eq defs main (fun _ => ops) main_eq (fun _ => ops_sub) m ρ

/-- THE RUN of the reference. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v64)
        = refTerm (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v64).trans (result_eq (StableHlo.launchContents m c)),
      (h c main_arg0).trans (after_keep ops_writes _ (by decide)),
      (h c main_arg1).trans (after_keep ops_writes _ (by decide)),
      (h c main_arg2).trans (after_keep ops_writes _ (by decide)),
      (h c main_arg3).trans (after_keep ops_writes _ (by decide))⟩)
    (run_after m ρ)

end Cert.ReferenceIdeal.Hand

end
-- ==== Proof.SpecMath.lean ====
/-
  Arithmetic of the score on the extended reals: which of its terms are real numbers, and the identities between the
  two spellings of one coordinate's distance and of the Euclidean norm.
-/
import proofs.«426055_j19370302505588_3_alg».proof.Proof.Spec
import Idealize.ShloMosaic.PureOps.Ideal
import Mathlib.Analysis.SpecialFunctions.Pow.Real
import Mathlib.Analysis.Complex.Trigonometric
import Mathlib.Data.EReal.Operations
import Mathlib.Data.EReal.Inv

noncomputable section

open scoped BigOperators

namespace Cert.SpecMath

open Idealize.ShloMosaic Cert.Spec

/-- An extended real that is a real number. -/
def IsReal (x : EReal) : Prop := ∃ r : ℝ, x = (r : EReal)

/-! ### The literals -/

/-- The pattern 0x40000000 denotes 2. -/
theorem two_bits : Ideal.ofBits .f32 0x40000000#32 = ((2 : ℝ) : EReal) := by
  simp [Ideal.ofBits, Ideal.ieee, -EReal.coe_mul]; norm_num

/-- The pattern 0x3F000000 denotes one half. -/
theorem half_bits : Ideal.ofBits .f32 0x3F000000#32 = Cert.Spec.half := by
  simp [Cert.Spec.half, Ideal.ofBits, Ideal.ieee, -EReal.coe_mul]; norm_num

/-- The number of coordinates is the real 256. -/
theorem c256_eq : Cert.Spec.c256 = ((256 : ℝ) : EReal) := by
  simp [Cert.Spec.c256, Ideal.ofBits, Ideal.ieee, -EReal.coe_mul]; norm_num

/-- The softening constant is a positive real. -/
theorem eps_pos_real : ∃ e : ℝ, 0 < e ∧ Cert.Spec.eps = (e : EReal) := by
  refine ⟨8796093 * (2 : ℝ) ^ (-43 : ℤ), by positivity, ?_⟩
  simp [Cert.Spec.eps, Ideal.ofBits, Ideal.ieee, -EReal.coe_mul]

/-! ### Real numbers are closed under the operations of the score -/

namespace IsReal

/-- A real number is one. -/
theorem coe (r : ℝ) : IsReal (r : EReal) := ⟨r, rfl⟩

/-- Zero is a real number. -/
theorem zero : IsReal 0 := ⟨0, rfl⟩

/-- One is a real number. -/
theorem one : IsReal 1 := ⟨1, rfl⟩

variable {x y : EReal}

/-- A real number is neither infinity. -/
theorem ne_top (hx : IsReal x) : x ≠ ⊤ := by obtain ⟨a, rfl⟩ := hx; exact EReal.coe_ne_top a

/-- A real number is neither infinity. -/
theorem ne_bot (hx : IsReal x) : x ≠ ⊥ := by obtain ⟨a, rfl⟩ := hx; exact EReal.coe_ne_bot a

/-- The sum of two reals is real. -/
theorem add (hx : IsReal x) (hy : IsReal y) : IsReal (x + y) := by
  obtain ⟨a, rfl⟩ := hx; obtain ⟨b, rfl⟩ := hy; exact ⟨a + b, (EReal.coe_add a b).symm⟩

/-- The difference of two reals is real. -/
theorem sub (hx : IsReal x) (hy : IsReal y) : IsReal (x - y) := by
  obtain ⟨a, rfl⟩ := hx; obtain ⟨b, rfl⟩ := hy; exact ⟨a - b, (EReal.coe_sub a b).symm⟩

/-- The product of two reals is real. -/
theorem mul (hx : IsReal x) (hy : IsReal y) : IsReal (x * y) := by
  obtain ⟨a, rfl⟩ := hx; obtain ⟨b, rfl⟩ := hy; exact ⟨a * b, (EReal.coe_mul a b).symm⟩

/-- The opposite of a real is real. -/
theorem neg (hx : IsReal x) : IsReal (-x) := by
  obtain ⟨a, rfl⟩ := hx; exact ⟨-a, (EReal.coe_neg a).symm⟩

/-- The larger of two reals is real. -/
theorem max (hx : IsReal x) (hy : IsReal y) : IsReal (max x y) := by
  rcases le_total x y with h | h
  · rw [max_eq_right h]; exact hy
  · rw [max_eq_left h]; exact hx

/-- The absolute value of a real is real. -/
theorem absE (hx : IsReal x) : IsReal (Cert.Spec.absE x) := hx.max hx.neg

end IsReal

/-- The larger of two reals, as a real. -/
theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The absolute value of a real, as a real. -/
theorem absE_coe (a : ℝ) : Cert.Spec.absE (a : EReal) = ((|a| : ℝ) : EReal) := by
  rw [Cert.Spec.absE, ← EReal.coe_neg, coe_max]; rfl

/-- The hyperbolic tangent of any extended real is a real: -1 at -∞ and 1 at +∞. -/
theorem isReal_tanh (x : EReal) : IsReal (Ideal.tanh x) := by
  induction x using EReal.rec with
  | bot => exact ⟨-1, by rw [Ideal.tanh_bot, EReal.coe_neg, EReal.coe_one]⟩
  | coe r => exact ⟨Real.tanh r, rfl⟩
  | top => exact ⟨1, by rw [Ideal.tanh_top, EReal.coe_one]⟩

/-- At a real the hyperbolic tangent is the real one, strictly between -1 and 1. -/
theorem tanh_coe_bounds (r : ℝ) :
    Ideal.tanh (r : EReal) = ((Real.tanh r : ℝ) : EReal) ∧ -1 < Real.tanh r ∧ Real.tanh r < 1 :=
  ⟨rfl, Real.neg_one_lt_tanh r, Real.tanh_lt_one r⟩

/-- The exponential of a real is a positive real. -/
theorem exp_coe_pos (r : ℝ) : ∃ e : ℝ, 0 < e ∧ Ideal.exp (r : EReal) = (e : EReal) :=
  ⟨Real.exp r, Real.exp_pos r, rfl⟩

/-- The exponential of a real is real. -/
theorem isReal_exp {x : EReal} (hx : IsReal x) : IsReal (Ideal.exp x) := by
  obtain ⟨a, rfl⟩ := hx; exact ⟨Real.exp a, rfl⟩

/-- The logarithm of a positive real is real. -/
theorem isReal_log_of_pos {r : ℝ} (hr : 0 < r) : IsReal (Ideal.log (r : EReal)) :=
  ⟨Real.log r, by rw [Ideal.log_coe, if_neg (not_le.2 hr)]⟩

/-- A real over a nonzero real is real. -/
theorem isReal_div {x : EReal} (hx : IsReal x) {y : ℝ} (hy : y ≠ 0) : IsReal (Ideal.div x (y : EReal)) := by
  rw [Ideal.div_coe hy]; exact hx.mul (IsReal.coe _)

/-- A real over a real that is not zero is real. -/
theorem isReal_div' {x y : EReal} (hx : IsReal x) (hy : IsReal y) (hy0 : y ≠ 0) : IsReal (Ideal.div x y) := by
  obtain ⟨b, rfl⟩ := hy
  exact isReal_div hx (EReal.coe_ne_zero.1 hy0)

/-- A finite sum of reals is real. -/
theorem isReal_sum {ι : Type} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- The elu of a real is real. -/
theorem isReal_elu {b : EReal} (hb : IsReal b) : IsReal (Cert.Spec.elu b) := by
  unfold Cert.Spec.elu
  split
  · exact hb
  · exact (isReal_exp hb).sub IsReal.one

/-- The larger of a positive real and a real is a positive real. -/
theorem max_pos_real {e : ℝ} (he : 0 < e) {y : EReal} (hy : IsReal y) :
    ∃ r : ℝ, 0 < r ∧ max (e : EReal) y = (r : EReal) := by
  obtain ⟨b, rfl⟩ := hy
  exact ⟨max e b, lt_max_of_lt_left he, coe_max e b⟩

/-- The larger of the softening constant and a real is a positive real. -/
theorem max_eps_pos_real {y : EReal} (hy : IsReal y) : ∃ r : ℝ, 0 < r ∧ max Cert.Spec.eps y = (r : EReal) := by
  obtain ⟨e, he, heps⟩ := eps_pos_real
  rw [heps]; exact max_pos_real he hy

/-! ### The squashed width -/

/-- One squashed width over real raw widths and a real size is a real strictly between -1 and 1. -/
theorem widthN_real_bounds {W : Fin 256 → EReal} {b : EReal} (hW : ∀ k, IsReal (W k)) (hb : IsReal b) (j : Fin 256) :
    ∃ r : ℝ, -1 < r ∧ r < 1 ∧ Cert.Spec.widthN W b j = (r : EReal) := by
  have hlog : ∀ k, IsReal (Ideal.log (max Cert.Spec.eps (Cert.Spec.absE (W k)))) := fun k => by
    obtain ⟨p, hp, hpe⟩ := max_eps_pos_real (hW k).absE
    rw [hpe]; exact isReal_log_of_pos hp
  have hsum : IsReal (∑ k, Ideal.log (max Cert.Spec.eps (Cert.Spec.absE (W k)))) :=
    isReal_sum _ _ fun k _ => hlog k
  have hmean : IsReal (Ideal.div (∑ k, Ideal.log (max Cert.Spec.eps (Cert.Spec.absE (W k)))) Cert.Spec.c256) := by
    rw [c256_eq]; exact isReal_div hsum (by norm_num)
  obtain ⟨m, hm, hme⟩ : ∃ m : ℝ, 0 < m ∧
      max Cert.Spec.eps (Ideal.exp (Ideal.div (∑ k, Ideal.log (max Cert.Spec.eps (Cert.Spec.absE (W k)))) Cert.Spec.c256))
        = (m : EReal) :=
    max_eps_pos_real (isReal_exp hmean)
  have harg : IsReal (Ideal.div (Cert.Spec.absE (W j))
      (max Cert.Spec.eps (Ideal.exp (Ideal.div (∑ k, Ideal.log (max Cert.Spec.eps (Cert.Spec.absE (W k)))) Cert.Spec.c256)))
        * (1 + Cert.Spec.elu b)) := by
    rw [hme]; exact (isReal_div (hW j).absE hm.ne').mul (IsReal.one.add (isReal_elu hb))
  obtain ⟨t, ht⟩ := harg
  refine ⟨Real.tanh t, Real.neg_one_lt_tanh t, Real.tanh_lt_one t, ?_⟩
  rw [Cert.Spec.widthN, ht]; rfl

/-- Such a width is a real number. -/
theorem isReal_widthN {W : Fin 256 → EReal} {b : EReal} (hW : ∀ k, IsReal (W k)) (hb : IsReal b) (j : Fin 256) :
    IsReal (Cert.Spec.widthN W b j) := by
  obtain ⟨r, _, _, hr⟩ := widthN_real_bounds hW hb j; exact ⟨r, hr⟩

/-- A real above -1 plus one is not zero. -/
theorem coe_add_one_ne_zero {r : ℝ} (hr : -1 < r) : (r : EReal) + 1 ≠ 0 := by
  rw [← EReal.coe_one, ← EReal.coe_add]
  exact EReal.coe_ne_zero.2 (by linarith)

/-- Such a width plus one is not zero. -/
theorem widthN_add_one_ne_zero {W : Fin 256 → EReal} {b : EReal} (hW : ∀ k, IsReal (W k)) (hb : IsReal b) (j : Fin 256) :
    Cert.Spec.widthN W b j + 1 ≠ 0 := by
  obtain ⟨r, h1, _, hr⟩ := widthN_real_bounds hW hb j
  rw [hr]; exact coe_add_one_ne_zero h1

/-! ### Identities on all extended reals -/

/-- Off a zero divisor, a quotient is the dividend times the reciprocal. -/
theorem div_eq_mul_div_one (x : EReal) {y : EReal} (hy : y ≠ 0) : Ideal.div x y = x * Ideal.div 1 y := by
  rw [Ideal.div, if_neg hy, Ideal.div, if_neg hy, one_mul]

/-- A quotient by 2 is the product with one half. -/
theorem div_two (w : EReal) : Ideal.div w ((2 : ℝ) : EReal) = w * Cert.Spec.half := by
  rw [Ideal.div_coe (by norm_num : (2 : ℝ) ≠ 0)]; rfl

/-- The square of the absolute value is the square. -/
theorem absE_mul_self (d : EReal) : Cert.Spec.absE d * Cert.Spec.absE d = d * d := by
  unfold Cert.Spec.absE
  rcases le_total 0 d with h | h
  · rw [max_eq_left (le_trans (EReal.neg_le.2 (by rw [neg_zero]; exact h)) h)]
  · rw [max_eq_right (le_trans h (EReal.neg_nonneg.2 h)), neg_mul_neg]

/-- The power one half of a nonnegative real is its square root. -/
theorem pow_half_eq_sqrt {s : EReal} (hs : ∃ r : ℝ, 0 ≤ r ∧ s = (r : EReal)) :
    Ideal.pow s Cert.Spec.half = Ideal.sqrt s := by
  obtain ⟨r, hr, rfl⟩ := hs
  rw [Cert.Spec.half, Ideal.pow_coe_coe, Ideal.sqrt_coe, if_neg (not_lt.2 hr), Real.sqrt_eq_rpow]
  rfl

/-- One half is a real number. -/
theorem isReal_half : IsReal Cert.Spec.half := ⟨1 / 2, rfl⟩

/-- A finite sum of squares of reals is a nonnegative real. -/
theorem sum_mul_self_nonneg_real {ι : Type} (s : Finset ι) (f : ι → EReal) (h : ∀ i ∈ s, IsReal (f i)) :
    ∃ r : ℝ, 0 ≤ r ∧ ∑ i ∈ s, f i * f i = (r : EReal) := by
  classical
  induction s using Finset.induction_on with
  | empty => exact ⟨0, le_refl 0, by rw [Finset.sum_empty]; rfl⟩
  | insert a s ha ih =>
    obtain ⟨r, hr, e⟩ := ih fun i hi => h i (Finset.mem_insert_of_mem hi)
    obtain ⟨t, ht⟩ := h a (Finset.mem_insert_self a s)
    refine ⟨t * t + r, add_nonneg (mul_self_nonneg t) hr, ?_⟩
    rw [Finset.sum_insert ha, e, ht, EReal.coe_add, EReal.coe_mul]

/-! ### One coordinate's distance and the norm, in the other spelling -/

/-- The distance spelled with quotients (halving by a division by 2, the inside case by a division by w + 1) is the
    distance spelled with products, wherever w + 1 is not zero. -/
theorem dist_ref_eq (x c : EReal) {w : EReal} (hw : w + 1 ≠ 0) :
    (if Cert.Spec.absE (Ideal.tanh x - c) ≤ Ideal.div w ((2 : ℝ) : EReal)
      then Ideal.div (Cert.Spec.absE (Ideal.tanh x - c)) (w + 1)
      else Cert.Spec.absE (Ideal.tanh x - c) * (w + 1) - (Cert.Spec.half * w) * ((w + 1) - Ideal.div 1 (w + 1)))
      = Cert.Spec.dist x c w := by
  rw [Cert.Spec.dist, div_two, div_eq_mul_div_one (Cert.Spec.absE (Ideal.tanh x - c)) hw]

/-- The distance is a real number when the centre and the width are real and the width plus one is not zero
    (the raw point may be any extended real: its hyperbolic tangent is real). -/
theorem isReal_dist (x : EReal) {c w : EReal} (hc : IsReal c) (hw : IsReal w) (hw1 : w + 1 ≠ 0) :
    IsReal (Cert.Spec.dist x c w) := by
  have hcd : IsReal (Cert.Spec.absE (Ideal.tanh x - c)) := ((isReal_tanh x).sub hc).absE
  have hw1r : IsReal (w + 1) := hw.add IsReal.one
  have hinv : IsReal (Ideal.div 1 (w + 1)) := isReal_div' IsReal.one hw1r hw1
  unfold Cert.Spec.dist
  split
  · exact hcd.mul hinv
  · exact (hcd.mul hw1r).sub ((isReal_half.mul hw).mul (hw1r.sub hinv))

/-- The distance is a real number when the centre is real and the width is a real above -1. -/
theorem isReal_dist_of_gt (x : EReal) {c w : EReal} (hc : IsReal c) {r : ℝ} (hr : -1 < r) (hw : w = (r : EReal)) :
    IsReal (Cert.Spec.dist x c w) := by
  subst hw; exact isReal_dist x hc (IsReal.coe r) (coe_add_one_ne_zero hr)

/-- The power one half of the sum of the squared absolute distances is the norm, when every distance is real. -/
theorem norm_ref_eq (x c w : Fin 256 → EReal) (h : ∀ j, IsReal (Cert.Spec.dist (x j) (c j) (w j))) :
    Ideal.pow (∑ j, Cert.Spec.absE (Cert.Spec.dist (x j) (c j) (w j)) * Cert.Spec.absE (Cert.Spec.dist (x j) (c j) (w j)))
      Cert.Spec.half = Cert.Spec.norm x c w := by
  have e : (∑ j, Cert.Spec.absE (Cert.Spec.dist (x j) (c j) (w j)) * Cert.Spec.absE (Cert.Spec.dist (x j) (c j) (w j)))
      = ∑ j, Cert.Spec.dist (x j) (c j) (w j) * Cert.Spec.dist (x j) (c j) (w j) :=
    Finset.sum_congr rfl fun j _ => absE_mul_self _
  rw [e, Cert.Spec.norm]
  exact pow_half_eq_sqrt (sum_mul_self_nonneg_real _ _ fun j _ => h j)

/-- The norm is a real number when every distance is real. -/
theorem isReal_norm (x c w : Fin 256 → EReal) (h : ∀ j, IsReal (Cert.Spec.dist (x j) (c j) (w j))) :
    IsReal (Cert.Spec.norm x c w) := by
  obtain ⟨r, hr, e⟩ := sum_mul_self_nonneg_real Finset.univ (fun j => Cert.Spec.dist (x j) (c j) (w j)) fun j _ => h j
  rw [Cert.Spec.norm, e, Ideal.sqrt_coe, if_neg (not_lt.2 hr)]
  exact IsReal.coe _

end Cert.SpecMath

end
-- ==== Proof.ReferenceIdealValue.lean ====
/-
  The reference's composed term, at the ideal instance, is the score: index by index, once every entry is a real number
  and every id is a row of the table.
-/
import proofs.«426055_j19370302505588_3_alg».proof.Proof.ReferenceIdealTerm
import proofs.«426055_j19370302505588_3_alg».proof.Proof.Spec
import proofs.«426055_j19370302505588_3_alg».proof.Proof.SpecMath
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.ReferenceIdeal.Hand

open Cert.ReferenceIdeal Cert.ReferenceIdeal.Gen
open Idealize.ShloMosaic Idealize.ShloMosaic.TcCoe Idealize.SL.Sem
open Idealize.ShloMosaic.ValueIdx

/-! ## The layout operations of the reference, read at an index -/

section Layout
variable {α : Type}

/-- The row gather at (b, q): row `min (start index read signed) 1023` of the table, column q. -/
theorem gather_row_apply (x : S1024x1026.Idx → α) (idx : IVec S131072x1 32) (b : Fin 131072) (q : Fin 1026) :
    Host.gather gather_S1024x1026_S131072x1_S131072x1026_1_0_n_n_0_1_11026 x idx (ix2 b q)
      = x (ix2 (⟨min (idx (ix2 b (0 : Fin 1))).toInt.toNat 1023, by omega⟩ : Fin 1024) q) := by
  unfold Host.gather
  congr 1
  funext a
  refine Fin.ext ?_
  match a with
  | ⟨0, _⟩ =>
    show gather_S1024x1026_S131072x1_S131072x1026_1_0_n_n_0_1_11026.start (ix2 b q) idx 0
        + gather_S1024x1026_S131072x1_S131072x1026_1_0_n_n_0_1_11026.batchCoord (ix2 b q) 0
        + gather_S1024x1026_S131072x1_S131072x1026_1_0_n_n_0_1_11026.offCoord (ix2 b q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1024x1026_S131072x1_S131072x1026_1_0_n_n_0_1_11026.startIndexMap from
      List.mem_singleton.mpr rfl)]
    have hsi : gather_S1024x1026_S131072x1_S131072x1026_1_0_n_n_0_1_11026.siIdx (ix2 b q)
        ⟨List.idxOf (0 : Fin 2) gather_S1024x1026_S131072x1_S131072x1026_1_0_n_n_0_1_11026.startIndexMap,
          List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  | ⟨1, _⟩ =>
    show gather_S1024x1026_S131072x1_S131072x1026_1_0_n_n_0_1_11026.start (ix2 b q) idx 1
        + gather_S1024x1026_S131072x1_S131072x1026_1_0_n_n_0_1_11026.batchCoord (ix2 b q) 1
        + gather_S1024x1026_S131072x1_S131072x1026_1_0_n_n_0_1_11026.offCoord (ix2 b q) 1 = _
    rw [GatherDims.batchCoord_eq_zero _ _ _ List.not_mem_nil]
    unfold GatherDims.start
    rw [dif_neg (show (1 : Fin 2) ∉ gather_S1024x1026_S131072x1_S131072x1026_1_0_n_n_0_1_11026.startIndexMap by
      intro h; exact absurd (List.mem_singleton.mp h) (by decide))]
    simp only [Nat.zero_add]
    rfl

/-- A column window of width 512 of a [131072, 1026] array, regrouped as [131072, 2, 256], at (b, s, j). -/
theorem slice_reshape_apply (off : Nat) (hoff : off + 512 ≤ 1026) (x : S131072x1026.Idx → α)
    (h : S131072x1026.Slices ![0, off] S131072x512) (b : Fin 131072) (s : Fin 2) (j : Fin 256) :
    shapeCast S131072x2x256 (extractStridedSlice S131072x512 ![0, off] x h) shapeCasts_S131072x512_S131072x2x256 (ix3 b s j)
      = x (ix2 b (⟨off + 256 * s.val + j.val, by omega⟩ : Fin 1026)) := by
  refine (shapeCast_apply _ _ (ix3 b s j) (ix2 b (⟨256 * s.val + j.val, by omega⟩ : Fin 512)) ?_).trans ?_
  · rw [Shape.rowMajor_val_two, Shape.rowMajor_val_three]
    show b.val * 512 + (256 * s.val + j.val) = (b.val * 2 + s.val) * 256 + j.val
    omega
  · refine extractStridedSlice_apply _ x h _ _ fun a => ?_
    match a with
    | ⟨0, _⟩ => show b.val = 0 + b.val; omega
    | ⟨1, _⟩ => show off + 256 * s.val + j.val = off + (256 * s.val + j.val); omega

/-- The two trailing columns of a [131072, 1026] array at (b, s). -/
theorem slice_sizes_apply (x : S131072x1026.Idx → α) (b : Fin 131072) (s : Fin 2) :
    extractStridedSlice S131072x2 ![0, 1024] x slices_S131072x1026_S131072x2_0_1024 (ix2 b s)
      = x (ix2 b (⟨1024 + s.val, by omega⟩ : Fin 1026)) := by
  refine extractStridedSlice_apply _ x _ _ _ fun a => ?_
  match a with
  | ⟨0, _⟩ => show b.val = 0 + b.val; omega
  | ⟨1, _⟩ => rfl

/-- A column window of width 256 of a [131072, 512] array at (b, j). -/
theorem slice_half_apply (off : Nat) (hoff : off + 256 ≤ 512) (x : S131072x512.Idx → α)
    (h : S131072x512.Slices ![0, off] S131072x256) (b : Fin 131072) (j : Fin 256) :
    extractStridedSlice S131072x256 ![0, off] x h (ix2 b j) = x (ix2 b (⟨off + j.val, by omega⟩ : Fin 512)) := by
  refine extractStridedSlice_apply _ x h _ _ fun a => ?_
  match a with
  | ⟨0, _⟩ => show b.val = 0 + b.val; omega
  | ⟨1, _⟩ => rfl

/-- A [131072, 256] array given a unit middle axis, at (b, 0, j). -/
theorem bcast_mid_apply (x : S131072x256.Idx → α) (b : Fin 131072) (j : Fin 256) :
    broadcastInDim S131072x1x256 ![0, 2] bcast_S131072x256_S131072x1x256_0_2 x (ix3 b (0 : Fin 1) j) = x (ix2 b j) := by
  refine broadcastInDim_apply _ _ x _ _ fun a => ?_
  match a with
  | ⟨0, _⟩ => rfl
  | ⟨1, _⟩ => rfl

/-- A [131072, 2] array given a trailing unit axis, at (b, s, 0). -/
theorem bcast_last_apply (x : S131072x2.Idx → α) (b : Fin 131072) (s : Fin 2) :
    broadcastInDim S131072x2x1 ![0, 1] bcast_S131072x2_S131072x2x1_0_1 x (ix3 b s (0 : Fin 1)) = x (ix2 b s) := by
  refine broadcastInDim_apply _ _ x _ _ fun a => ?_
  match a with
  | ⟨0, _⟩ => rfl
  | ⟨1, _⟩ => rfl

/-- A [131072, 2, 1] array copied along its last axis, at (b, s, j). -/
theorem bcast_lanes_apply (x : S131072x2x1.Idx → α) (b : Fin 131072) (s : Fin 2) (j : Fin 256) :
    broadcastInDim S131072x2x256 ![0, 1, 2] bcast_S131072x2x1_S131072x2x256_0_1_2 x (ix3 b s j) = x (ix3 b s (0 : Fin 1)) := by
  refine broadcastInDim_apply _ _ x _ _ fun a => ?_
  match a with
  | ⟨0, _⟩ => rfl
  | ⟨1, _⟩ => rfl
  | ⟨2, _⟩ => rfl

/-- The stack of two [131072, 1, 256] arrays along the middle axis: member 0 is the first. -/
theorem concat_apply_zero (x₁ x₂ : S131072x1x256.Idx → α) (b : Fin 131072) (j : Fin 256) :
    concatenate S131072x2x256 1 [⟨S131072x1x256, x₁⟩, ⟨S131072x1x256, x₂⟩]
      concatenates_S131072x1x256_S131072x1x256_S131072x2x256_d1 (ix3 b (0 : Fin 2) j) = x₁ (ix3 b (0 : Fin 1) j) := by
  refine concatenate_pair_apply_left (t := S131072x2x256) (s₁ := S131072x1x256) (s₂ := S131072x1x256) 1 x₁ x₂ _ _ rfl _ fun a => ?_
  match a with
  | ⟨0, _⟩ => rfl
  | ⟨1, _⟩ => rfl
  | ⟨2, _⟩ => rfl

/-- The stack of two [131072, 1, 256] arrays along the middle axis: member 1 is the second. -/
theorem concat_apply_one (x₁ x₂ : S131072x1x256.Idx → α) (b : Fin 131072) (j : Fin 256) :
    concatenate S131072x2x256 1 [⟨S131072x1x256, x₁⟩, ⟨S131072x1x256, x₂⟩]
      concatenates_S131072x1x256_S131072x1x256_S131072x2x256_d1 (ix3 b (1 : Fin 2) j) = x₂ (ix3 b (0 : Fin 1) j) := by
  refine concatenate_pair_apply_right (t := S131072x2x256) (s₁ := S131072x1x256) (s₂ := S131072x1x256) 1 x₁ x₂ _ _ rfl rfl _ (fun a ha => ?_) ?_
  · match a with
    | ⟨0, _⟩ => rfl
    | ⟨1, _⟩ => exact absurd rfl ha
    | ⟨2, _⟩ => rfl
  · rfl

end Layout

section LayoutAt
variable {α : Type}

/-- The head box's centres: columns 0 … 255 of the row. -/
theorem centre_apply_zero (x : S131072x1026.Idx → α) (b : Fin 131072) (j : Fin 256) :
    shapeCast S131072x2x256 (extractStridedSlice S131072x512 ![0, 0] x slices_S131072x1026_S131072x512_0_0)
        shapeCasts_S131072x512_S131072x2x256 (ix3 b (0 : Fin 2) j)
      = x (ix2 b (⟨j.val, by omega⟩ : Fin 1026)) :=
  (slice_reshape_apply 0 (by omega) x _ b 0 j).trans (congrArg (fun q => x (ix2 b q)) (Fin.ext (by simp)))

/-- The tail box's centres: columns 256 … 511. -/
theorem centre_apply_one (x : S131072x1026.Idx → α) (b : Fin 131072) (j : Fin 256) :
    shapeCast S131072x2x256 (extractStridedSlice S131072x512 ![0, 0] x slices_S131072x1026_S131072x512_0_0)
        shapeCasts_S131072x512_S131072x2x256 (ix3 b (1 : Fin 2) j)
      = x (ix2 b (⟨256 + j.val, by omega⟩ : Fin 1026)) :=
  (slice_reshape_apply 0 (by omega) x _ b 1 j).trans (congrArg (fun q => x (ix2 b q)) (Fin.ext (by simp)))

/-- The head box's raw widths: columns 512 … 767. -/
theorem width_apply_zero (x : S131072x1026.Idx → α) (b : Fin 131072) (j : Fin 256) :
    shapeCast S131072x2x256 (extractStridedSlice S131072x512 ![0, 512] x slices_S131072x1026_S131072x512_0_512)
        shapeCasts_S131072x512_S131072x2x256 (ix3 b (0 : Fin 2) j)
      = x (ix2 b (⟨512 + j.val, by omega⟩ : Fin 1026)) :=
  (slice_reshape_apply 512 (by omega) x _ b 0 j).trans (congrArg (fun q => x (ix2 b q)) (Fin.ext (by simp)))

/-- The tail box's raw widths: columns 768 … 1023. -/
theorem width_apply_one (x : S131072x1026.Idx → α) (b : Fin 131072) (j : Fin 256) :
    shapeCast S131072x2x256 (extractStridedSlice S131072x512 ![0, 512] x slices_S131072x1026_S131072x512_0_512)
        shapeCasts_S131072x512_S131072x2x256 (ix3 b (1 : Fin 2) j)
      = x (ix2 b (⟨768 + j.val, by omega⟩ : Fin 1026)) :=
  (slice_reshape_apply 512 (by omega) x _ b 1 j).trans (congrArg (fun q => x (ix2 b q)) (Fin.ext (by simp)))

/-- The head box's size: column 1024. -/
theorem size_apply_zero (x : S131072x1026.Idx → α) (b : Fin 131072) :
    extractStridedSlice S131072x2 ![0, 1024] x slices_S131072x1026_S131072x2_0_1024 (ix2 b (0 : Fin 2))
      = x (ix2 b (⟨1024, by omega⟩ : Fin 1026)) :=
  (slice_sizes_apply x b 0).trans (congrArg (fun q => x (ix2 b q)) (Fin.ext (by simp)))

/-- The tail box's size: column 1025. -/
theorem size_apply_one (x : S131072x1026.Idx → α) (b : Fin 131072) :
    extractStridedSlice S131072x2 ![0, 1024] x slices_S131072x1026_S131072x2_0_1024 (ix2 b (1 : Fin 2))
      = x (ix2 b (⟨1025, by omega⟩ : Fin 1026)) :=
  (slice_sizes_apply x b 1).trans (congrArg (fun q => x (ix2 b q)) (Fin.ext (by simp)))

/-- The first half of an example's 512 entries. -/
theorem half_apply_lo (x : S131072x512.Idx → α) (b : Fin 131072) (j : Fin 256) :
    extractStridedSlice S131072x256 ![0, 0] x slices_S131072x512_S131072x256_0_0 (ix2 b j)
      = x (ix2 b (⟨j.val, by omega⟩ : Fin 512)) :=
  (slice_half_apply 0 (by omega) x _ b j).trans (congrArg (fun q => x (ix2 b q)) (Fin.ext (by simp)))

/-- The second half of an example's 512 entries. -/
theorem half_apply_hi (x : S131072x512.Idx → α) (b : Fin 131072) (j : Fin 256) :
    extractStridedSlice S131072x256 ![0, 256] x slices_S131072x512_S131072x256_0_256 (ix2 b j)
      = x (ix2 b (⟨256 + j.val, by omega⟩ : Fin 512)) :=
  slice_half_apply 256 (by omega) x _ b j

/-- A [131072] array of words given a trailing unit axis, at (b, 0). -/
theorem bcast_col_apply (x : S131072.Idx → α) (b : Fin 131072) :
    broadcastInDim S131072x1 ![0] bcast_S131072_S131072x1_0 x (ix2 b (0 : Fin 1)) = x (ix1 b) := by
  refine broadcastInDim_apply _ _ x _ _ fun a => ?_
  match a with
  | ⟨0, _⟩ => rfl

end LayoutAt

/-! ## The host's elementwise operations and sums, read at an index -/

section HostOps
variable {s : Shape}

/-- The host's absolute value at an index: the larger of the element and its opposite. -/
theorem hostAbsf_apply (x : FVec Ideal s .f32) (i : s.Idx) : Host.absf x i = Cert.Spec.absE (x i) := rfl
/-- The host's logarithm at an index. -/
theorem hostLog_apply (x : FVec Ideal s .f32) (i : s.Idx) : Host.log x i = Ideal.log (x i) := rfl
/-- The host's exponential at an index. -/
theorem hostExp_apply (x : FVec Ideal s .f32) (i : s.Idx) : Host.exp x i = Ideal.exp (x i) := rfl
/-- The host's `exp − 1` at an index. -/
theorem hostExpm1_apply (x : FVec Ideal s .f32) (i : s.Idx) : Host.expm1 x i = Ideal.exp (x i) - 1 := rfl
/-- The host's hyperbolic tangent at an index. -/
theorem hostTanh_apply (x : FVec Ideal s .f32) (i : s.Idx) : Host.tanh x i = Ideal.tanh (x i) := rfl
/-- The host's power at an index. -/
theorem hostPowf_apply (x y : FVec Ideal s .f32) (i : s.Idx) : Host.powf x y i = Ideal.pow (x i) (y i) := rfl
/-- The host's negation at an index. -/
theorem hostNegf_apply (x : FVec Ideal s .f32) (i : s.Idx) : Host.negf x i = -(x i) := rfl
/-- An integer comparison at an index compares the words. -/
theorem cmpi_apply {w : Nat} (p : CmpIPredicate) (x y : IVec s w) (i : s.Idx) : cmpi p x y i = IntOp.cmpi p (x i) (y i) := rfl
/-- An integer sum at an index adds the words. -/
theorem addi_apply {w : Nat} (x y : IVec s w) (i : s.Idx) : addi x y i = x i + y i := rfl
/-- A splat word reads the word everywhere. -/
theorem constantI_apply {w : Nat} (c : BitVec w) (i : s.Idx) : constantI s w c i = c := rfl

end HostOps

/-- The sum over the last axis of a [131072, 2, 256] array at (b, s): the initial value plus the 256 entries. -/
theorem reduce_lanes_apply (x : FVec Ideal S131072x2x256 .f32) (init : FVec Ideal S_ .f32) (b : Fin 131072) (s : Fin 2) :
    Host.reduceAdd x init reducesTo_S131072x2x256_S131072x2_d2 h_S_ (ix2 b s) = init ix0 + ∑ j : Fin 256, x (ix3 b s j) := by
  have hR : S131072x2x256.Reduces [2] S131072x2 := by decide
  refine (hostReduceAdd_apply x init _ _ _).trans ?_
  refine (Ideal.hostReduceAdd_single _ hR x _ (ix2 b s)).trans ?_
  congr 1
  · exact congrArg init (eq_ix0 _)
  · show ∑ k : Fin 256, x (hR.lift (ix2 b s) k) = _
    refine Finset.sum_congr rfl fun k _ => congrArg x ?_
    funext a; refine Fin.ext ?_
    match a with
    | ⟨0, _⟩ => rfl
    | ⟨1, _⟩ => rfl
    | ⟨2, _⟩ => rfl

/-- The sum over the last axis of a [131072, 2] array at b: the initial value plus the two entries. -/
theorem reduce_pair_apply (x : FVec Ideal S131072x2 .f32) (init : FVec Ideal S_ .f32) (b : Fin 131072) :
    Host.reduceAdd x init reducesTo_S131072x2_S131072_d1 h_S_ (ix1 b)
      = init ix0 + (x (ix2 b (0 : Fin 2)) + x (ix2 b (1 : Fin 2))) := by
  have hR : S131072x2.Reduces [1] S131072 := by decide
  refine (hostReduceAdd_apply x init _ _ _).trans ?_
  refine (Ideal.hostReduceAdd_single _ hR x _ (ix1 b)).trans ?_
  congr 1
  · exact congrArg init (eq_ix0 _)
  · show ∑ k : Fin 2, x (hR.lift (ix1 b) k) = _
    rw [Fin.sum_univ_two]
    congr 1
    · refine congrArg x ?_
      funext a; refine Fin.ext ?_
      match a with
      | ⟨0, _⟩ => rfl
      | ⟨1, _⟩ => rfl
    · refine congrArg x ?_
      funext a; refine Fin.ext ?_
      match a with
      | ⟨0, _⟩ => rfl
      | ⟨1, _⟩ => rfl

/-! ## The reference's stages

The composed term is the last stage (the two norms) applied to an array of distances that is an entry-by-entry
function of the squashed points, centres and widths; these are read at an example below. -/

/-- The last stage on one example's two families of distances: minus the sum of the two norms, as the reference spells them. -/
def scoreR (d₀ d₁ : Fin 256 → EReal) : EReal :=
  -(Ideal.ofBits .f32 0x00000000#32
    + (Ideal.pow (Ideal.ofBits .f32 0x00000000#32 + ∑ j, Cert.Spec.absE (d₀ j) * Cert.Spec.absE (d₀ j)) (Ideal.ofBits .f32 0x3F000000#32)
      + Ideal.pow (Ideal.ofBits .f32 0x00000000#32 + ∑ j, Cert.Spec.absE (d₁ j) * Cert.Spec.absE (d₁ j)) (Ideal.ofBits .f32 0x3F000000#32)))

/-- One coordinate's distance from the squashed point, centre and width, as the reference spells it. -/
def distR (tx c w : EReal) : EReal :=
  Scalar.select (Ideal.cmp .ole (Cert.Spec.absE (tx - c)) (Ideal.div w (Ideal.ofBits .f32 0x40000000#32)))
    (Ideal.div (Cert.Spec.absE (tx - c)) (w + Ideal.ofBits .f32 0x3F800000#32))
    (Cert.Spec.absE (tx - c) * (w + Ideal.ofBits .f32 0x3F800000#32)
      - (Ideal.ofBits .f32 0x3F000000#32 * w)
        * ((w + Ideal.ofBits .f32 0x3F800000#32) - Ideal.div (Ideal.ofBits .f32 0x3F800000#32) (w + Ideal.ofBits .f32 0x3F800000#32)))

/-- elu as the reference spells it. -/
def eluR (z : EReal) : EReal :=
  Scalar.select (Ideal.cmp .ogt z (Ideal.ofBits .f32 0x00000000#32)) z
    (Ideal.ofBits .f32 0x3F800000#32
      * (Ideal.exp (Scalar.select (Ideal.cmp .ogt z (Ideal.ofBits .f32 0x00000000#32)) (Ideal.ofBits .f32 0x00000000#32) z) - 1))

/-- One width over the softened geometric mean of its family, before the size's factor, as the reference spells it. -/
def widthR (W : Fin 256 → EReal) (j : Fin 256) : EReal :=
  Ideal.div (Cert.Spec.absE (W j))
    (max (Ideal.ofBits .f32 0x358637BD#32)
      (Ideal.exp (Ideal.div (Ideal.ofBits .f32 0x00000000#32 + ∑ k, Ideal.log (max (Ideal.ofBits .f32 0x358637BD#32) (Cert.Spec.absE (W k))))
        (Ideal.ofBits .f32 0x43800000#32))))

/-- The start indices: each id, wrapped by the table's height if negative, as a one-entry row. -/
def idsR (a1 : IVec S131072 32) : IVec S131072x1 32 :=
  broadcastInDim S131072x1 ![0] bcast_S131072_S131072x1_0
    (select (cmpi .slt a1 (broadcastInDim S131072 ![] bcast_S_S131072 (constantI S_ 32 0#32)))
      (addi a1 (broadcastInDim S131072 ![] bcast_S_S131072 (constantI S_ 32 1024#32))) a1)

/-- Each example's row of the relation table. -/
def rowsR (a1 : IVec S131072 32) (a3 : FVec Ideal S1024x1026 .f32) : FVec Ideal S131072x1026 .f32 :=
  Host.gather gather_S1024x1026_S131072x1_S131072x1026_1_0_n_n_0_1_11026 a3 (idsR a1)

/-- The rows' centres, the two boxes stacked. -/
def cenR (rows : FVec Ideal S131072x1026 .f32) : FVec Ideal S131072x2x256 .f32 :=
  shapeCast S131072x2x256 (extractStridedSlice S131072x512 ![0, 0] rows slices_S131072x1026_S131072x512_0_0)
    shapeCasts_S131072x512_S131072x2x256

/-- The rows' raw widths, the two boxes stacked. -/
def rawR (rows : FVec Ideal S131072x1026 .f32) : FVec Ideal S131072x2x256 .f32 :=
  shapeCast S131072x2x256 (extractStridedSlice S131072x512 ![0, 512] rows slices_S131072x1026_S131072x512_0_512)
    shapeCasts_S131072x512_S131072x2x256

/-- The rows' two sizes. -/
def sizeR (rows : FVec Ideal S131072x1026 .f32) : FVec Ideal S131072x2 .f32 :=
  extractStridedSlice S131072x2 ![0, 1024] rows slices_S131072x1026_S131072x2_0_1024

/-- The two bumped points of each example, stacked. -/
def pointsR (a0 a2 : FVec Ideal S131072x512 .f32) : FVec Ideal S131072x2x256 .f32 :=
  concatenate S131072x2x256 1
    [⟨S131072x1x256, broadcastInDim S131072x1x256 ![0, 2] bcast_S131072x256_S131072x1x256_0_2
        (addf (extractStridedSlice S131072x256 ![0, 0] a0 slices_S131072x512_S131072x256_0_0)
          (extractStridedSlice S131072x256 ![0, 256] a2 slices_S131072x512_S131072x256_0_256))⟩,
     ⟨S131072x1x256, broadcastInDim S131072x1x256 ![0, 2] bcast_S131072x256_S131072x1x256_0_2
        (addf (extractStridedSlice S131072x256 ![0, 0] a2 slices_S131072x512_S131072x256_0_0)
          (extractStridedSlice S131072x256 ![0, 256] a0 slices_S131072x512_S131072x256_0_256))⟩]
    concatenates_S131072x1x256_S131072x1x256_S131072x2x256_d1

/-- The softened geometric mean of each box's raw widths. -/
def meanR (raw : FVec Ideal S131072x2x256 .f32) : FVec Ideal S131072x2x1 .f32 := fun k =>
  max (Ideal.ofBits .f32 0x358637BD#32)
    (Ideal.exp (Ideal.div
      (broadcastInDim S131072x2x1 ![0, 1] bcast_S131072x2_S131072x2x1_0_1
        (Host.reduceAdd (F := Ideal) (φ := .f32) (fun i => Ideal.log (max (Ideal.ofBits .f32 0x358637BD#32) (Cert.Spec.absE (raw i))))
          (constant (F := Ideal) S_ .f32 0x00000000#32) reducesTo_S131072x2x256_S131072x2_d2 h_S_) k)
      (Ideal.ofBits .f32 0x43800000#32)))

/-- One plus elu of each box's size. -/
def growR (sizes : FVec Ideal S131072x2 .f32) : FVec Ideal S131072x2x1 .f32 := fun k =>
  Ideal.ofBits .f32 0x3F800000#32 + eluR (broadcastInDim S131072x2x1 ![0, 1] bcast_S131072x2_S131072x2x1_0_1 sizes k)

/-- The squashed widths. -/
def widR (raw : FVec Ideal S131072x2x256 .f32) (sizes : FVec Ideal S131072x2 .f32) : FVec Ideal S131072x2x256 .f32 := fun i =>
  Ideal.tanh (Ideal.div (Cert.Spec.absE (raw i))
      (broadcastInDim S131072x2x256 ![0, 1, 2] bcast_S131072x2x1_S131072x2x256_0_1_2 (meanR raw) i)
    * broadcastInDim S131072x2x256 ![0, 1, 2] bcast_S131072x2x1_S131072x2x256_0_1_2 (growR sizes) i)

/-- The distance stage is the last stage on the entry-by-entry distances. -/
theorem part3_eq (v38 v39 v40 : FVec Ideal S131072x2x256 .f32) :
    refTerm_part3 (F := Ideal) v38 v39 v40 = refTerm_part4 (F := Ideal) (fun i => distR (v40 i) (v39 i) (v38 i)) := rfl

/-- The squashing stage feeds the distance stage the squashed widths, centres and points. -/
theorem part2_eq (v8 v20 v31 : FVec Ideal S131072x2x256 .f32) (v32 : FVec Ideal S131072x2x1 .f32) :
    refTerm_part2 (F := Ideal) v8 v20 v31 v32
      = refTerm_part3 (F := Ideal)
          (fun i => Ideal.tanh (v31 i * broadcastInDim S131072x2x256 ![0, 1, 2] bcast_S131072x2x1_S131072x2x256_0_1_2
            (fun k => Ideal.ofBits .f32 0x3F800000#32 + eluR (v32 k)) i))
          (fun i => Ideal.tanh (v8 i)) (fun i => Ideal.tanh (v20 i)) := rfl

/-- The width stage feeds the squashing stage the widths over their means and the sizes. -/
theorem part1_eq (v8 v10 : FVec Ideal S131072x2x256 .f32) (v11 : FVec Ideal S131072x2 .f32) (v20 : FVec Ideal S131072x2x256 .f32) :
    refTerm_part1 (F := Ideal) v8 v10 v11 v20
      = refTerm_part2 (F := Ideal) v8 v20
          (fun i => Ideal.div (Cert.Spec.absE (v10 i))
            (broadcastInDim S131072x2x256 ![0, 1, 2] bcast_S131072x2x1_S131072x2x256_0_1_2 (meanR v10) i))
          (broadcastInDim S131072x2x1 ![0, 1] bcast_S131072x2_S131072x2x1_0_1 v11) := rfl

/-- The first stage cuts the rows and stacks the points. -/
theorem part0_eq (a0 : FVec Ideal S131072x512 .f32) (a1 : IVec S131072 32) (a2 : FVec Ideal S131072x512 .f32)
    (a3 : FVec Ideal S1024x1026 .f32) :
    refTerm (F := Ideal) a0 a1 a2 a3
      = refTerm_part1 (F := Ideal) (cenR (rowsR a1 a3)) (rawR (rowsR a1 a3)) (sizeR (rowsR a1 a3)) (pointsR a0 a2) := rfl

/-- THE COMPOSED TERM: the last stage on the distances of the squashed points to the squashed boxes. -/
theorem refTerm_stages (a0 : FVec Ideal S131072x512 .f32) (a1 : IVec S131072 32) (a2 : FVec Ideal S131072x512 .f32)
    (a3 : FVec Ideal S1024x1026 .f32) :
    refTerm (F := Ideal) a0 a1 a2 a3
      = refTerm_part4 (F := Ideal) (fun i => distR (Ideal.tanh (pointsR a0 a2 i)) (Ideal.tanh (cenR (rowsR a1 a3) i))
          (widR (rawR (rowsR a1 a3)) (sizeR (rowsR a1 a3)) i)) :=
  (part0_eq a0 a1 a2 a3).trans ((part1_eq _ _ _ _).trans ((part2_eq _ _ _ _).trans (part3_eq _ _ _)))

/-- The last stage at example b. -/
theorem part4_apply (v57 : FVec Ideal S131072x2x256 .f32) (b : Fin 131072) :
    refTerm_part4 (F := Ideal) v57 (ix1 b) = scoreR (fun j => v57 (ix3 b (0 : Fin 2) j)) (fun j => v57 (ix3 b (1 : Fin 2) j)) := by
  unfold refTerm_part4 scoreR
  simp only [hostNegf_apply, reduce_pair_apply, hostPowf_apply, reduce_lanes_apply, mulf_apply, hostAbsf_apply, constant_apply]
  rfl

/-! ## The arrays read at an example -/

/-- A word that is not negative is not below zero as a signed word, so the wrapping select keeps it. -/
theorem id_select (w : BitVec 32) (hw : 0 ≤ w.toInt) :
    Scalar.select (IntOp.cmpi .slt w 0#32) (w + 1024#32) w = w := by
  have h0 : w.slt 0#32 = false := by
    simp [BitVec.slt]; omega
  show Scalar.select (BitVec.ofBool (w.slt 0#32)) (w + 1024#32) w = w
  rw [h0]
  exact select_zero _ _

/-- Each example's gathered row is the table's row at its id. -/
theorem rows_apply (a1 : IVec S131072 32) (a3 : FVec Ideal S1024x1026 .f32) (hnn : ∀ i, 0 ≤ (a1 i).toInt)
    (b : Fin 131072) (q : Fin 1026) :
    rowsR a1 a3 (ix2 b q) = a3 (ix2 (Cert.Spec.ridx (a1 (ix1 b))) q) := by
  have hid : idsR a1 (ix2 b (0 : Fin 1)) = a1 (ix1 b) := by
    unfold idsR
    rw [bcast_col_apply]
    exact id_select _ (hnn _)
  unfold rowsR
  refine (gather_row_apply a3 _ b q).trans ?_
  refine congrArg (fun r => a3 (ix2 r q)) (Fin.ext ?_)
  show min (idsR a1 (ix2 b (0 : Fin 1))).toInt.toNat 1023 = min (a1 (ix1 b)).toInt.toNat 1023
  rw [hid]

/-- The head's bumped point. -/
theorem points_apply_zero (a0 a2 : FVec Ideal S131072x512 .f32) (b : Fin 131072) (j : Fin 256) :
    pointsR a0 a2 (ix3 b (0 : Fin 2) j) = Cert.Spec.bumpH a0 a2 b j := by
  unfold pointsR
  rw [concat_apply_zero, bcast_mid_apply, addf_apply, half_apply_lo, half_apply_hi]
  rfl

/-- The tail's bumped point. -/
theorem points_apply_one (a0 a2 : FVec Ideal S131072x512 .f32) (b : Fin 131072) (j : Fin 256) :
    pointsR a0 a2 (ix3 b (1 : Fin 2) j) = Cert.Spec.bumpT a0 a2 b j := by
  unfold pointsR
  rw [concat_apply_one, bcast_mid_apply, addf_apply, half_apply_lo, half_apply_hi]
  rfl

/-- One squashed width at (b, s, j), from the box's 256 raw widths and its size. -/
theorem widR_apply (raw : FVec Ideal S131072x2x256 .f32) (sizes : FVec Ideal S131072x2 .f32) (b : Fin 131072) (s : Fin 2)
    (j : Fin 256) :
    widR raw sizes (ix3 b s j)
      = Ideal.tanh (widthR (fun k => raw (ix3 b s k)) j * (Ideal.ofBits .f32 0x3F800000#32 + eluR (sizes (ix2 b s)))) := by
  simp only [widR]
  rw [bcast_lanes_apply, bcast_lanes_apply]
  simp only [meanR, growR]
  rw [bcast_last_apply, bcast_last_apply, reduce_lanes_apply]
  rfl

/-! ## The reference's spellings are the score's -/

/-- A select on "A ≤ B" is the `if`. -/
theorem select_ole (A B X Y : EReal) : Scalar.select (Ideal.cmp .ole A B) X Y = if A ≤ B then X else Y := by
  by_cases hAB : A ≤ B
  · have e : Ideal.cmp .ole A B = 1#1 := by simp [Ideal.cmp, hAB]
    rw [e, select_one, if_pos hAB]
  · have e : Ideal.cmp .ole A B = 0#1 := by simp [Ideal.cmp, hAB]
    rw [e, select_zero, if_neg hAB]

/-- The reference's elu — a select between z and `1 · (exp (z where it is not positive, else 0) − 1)` — is elu. -/
theorem eluR_eq (z : EReal) : eluR z = Cert.Spec.elu z := by
  unfold eluR Cert.Spec.elu
  rw [Ideal.ofBits_zero_f32, Ideal.ofBits_one_f32, one_mul]
  by_cases hz : 0 < z
  · have e : Ideal.cmp .ogt z 0 = 1#1 := by simp [Ideal.cmp, hz]
    rw [e, select_one, if_pos hz]
  · have e : Ideal.cmp .ogt z 0 = 0#1 := by simp [Ideal.cmp, hz]
    rw [e, select_zero, select_zero, if_neg hz]

/-- The reference's squashed width is the score's: the sum's initial zero drops, the literals are eps, 256 and 1. -/
theorem width_eq (W : Fin 256 → EReal) (sz : EReal) (j : Fin 256) :
    Ideal.tanh (widthR W j * (Ideal.ofBits .f32 0x3F800000#32 + eluR sz)) = Cert.Spec.widthN W sz j := by
  unfold widthR Cert.Spec.widthN
  rw [eluR_eq, Ideal.ofBits_zero_f32, Ideal.ofBits_one_f32, zero_add]
  rfl

/-- The reference's distance is the score's wherever the width plus one is not zero. -/
theorem dist_eq (x c w : EReal) (hw : w + 1 ≠ 0) : distR (Ideal.tanh x) c w = Cert.Spec.dist x c w := by
  unfold distR
  rw [select_ole, Cert.SpecMath.two_bits, Cert.SpecMath.half_bits, Ideal.ofBits_one_f32]
  exact Cert.SpecMath.dist_ref_eq x c hw

/-- The reference's last stage on real distances is minus the sum of the two norms. -/
theorem scoreR_eq (x₀ x₁ c₀ c₁ w₀ w₁ : Fin 256 → EReal)
    (h₀ : ∀ j, Cert.SpecMath.IsReal (Cert.Spec.dist (x₀ j) (c₀ j) (w₀ j)))
    (h₁ : ∀ j, Cert.SpecMath.IsReal (Cert.Spec.dist (x₁ j) (c₁ j) (w₁ j))) :
    scoreR (fun j => Cert.Spec.dist (x₀ j) (c₀ j) (w₀ j)) (fun j => Cert.Spec.dist (x₁ j) (c₁ j) (w₁ j))
      = Cert.Spec.score1 x₀ x₁ c₀ c₁ w₀ w₁ := by
  unfold scoreR Cert.Spec.score1
  simp only [Ideal.ofBits_zero_f32, zero_add, Cert.SpecMath.half_bits]
  rw [Cert.SpecMath.norm_ref_eq x₀ c₀ w₀ h₀, Cert.SpecMath.norm_ref_eq x₁ c₁ w₁ h₁]

/-- One example's score from its gathered row: the last stage on the distances is the score of the example against row r,
    when the row gathered for it is row r and the table's entries are real. -/
theorem score_of_rows (a0 a2 : FVec Ideal S131072x512 .f32) (a3 : FVec Ideal S1024x1026 .f32)
    (rows : FVec Ideal S131072x1026 .f32) (b : Fin 131072) (r : Fin 1024)
    (hrow : ∀ q, rows (ix2 b q) = a3 (ix2 r q)) (hrel : ∀ q, Cert.SpecMath.IsReal (a3 q)) :
    scoreR
        (fun j => distR (Ideal.tanh (pointsR a0 a2 (ix3 b (0 : Fin 2) j))) (Ideal.tanh (cenR rows (ix3 b (0 : Fin 2) j)))
          (widR (rawR rows) (sizeR rows) (ix3 b (0 : Fin 2) j)))
        (fun j => distR (Ideal.tanh (pointsR a0 a2 (ix3 b (1 : Fin 2) j))) (Ideal.tanh (cenR rows (ix3 b (1 : Fin 2) j)))
          (widR (rawR rows) (sizeR rows) (ix3 b (1 : Fin 2) j)))
      = Cert.Spec.score1 (Cert.Spec.bumpH a0 a2 b) (Cert.Spec.bumpT a0 a2 b) (Cert.Spec.cH a3 r) (Cert.Spec.cT a3 r)
          (Cert.Spec.wH a3 r) (Cert.Spec.wT a3 r) := by
  -- the squashed widths are the score's
  have hw0 : ∀ j, widR (rawR rows) (sizeR rows) (ix3 b (0 : Fin 2) j) = Cert.Spec.wH a3 r j := fun j => by
    have e1 : (fun k => rawR rows (ix3 b (0 : Fin 2) k)) = fun k : Fin 256 => a3 (ix2 r (⟨512 + k.val, by omega⟩ : Fin 1026)) :=
      funext fun k => (width_apply_zero rows b k).trans (hrow _)
    have e2 : sizeR rows (ix2 b (0 : Fin 2)) = a3 (ix2 r (⟨1024, by omega⟩ : Fin 1026)) := (size_apply_zero rows b).trans (hrow _)
    rw [widR_apply, e1, e2]
    exact width_eq _ _ j
  have hw1 : ∀ j, widR (rawR rows) (sizeR rows) (ix3 b (1 : Fin 2) j) = Cert.Spec.wT a3 r j := fun j => by
    have e1 : (fun k => rawR rows (ix3 b (1 : Fin 2) k)) = fun k : Fin 256 => a3 (ix2 r (⟨768 + k.val, by omega⟩ : Fin 1026)) :=
      funext fun k => (width_apply_one rows b k).trans (hrow _)
    have e2 : sizeR rows (ix2 b (1 : Fin 2)) = a3 (ix2 r (⟨1025, by omega⟩ : Fin 1026)) := (size_apply_one rows b).trans (hrow _)
    rw [widR_apply, e1, e2]
    exact width_eq _ _ j
  -- so each width plus one is not zero, and each distance is real
  have hne0 : ∀ j, Cert.Spec.wH a3 r j + 1 ≠ 0 := fun j =>
    Cert.SpecMath.widthN_add_one_ne_zero (fun k => hrel _) (hrel _) j
  have hne1 : ∀ j, Cert.Spec.wT a3 r j + 1 ≠ 0 := fun j =>
    Cert.SpecMath.widthN_add_one_ne_zero (fun k => hrel _) (hrel _) j
  have hreal0 : ∀ j, Cert.SpecMath.IsReal (Cert.Spec.dist (Cert.Spec.bumpH a0 a2 b j) (Cert.Spec.cH a3 r j) (Cert.Spec.wH a3 r j)) :=
    fun j => Cert.SpecMath.isReal_dist _ (Cert.SpecMath.isReal_tanh _)
      (Cert.SpecMath.isReal_widthN (fun k => hrel _) (hrel _) j) (hne0 j)
  have hreal1 : ∀ j, Cert.SpecMath.IsReal (Cert.Spec.dist (Cert.Spec.bumpT a0 a2 b j) (Cert.Spec.cT a3 r j) (Cert.Spec.wT a3 r j)) :=
    fun j => Cert.SpecMath.isReal_dist _ (Cert.SpecMath.isReal_tanh _)
      (Cert.SpecMath.isReal_widthN (fun k => hrel _) (hrel _) j) (hne1 j)
  -- the distances are the score's
  have hd0 : ∀ j, distR (Ideal.tanh (pointsR a0 a2 (ix3 b (0 : Fin 2) j))) (Ideal.tanh (cenR rows (ix3 b (0 : Fin 2) j)))
      (widR (rawR rows) (sizeR rows) (ix3 b (0 : Fin 2) j))
      = Cert.Spec.dist (Cert.Spec.bumpH a0 a2 b j) (Cert.Spec.cH a3 r j) (Cert.Spec.wH a3 r j) := fun j => by
    have ec : cenR rows (ix3 b (0 : Fin 2) j) = a3 (ix2 r (⟨j.val, by omega⟩ : Fin 1026)) :=
      (centre_apply_zero rows b j).trans (hrow _)
    rw [points_apply_zero, hw0, ec]
    exact dist_eq _ _ _ (hne0 j)
  have hd1 : ∀ j, distR (Ideal.tanh (pointsR a0 a2 (ix3 b (1 : Fin 2) j))) (Ideal.tanh (cenR rows (ix3 b (1 : Fin 2) j)))
      (widR (rawR rows) (sizeR rows) (ix3 b (1 : Fin 2) j))
      = Cert.Spec.dist (Cert.Spec.bumpT a0 a2 b j) (Cert.Spec.cT a3 r j) (Cert.Spec.wT a3 r j) := fun j => by
    have ec : cenR rows (ix3 b (1 : Fin 2) j) = a3 (ix2 r (⟨256 + j.val, by omega⟩ : Fin 1026)) :=
      (centre_apply_one rows b j).trans (hrow _)
    rw [points_apply_one, hw1, ec]
    exact dist_eq _ _ _ (hne1 j)
  rw [funext hd0, funext hd1]
  exact scoreR_eq _ _ _ _ _ _ hreal0 hreal1

/-- THE REFERENCE IS THE SCORE. -/
theorem refTerm_eq (a0 : S131072x512.Idx → EReal) (a1 : S131072.Idx → BitVec 32) (a2 : S131072x512.Idx → EReal)
    (a3 : S1024x1026.Idx → EReal) (h : Cert.Spec.Hyp a0 a1 a2 a3) :
    (refTerm (F := Ideal) a0 a1 a2 a3 : S131072.Idx → EReal) = Cert.Spec.score a0 a1 a2 a3 := by
  funext i
  obtain ⟨b, rfl⟩ : ∃ b, i = ix1 b := ⟨i 0, eq_ix1 i⟩
  rw [refTerm_stages, part4_apply]
  exact score_of_rows a0 a2 a3 (rowsR a1 a3) b (Cert.Spec.ridx (a1 (ix1 b))) (rows_apply a1 a3 h.rid_nonneg b) h.rel_real

end Cert.ReferenceIdeal.Hand

end
-- ==== Proof.PreDecode.lean ====
/-
  The precondition read back: the printed predicate is all ones exactly when every float entry is below +∞ in absolute
  value — a real number — and every id is at least 0 and below 1024.
-/
import proofs.«426055_j19370302505588_3_alg».proof.Pre_finite_inputs
import proofs.«426055_j19370302505588_3_alg».proof.Proof.Gen.Pre_finite_inputs
import proofs.«426055_j19370302505588_3_alg».proof.Proof.Spec
import Idealize.ShloMosaic.Lib.ValueIdx
import Idealize.ShloMosaic.Lib.ReduceAll
import Idealize.ShloMosaic.Lib.StableHlo.Predicate

noncomputable section

namespace Cert.PreDecode

open Idealize.ShloMosaic Idealize.ShloMosaic.ValueIdx

/-- The rank-0 shape has one index. -/
instance subsingleton_scalar_idx : Subsingleton Cert.Pre_finite_inputs.S_.Idx :=
  ⟨fun a b => funext fun d => d.elim0⟩

/-- The pattern 0x7F800000 denotes +∞. -/
theorem inf_bits : Ideal.ofBits .f32 0x7F800000#32 = (⊤ : EReal) := by
  simp [Ideal.ofBits, Ideal.ieee]

/-- An extended real whose absolute value max x (-x) is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One entry of the compare |a| < +∞ being 1 says the entry is a real number. -/
theorem real_of_elem {s : Shape} (hb : Cert.Pre_finite_inputs.S_.BroadcastsInDim s (![] : Fin 0 → Fin s.rank))
    (a : s.Idx → EReal) (i : s.Idx)
    (h : cmpf (F := Ideal) .olt (Host.absf (F := Ideal) (φ := .f32) a)
          (broadcastInDim s ![] hb (constant (F := Ideal) Cert.Pre_finite_inputs.S_ .f32 0x7F800000#32)) i = 1#1) :
    ∃ r : ℝ, a i = (r : EReal) := by
  apply real_of_abs_lt_top
  have h' : BitVec.ofBool (decide (max (a i) (-(a i)) < Ideal.ofBits .f32 0x7F800000#32)) = 1#1 := h
  rw [inf_bits] at h'
  rw [StableHlo.Predicate.ofBool_eq_one_iff] at h'
  exact of_decide_eq_true h'

/-- FROM THE PRECONDITION to the facts the value proof uses. -/
theorem hyp_of_pre (a0 : Cert.Pre_finite_inputs.S131072x512.Idx → EReal) (a1 : Cert.Pre_finite_inputs.S131072.Idx → BitVec 32)
    (a2 : Cert.Pre_finite_inputs.S131072x512.Idx → EReal) (a3 : Cert.Pre_finite_inputs.S1024x1026.Idx → EReal)
    (h : Cert.Pre_finite_inputs.fn (F := Ideal) a0 a1 a2 a3 = (fun _ => 1#1)) : Cert.Spec.Hyp a0 a1 a2 a3 := by
  have h0 := congrFun h ValueIdx.ix0
  dsimp only [Cert.Pre_finite_inputs.fn, Cert.Pre_finite_inputs.fn_part1] at h0
  obtain ⟨h4, hlt⟩ := IntOp.andi_eq_one.1 h0
  obtain ⟨h3, hge⟩ := IntOp.andi_eq_one.1 h4
  obtain ⟨h2, hrel⟩ := IntOp.andi_eq_one.1 h3
  obtain ⟨hhead, htail⟩ := IntOp.andi_eq_one.1 h2
  refine ⟨fun i => ?_, fun i => ?_, fun i => ?_, fun i => ?_, fun i => ?_⟩
  · exact real_of_elem _ a0 i (Host.reduce_andi_all _ _ _ _ ValueIdx.ix0 hhead i)
  · exact real_of_elem _ a2 i (Host.reduce_andi_all _ _ _ _ ValueIdx.ix0 htail i)
  · exact real_of_elem _ a3 i (Host.reduce_andi_all _ _ _ _ ValueIdx.ix0 hrel i)
  · have e := Host.reduce_andi_all _ _ _ _ ValueIdx.ix0 hge i
    have e' : (0#32 : BitVec 32).toInt ≤ (a1 i).toInt := IntOp.cmpi_sge.1 e
    rwa [show (0#32 : BitVec 32).toInt = 0 from by decide] at e'
  · have e := Host.reduce_andi_all _ _ _ _ ValueIdx.ix0 hlt i
    have e' : (a1 i).toInt < (1024#32 : BitVec 32).toInt := IntOp.cmpi_slt.1 e
    rwa [show (1024#32 : BitVec 32).toInt = 1024 from by decide] at e'

end Cert.PreDecode

end
-- ==== Proof.lean ====
/-
  Kernel and reference compute one function of the four argument arrays (head and tail embeddings, relation ids, relation
  table): for example `b`, minus the sum of two Euclidean norms of coordinatewise box distances, of the two bumped points
  `head[b, :256] + tail[b, 256:]` and `tail[b, :256] + head[b, 256:]`, to the two boxes of the table row the id selects
  (squashed centres; widths normalised by their softened geometric mean, scaled by the box size, squashed).

  The kernel derives the 1024-row table of squashed centres and widths once on the host, splits it into itself and
  (itself minus itself), and per block of 1024 examples selects each example's row by a one-hot product with both parts:
  on the extended reals the second part is zero and the product selects the row exactly. The reference gathers the raw
  rows first and derives centres and widths per example: the same operations on the same row. The kernel clamps an id
  into `[0, 1023]`; the reference wraps a negative id and then clamps: on ids in `[0, 1024)` both read row `id`. The
  remaining differences are arrangements of one formula — `cd · (1 / (w + 1))` against `cd / (w + 1)`, `w · ½` against
  `w / 2`, `√s` against `s ^ ½`, `d · d` against `|d| · |d|` — equal because every quantity is a real number when the
  inputs are (the widths land in `(−1, 1)`, so `w + 1 ≠ 0`; a sum of squares of reals is a nonnegative real).

  Frames: each program runs to the end without a fault and leaves its arguments unchanged — the kernel program by its
  grid of 128 points, each reading its five input blocks and storing its output block whole; the reference as a straight
  line of host operations.
-/
import proofs.«426055_j19370302505588_3_alg».proof.Defs
import proofs.«426055_j19370302505588_3_alg».proof.Proof.Gen.Kernel
import proofs.«426055_j19370302505588_3_alg».proof.Proof.Gen.KernelIdeal
import proofs.«426055_j19370302505588_3_alg».proof.Proof.Gen.ReferenceIdeal
import proofs.«426055_j19370302505588_3_alg».proof.Proof.Gen.Pre_finite_inputs
import proofs.«426055_j19370302505588_3_alg».proof.Proof.KernelFrame
import proofs.«426055_j19370302505588_3_alg».proof.Proof.KernelIdealValue
import proofs.«426055_j19370302505588_3_alg».proof.Proof.ReferenceIdealRun
import proofs.«426055_j19370302505588_3_alg».proof.Proof.ReferenceIdealValue
import proofs.«426055_j19370302505588_3_alg».proof.Proof.PreDecode

noncomputable section

namespace Cert.Proof

open Idealize.ShloMosaic Idealize.SL.Sem

/-- The word-level kernel program runs and keeps its arguments. -/
theorem frame_kernel : Cert.frame_Kernel := fun m ρ _ => Cert.Kernel.Hand.frame m ρ

/-- So does its reading on the extended reals. -/
theorem frame_kernelIdeal : Cert.frame_KernelIdeal := fun m ρ _ => Cert.KernelIdeal.Hand.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- The ideal pass rewrote nothing. -/
theorem preserves : Cert.preserves_Kernel_KernelIdeal := trivial

/-- Both programs end at the score of the arguments: the kernel always, the reference under the precondition. -/
theorem algebraic : Cert.algebraic_KernelIdeal_ReferenceIdeal := by
  intro m ρ m' ρ' hpre hagree
  refine ⟨_, Cert.KernelIdeal.Hand.result m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2]
  exact Cert.ReferenceIdeal.Hand.refTerm_eq _ _ _ _ (Cert.PreDecode.hyp_of_pre _ _ _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
